-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1200000 : Shape := ⟨2, ![2, 1200000]⟩
abbrev S1200000x4 : Shape := ⟨2, ![1200000, 4]⟩
abbrev S100000 : Shape := ⟨1, ![100000]⟩
abbrev S65 : Shape := ⟨1, ![65]⟩
abbrev S64 : Shape := ⟨1, ![64]⟩
abbrev S4x9 : Shape := ⟨2, ![4, 9]⟩
abbrev S9 : Shape := ⟨1, ![9]⟩
abbrev S9x128 : Shape := ⟨2, ![9, 128]⟩
abbrev S128 : Shape := ⟨1, ![128]⟩
abbrev S128x128 : Shape := ⟨2, ![128, 128]⟩
abbrev S4x128 : Shape := ⟨2, ![4, 128]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S16x4 : Shape := ⟨2, ![16, 4]⟩
abbrev S4 : Shape := ⟨1, ![4]⟩
abbrev S_ : Shape := ⟨0, ![]⟩
abbrev S1x1200000 : Shape := ⟨2, ![1, 1200000]⟩
abbrev S1200000 : Shape := ⟨1, ![1200000]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S1200000x4 : S_.BroadcastsInDim S1200000x4 (![] : Fin 0 → Fin S1200000x4.rank)
  reducesTo_S1200000x4_S_d0_1 : S1200000x4.ReducesTo [0, 1] S_
  bcast_S_S4x9 : S_.BroadcastsInDim S4x9 (![] : Fin 0 → Fin S4x9.rank)
  reducesTo_S4x9_S_d0_1 : S4x9.ReducesTo [0, 1] S_
  bcast_S_S9 : S_.BroadcastsInDim S9 (![] : Fin 0 → Fin S9.rank)
  reducesTo_S9_S_d0 : S9.ReducesTo [0] S_
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part9 {F : FTy → Type} [FloatOps F] (main_arg5 : IVec S64 32) (main_v148 : IVec S_ 1) (main_v152 : IVec S1200000 1) (main_v154 : IVec S1200000 32) : IVec S_ 1 :=
  let main_c_59 : IVec S_ 32 := constantI S_ 32 100000#32
  let main_v155 : IVec S1200000 32 := broadcastInDim S1200000 ![] bcast_S_S1200000 main_c_59
  let main_v156 : IVec S1200000 1 := cmpi .slt main_v154 main_v155
  let main_v157 : IVec S1200000 1 := andi main_v152 main_v156
  let main_c_60 : IVec S_ 1 := constantI S_ 1 1#1
  let main_v158 : IVec S_ 1 := (fun x v => Host.reduce IntOp.andi x v reducesTo_S1200000_S_d0 h_S_) main_v157 main_c_60
  let main_v159 : IVec S_ 1 := andi main_v148 main_v158
  let main_c_61 : IVec S_ 32 := constantI S_ 32 4294867296#32
  let main_v160 : IVec S64 32 := broadcastInDim S64 ![] bcast_S_S64 main_c_61
  let main_v161 : IVec S64 1 := cmpi .sge main_arg5 main_v160
  let main_c_62 : IVec S_ 32 := constantI S_ 32 100000#32
  let main_v162 : IVec S64 32 := broadcastInDim S64 ![] bcast_S_S64 main_c_62
  let main_v163 : IVec S64 1 := cmpi .slt main_arg5 main_v162
  let main_v164 : IVec S64 1 := andi main_v161 main_v163
  let main_c_63 : IVec S_ 1 := constantI S_ 1 1#1
  let main_v165 : IVec S_ 1 := (fun x v => Host.reduce IntOp.andi x v reducesTo_S64_S_d0 h_S_) main_v164 main_c_63
  let main_v166 : IVec S_ 1 := andi main_v159 main_v165
  main_v166

def fn_part8 {F : FTy → Type} [FloatOps F] (main_arg1 : IVec S2x1200000 32) (main_arg5 : IVec S64 32) (main_arg32 : FVec F S16x4 .f32) (main_arg33 : FVec F S4 .f32) (main_v133 : IVec S_ 1) (main_v136 : IVec S16 1) : IVec S_ 1 :=
  let main_c_53 : IVec S_ 1 := constantI S_ 1 1#1
  let main_v137 : IVec S_ 1 := (fun x v => Host.reduce IntOp.andi x v reducesTo_S16_S_d0 h_S_) main_v136 main_c_53
  let main_v138 : IVec S_ 1 := andi main_v133 main_v137
  let main_v139 : FVec F S16x4 .f32 := Host.absf main_arg32
  let main_cst_54 : FVec F S_ .f32 := constant S_ .f32 0x7F800000#32
  let main_v140 : FVec F S16x4 .f32 := broadcastInDim S16x4 ![] bcast_S_S16x4 main_cst_54
  let main_v141 : IVec S16x4 1 := cmpf .olt main_v139 main_v140
  let main_c_55 : IVec S_ 1 := constantI S_ 1 1#1
  let main_v142 : IVec S_ 1 := (fun x v => Host.reduce IntOp.andi x v reducesTo_S16x4_S_d0_1 h_S_) main_v141 main_c_55
  let main_v143 : IVec S_ 1 := andi main_v138 main_v142
  let main_v144 : FVec F S4 .f32 := Host.absf main_arg33
  let main_cst_56 : FVec F S_ .f32 := constant S_ .f32 0x7F800000#32
  let main_v145 : FVec F S4 .f32 := broadcastInDim S4 ![] bcast_S_S4 main_cst_56
  let main_v146 : IVec S4 1 := cmpf .olt main_v144 main_v145
  let main_c_57 : IVec S_ 1 := constantI S_ 1 1#1
  let main_v147 : IVec S_ 1 := (fun x v => Host.reduce IntOp.andi x v reducesTo_S4_S_d0 h_S_) main_v146 main_c_57
  let main_v148 : IVec S_ 1 := andi main_v143 main_v147
  let main_v149 : IVec S1x1200000 32 := (extractStridedSlice S1x1200000 ![0, 0] · slices_S2x1200000_S1x1200000_0_0) main_arg1
  let main_v150 : IVec S1200000 32 := shapeCast S1200000 main_v149 shapeCasts_S1x1200000_S1200000
  let main_c_58 : IVec S_ 32 := constantI S_ 32 4294867296#32
  let main_v151 : IVec S1200000 32 := broadcastInDim S1200000 ![] bcast_S_S1200000 main_c_58
  let main_v152 : IVec S1200000 1 := cmpi .sge main_v150 main_v151
  let main_v153 : IVec S1x1200000 32 := (extractStridedSlice S1x1200000 ![0, 0] · slices_S2x1200000_S1x1200000_0_0) main_arg1
  let main_v154 : IVec S1200000 32 := shapeCast S1200000 main_v153 shapeCasts_S1x1200000_S1200000
  fn_part9 (F := F) main_arg5 main_v148 main_v152 main_v154

def fn_part7 {F : FTy → Type} [FloatOps F] (main_arg1 : IVec S2x1200000 32) (main_arg5 : IVec S64 32) (main_arg29 : FVec F S1 .f32) (main_arg30 : FVec F S64x16 .f32) (main_arg31 : FVec F S16 .f32) (main_arg32 : FVec F S16x4 .f32) (main_arg33 : FVec F S4 .f32) (main_v118 : IVec S_ 1) (main_v119 : FVec F S16x1 .f32) : IVec S_ 1 :=
  let main_cst_46 : FVec F S_ .f32 := constant S_ .f32 0x7F800000#32
  let main_v120 : FVec F S16x1 .f32 := broadcastInDim S16x1 ![] bcast_S_S16x1 main_cst_46
  let main_v121 : IVec S16x1 1 := cmpf .olt main_v119 main_v120
  let main_c_47 : IVec S_ 1 := constantI S_ 1 1#1
  let main_v122 : IVec S_ 1 := (fun x v => Host.reduce IntOp.andi x v reducesTo_S16x1_S_d0_1 h_S_) main_v121 main_c_47
  let main_v123 : IVec S_ 1 := andi main_v118 main_v122
  let main_v124 : FVec F S1 .f32 := Host.absf main_arg29
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S64x16 .f32 := Host.absf main_arg30
  let main_cst_50 : FVec F S_ .f32 := constant S_ .f32 0x7F800000#32
  let main_v130 : FVec F S64x16 .f32 := broadcastInDim S64x16 ![] bcast_S_S64x16 main_cst_50
  let main_v131 : IVec S64x16 1 := cmpf .olt main_v129 main_v130
  let main_c_51 : IVec S_ 1 := constantI S_ 1 1#1
  let main_v132 : IVec S_ 1 := (fun x v => Host.reduce IntOp.andi x v reducesTo_S64x16_S_d0_1 h_S_) main_v131 main_c_51
  let main_v133 : IVec S_ 1 := andi main_v128 main_v132
  let main_v134 : FVec F S16 .f32 := Host.absf main_arg31
  let main_cst_52 : FVec F S_ .f32 := constant S_ .f32 0x7F800000#32
  let main_v135 : FVec F S16 .f32 := broadcastInDim S16 ![] bcast_S_S16 main_cst_52
  let main_v136 : IVec S16 1 := cmpf .olt main_v134 main_v135
  fn_part8 (F := F) main_arg1 main_arg5 main_arg32 main_arg33 main_v133 main_v136

def fn_part6 {F : FTy → Type} [FloatOps F] (main_arg1 : IVec S2x1200000 32) (main_arg5 : IVec S64 32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg25
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x16 .f32 := Host.absf main_arg26
  let main_cst_42 : FVec F S_ .f32 := constant S_ .f32 0x7F800000#32
  let main_v110 : FVec F S64x16 .f32 := broadcastInDim S64x16 ![] bcast_S_S64x16 main_cst_42
  let main_v111 : IVec S64x16 1 := cmpf .olt main_v109 main_v110
  let main_c_43 : IVec S_ 1 := constantI S_ 1 1#1
  let main_v112 : IVec S_ 1 := (fun x v => Host.reduce IntOp.andi x v reducesTo_S64x16_S_d0_1 h_S_) main_v111 main_c_43
  let main_v113 : IVec S_ 1 := andi main_v108 main_v112
  let main_v114 : FVec F S16 .f32 := Host.absf main_arg27
  let main_cst_44 : FVec F S_ .f32 := constant S_ .f32 0x7F800000#32
  let main_v115 : FVec F S16 .f32 := broadcastInDim S16 ![] bcast_S_S16 main_cst_44
  let main_v116 : IVec S16 1 := cmpf .olt main_v114 main_v115
  let main_c_45 : IVec S_ 1 := constantI S_ 1 1#1
  let main_v117 : IVec S_ 1 := (fun x v => Host.reduce IntOp.andi x v reducesTo_S16_S_d0 h_S_) main_v116 main_c_45
  let main_v118 : IVec S_ 1 := andi main_v113 main_v117
  let main_v119 : FVec F S16x1 .f32 := Host.absf main_arg28
  fn_part7 (F := F) main_arg1 main_arg5 main_arg29 main_arg30 main_arg31 main_arg32 main_arg33 main_v118 main_v119

def fn_part5 {F : FTy → Type} [FloatOps F] (main_arg1 : IVec S2x1200000 32) (main_arg5 : IVec S64 32) (main_arg22 : FVec F S64 .f32) (main_arg23 : FVec F S64 .f32) (main_arg24 : FVec F S64x64 .f32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg22
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg24
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg1 main_arg5 main_arg25 main_arg26 main_arg27 main_arg28 main_arg29 main_arg30 main_arg31 main_arg32 main_arg33 main_v98 main_v101 main_c_39

def fn_part4 {F : FTy → Type} [FloatOps F] (main_arg1 : IVec S2x1200000 32) (main_arg5 : IVec S64 32) (main_arg18 : FVec F S128x64 .f32) (main_arg19 : FVec F S64 .f32) (main_arg20 : FVec F S64 .f32) (main_arg21 : FVec F S64 .f32) (main_arg22 : FVec F S64 .f32) (main_arg23 : FVec F S64 .f32) (main_arg24 : FVec F S64x64 .f32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) (main_v63 : IVec S_ 1) (main_v67 : IVec S_ 1) : IVec S_ 1 :=
  let main_v68 : IVec S_ 1 := andi main_v63 main_v67
  let main_v69 : FVec F S128x64 .f32 := Host.absf main_arg18
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg1 main_arg5 main_arg22 main_arg23 main_arg24 main_arg25 main_arg26 main_arg27 main_arg28 main_arg29 main_arg30 main_arg31 main_arg32 main_arg33 main_v83 main_v84 main_cst_32

def fn_part3 {F : FTy → Type} [FloatOps F] (main_arg1 : IVec S2x1200000 32) (main_arg5 : IVec S64 32) (main_arg15 : FVec F S128 .f32) (main_arg16 : FVec F S4x128 .f32) (main_arg17 : FVec F S128 .f32) (main_arg18 : FVec F S128x64 .f32) (main_arg19 : FVec F S64 .f32) (main_arg20 : FVec F S64 .f32) (main_arg21 : FVec F S64 .f32) (main_arg22 : FVec F S64 .f32) (main_arg23 : FVec F S64 .f32) (main_arg24 : FVec F S64x64 .f32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S4x128 .f32 := Host.absf main_arg16
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg5 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg1 : IVec S2x1200000 32) (main_arg5 : IVec S64 32) (main_arg11 : FVec F S128 .f32) (main_arg12 : FVec F S128 .f32) (main_arg13 : FVec F S128 .f32) (main_arg14 : FVec F S128x128 .f32) (main_arg15 : FVec F S128 .f32) (main_arg16 : FVec F S4x128 .f32) (main_arg17 : FVec F S128 .f32) (main_arg18 : FVec F S128x64 .f32) (main_arg19 : FVec F S64 .f32) (main_arg20 : FVec F S64 .f32) (main_arg21 : FVec F S64 .f32) (main_arg22 : FVec F S64 .f32) (main_arg23 : FVec F S64 .f32) (main_arg24 : FVec F S64x64 .f32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg1 main_arg5 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg1 : IVec S2x1200000 32) (main_arg5 : IVec S64 32) (main_arg8 : FVec F S9x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S4x128 .f32) (main_arg17 : FVec F S128 .f32) (main_arg18 : FVec F S128x64 .f32) (main_arg19 : FVec F S64 .f32) (main_arg20 : FVec F S64 .f32) (main_arg21 : FVec F S64 .f32) (main_arg22 : FVec F S64 .f32) (main_arg23 : FVec F S64 .f32) (main_arg24 : FVec F S64x64 .f32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S9x128 .f32 := Host.absf main_arg8
  let main_cst_6 : FVec F S_ .f32 := constant S_ .f32 0x7F800000#32
  let main_v20 : FVec F S9x128 .f32 := broadcastInDim S9x128 ![] bcast_S_S9x128 main_cst_6
  let main_v21 : IVec S9x128 1 := cmpf .olt main_v19 main_v20
  let main_c_7 : IVec S_ 1 := constantI S_ 1 1#1
  let main_v22 : IVec S_ 1 := (fun x v => Host.reduce IntOp.andi x v reducesTo_S9x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg5 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x9 .f32) (main_arg1 : IVec S2x1200000 32) (main_arg2 : FVec F S1200000x4 .f32) (main_arg3 : IVec S100000 32) (main_arg4 : IVec S65 32) (main_arg5 : IVec S64 32) (main_arg6 : FVec F S4x9 .f32) (main_arg7 : FVec F S9 .f32) (main_arg8 : FVec F S9x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S4x128 .f32) (main_arg17 : FVec F S128 .f32) (main_arg18 : FVec F S128x64 .f32) (main_arg19 : FVec F S64 .f32) (main_arg20 : FVec F S64 .f32) (main_arg21 : FVec F S64 .f32) (main_arg22 : FVec F S64 .f32) (main_arg23 : FVec F S64 .f32) (main_arg24 : FVec F S64x64 .f32) (main_arg25 : FVec F S64 .f32) (main_arg26 : FVec F S64x16 .f32) (main_arg27 : FVec F S16 .f32) (main_arg28 : FVec F S16x1 .f32) (main_arg29 : FVec F S1 .f32) (main_arg30 : FVec F S64x16 .f32) (main_arg31 : FVec F S16 .f32) (main_arg32 : FVec F S16x4 .f32) (main_arg33 : FVec F S4 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S1200000x4 .f32 := Host.absf main_arg2
  let main_cst_0 : FVec F S_ .f32 := constant S_ .f32 0x7F800000#32
  let main_v5 : FVec F S1200000x4 .f32 := broadcastInDim S1200000x4 ![] bcast_S_S1200000x4 main_cst_0
  let main_v6 : IVec S1200000x4 1 := cmpf .olt main_v4 main_v5
  let main_c_1 : IVec S_ 1 := constantI S_ 1 1#1
  let main_v7 : IVec S_ 1 := (fun x v => Host.reduce IntOp.andi x v reducesTo_S1200000x4_S_d0_1 h_S_) main_v6 main_c_1
  let main_v8 : IVec S_ 1 := andi main_v3 main_v7
  let main_v9 : FVec F S4x9 .f32 := Host.absf main_arg6
  let main_cst_2 : FVec F S_ .f32 := constant S_ .f32 0x7F800000#32
  let main_v10 : FVec F S4x9 .f32 := broadcastInDim S4x9 ![] bcast_S_S4x9 main_cst_2
  let main_v11 : IVec S4x9 1 := cmpf .olt main_v9 main_v10
  let main_c_3 : IVec S_ 1 := constantI S_ 1 1#1
  let main_v12 : IVec S_ 1 := (fun x v => Host.reduce IntOp.andi x v reducesTo_S4x9_S_d0_1 h_S_) main_v11 main_c_3
  let main_v13 : IVec S_ 1 := andi main_v8 main_v12
  let main_v14 : FVec F S9 .f32 := Host.absf main_arg7
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg1 main_arg5 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x9 : Shape := ⟨2, ![100000, 9]⟩
abbrev S2x1200000 : Shape := ⟨2, ![2, 1200000]⟩
abbrev S1200000x4 : Shape := ⟨2, ![1200000, 4]⟩
abbrev S100000 : Shape := ⟨1, ![100000]⟩
abbrev S65 : Shape := ⟨1, ![65]⟩
abbrev S64 : Shape := ⟨1, ![64]⟩
abbrev S4x9 : Shape := ⟨2, ![4, 9]⟩
abbrev S9 : Shape := ⟨1, ![9]⟩
abbrev S9x128 : Shape := ⟨2, ![9, 128]⟩
abbrev S128 : Shape := ⟨1, ![128]⟩
abbrev S128x128 : Shape := ⟨2, ![128, 128]⟩
abbrev S4x128 : Shape := ⟨2, ![4, 128]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S16x4 : Shape := ⟨2, ![16, 4]⟩
abbrev S4 : Shape := ⟨1, ![4]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1x1 : Shape := ⟨2, ![1, 1]⟩
abbrev S1200000x9 : Shape := ⟨2, ![1200000, 9]⟩
abbrev S1x9 : Shape := ⟨2, ![1, 9]⟩
abbrev S6000x9 : Shape := ⟨2, ![6000, 9]⟩
abbrev S6000x4 : Shape := ⟨2, ![6000, 4]⟩
abbrev S1x128 : Shape := ⟨2, ![1, 128]⟩
abbrev S100000x128 : Shape := ⟨2, ![100000, 128]⟩
abbrev S5000x9 : Shape := ⟨2, ![5000, 9]⟩
abbrev S5000x128 : Shape := ⟨2, ![5000, 128]⟩
abbrev S1200000x128 : Shape := ⟨2, ![1200000, 128]⟩
abbrev S6000x128 : Shape := ⟨2, ![6000, 128]⟩
abbrev S1x64 : Shape := ⟨2, ![1, 64]⟩
abbrev S100000x64 : Shape := ⟨2, ![100000, 64]⟩
abbrev S5000x64 : Shape := ⟨2, ![5000, 64]⟩
abbrev S1x16 : Shape := ⟨2, ![1, 16]⟩
abbrev S100000x1 : Shape := ⟨2, ![100000, 1]⟩
abbrev S5000x1 : Shape := ⟨2, ![5000, 1]⟩
abbrev S5000x16 : Shape := ⟨2, ![5000, 16]⟩
abbrev S64x1 : Shape := ⟨2, ![64, 1]⟩
abbrev S64x4 : Shape := ⟨2, ![64, 4]⟩
abbrev S1x4 : Shape := ⟨2, ![1, 4]⟩

abbrev nBuf : Space → Nat
  | .hbm => 148
  | .vmem => 52
  | .smem => 0
  | _ => 0

abbrev hbmTy0_0 (i : Nat) : BufTy := match i % 128 with
  | 0 => ⟨S100000x9, .f32⟩
  | 1 => ⟨S2x1200000, .i32⟩
  | 2 => ⟨S1200000x4, .f32⟩
  | 3 => ⟨S100000, .i32⟩
  | 4 => ⟨S65, .i32⟩
  | 5 => ⟨S64, .i32⟩
  | 6 => ⟨S4x9, .f32⟩
  | 7 => ⟨S9, .f32⟩
  | 8 => ⟨S9x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S4x128, .f32⟩
  | 17 => ⟨S128, .f32⟩
  | 18 => ⟨S128x64, .f32⟩
  | 19 => ⟨S64, .f32⟩
  | 20 => ⟨S64, .f32⟩
  | 21 => ⟨S64, .f32⟩
  | 22 => ⟨S64, .f32⟩
  | 23 => ⟨S64, .f32⟩
  | 24 => ⟨S64x64, .f32⟩
  | 25 => ⟨S64, .f32⟩
  | 26 => ⟨S64x16, .f32⟩
  | 27 => ⟨S16, .f32⟩
  | 28 => ⟨S16x1, .f32⟩
  | 29 => ⟨S1, .f32⟩
  | 30 => ⟨S64x16, .f32⟩
  | 31 => ⟨S16, .f32⟩
  | 32 => ⟨S16x4, .f32⟩
  | 33 => ⟨S4, .f32⟩
  | 34 => ⟨S1x1200000, .i32⟩
  | 35 => ⟨S1200000, .i32⟩
  | 36 => ⟨S1x1200000, .i32⟩
  | 37 => ⟨S1200000, .i32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1, .i32⟩
  | 47 => ⟨S_, .i32⟩
  | 48 => ⟨S1200000x1, .i32⟩
  | 49 => ⟨S1200000x1, .i1⟩
  | 50 => ⟨S1x1, .i32⟩
  | 51 => ⟨S1200000x1, .i32⟩
  | 52 => ⟨S1200000x1, .i1⟩
  | 53 => ⟨S1200000x1, .i1⟩
  | 54 => ⟨S_, .i1⟩
  | 55 => ⟨S1200000, .i1⟩
  | 56 => ⟨S1200000x9, .f32⟩
  | 57 => ⟨S1200000x9, .i1⟩
  | 58 => ⟨S_, .f32⟩
  | 59 => ⟨S1200000x9, .f32⟩
  | 60 => ⟨S1200000x9, .f32⟩
  | 61 => ⟨S1x9, .f32⟩
  | 62 => ⟨S1200000x9, .f32⟩
  | 63 => ⟨S_, .f32⟩
  | 64 => ⟨S100000x9, .f32⟩
  | 65 => ⟨S1200000x1, .i32⟩
  | 66 => ⟨S100000x9, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S100000x128, .f32⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1, .i32⟩
  | 83 => ⟨S_, .i32⟩
  | 84 => ⟨S1200000x1, .i32⟩
  | 85 => ⟨S1200000x1, .i1⟩
  | 86 => ⟨S1x1, .i32⟩
  | 87 => ⟨S1200000x1, .i32⟩
  | 88 => ⟨S1200000x1, .i1⟩
  | 89 => ⟨S1200000x1, .i1⟩
  | 90 => ⟨S_, .i1⟩
  | 91 => ⟨S1200000, .i1⟩
  | 92 => ⟨S1200000x128, .f32⟩
  | 93 => ⟨S1200000x128, .i1⟩
  | 94 => ⟨S_, .f32⟩
  | 95 => ⟨S1200000x128, .f32⟩
  | 96 => ⟨S1200000x128, .f32⟩
  | 97 => ⟨S1x128, .f32⟩
  | 98 => ⟨S1200000x128, .f32⟩
  | 99 => ⟨S_, .f32⟩
  | 100 => ⟨S100000x128, .f32⟩
  | 101 => ⟨S1200000x1, .i32⟩
  | 102 => ⟨S100000x128, .f32⟩
  | 103 => ⟨S1x64, .f32⟩
  | 104 => ⟨S1x64, .f32⟩
  | 105 => ⟨S1x64, .f32⟩
  | 106 => ⟨S1x64, .f32⟩
  | 107 => ⟨S1x64, .f32⟩
  | 108 => ⟨S1x64, .f32⟩
  | 109 => ⟨S100000x64, .f32⟩
  | 110 => ⟨S1x16, .f32⟩
  | 111 => ⟨S1x1, .f32⟩
  | 112 => ⟨S100000x1, .f32⟩
  | 113 => ⟨S100000, .f32⟩
  | 114 => ⟨S_, .i32⟩
  | 115 => ⟨S64, .i32⟩
  | 116 => ⟨S64, .i1⟩
  | 117 => ⟨S_, .i32⟩
  | 118 => ⟨S64, .i32⟩
  | 119 => ⟨S64, .i32⟩
  | 120 => ⟨S64, .i32⟩
  | 121 => ⟨S64x1, .i32⟩
  | 122 => ⟨S1, .i32⟩
  | 123 => ⟨S_, .i32⟩
  | 124 => ⟨S64x1, .i32⟩
  | 125 => ⟨S64x1, .i1⟩
  | 126 => ⟨S1x1, .i32⟩
  | 127 => ⟨S64x1, .i32⟩
  | _ => ⟨S100000x9, .f32⟩

abbrev hbmTy0_1 (i : Nat) : BufTy := match i % 128 with
  | 0 => ⟨S64x1, .i1⟩
  | 1 => ⟨S64x1, .i1⟩
  | 2 => ⟨S_, .i1⟩
  | 3 => ⟨S64, .i1⟩
  | 4 => ⟨S64x64, .f32⟩
  | 5 => ⟨S64x64, .i1⟩
  | 6 => ⟨S_, .f32⟩
  | 7 => ⟨S64x64, .f32⟩
  | 8 => ⟨S64x64, .f32⟩
  | 9 => ⟨S64x16, .f32⟩
  | 10 => ⟨S1x16, .f32⟩
  | 11 => ⟨S64x16, .f32⟩
  | 12 => ⟨S64x16, .f32⟩
  | 13 => ⟨S_, .f32⟩
  | 14 => ⟨S64x16, .f32⟩
  | 15 => ⟨S64x16, .f32⟩
  | 16 => ⟨S64x4, .f32⟩
  | 17 => ⟨S1x4, .f32⟩
  | 18 => ⟨S64x4, .f32⟩
  | 19 => ⟨S64x4, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | .local _ .vmem, ⟨0, _⟩ => ⟨S6000x9, .f32⟩
  | .local _ .vmem, ⟨1, _⟩ => ⟨S6000x9, .f32⟩
  | .local _ .vmem, ⟨2, _⟩ => ⟨S6000x4, .f32⟩
  | .local _ .vmem, ⟨3, _⟩ => ⟨S6000x4, .f32⟩
  | .local _ .vmem, ⟨4, _⟩ => ⟨S4x9, .f32⟩
  | .local _ .vmem, ⟨5, _⟩ => ⟨S1x9, .f32⟩
  | .local _ .vmem, ⟨6, _⟩ => ⟨S6000x9, .f32⟩
  | .local _ .vmem, ⟨7, _⟩ => ⟨S6000x9, .f32⟩
  | .local _ .vmem, ⟨8, _⟩ => ⟨S5000x9, .f32⟩
  | .local _ .vmem, ⟨9, _⟩ => ⟨S5000x9, .f32⟩
  | .local _ .vmem, ⟨10, _⟩ => ⟨S5000x9, .f32⟩
  | .local _ .vmem, ⟨11, _⟩ => ⟨S5000x9, .f32⟩
  | .local _ .vmem, ⟨12, _⟩ => ⟨S9x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S6000x128, .f32⟩
  | .local _ .vmem, ⟨23, _⟩ => ⟨S6000x128, .f32⟩
  | .local _ .vmem, ⟨24, _⟩ => ⟨S6000x4, .f32⟩
  | .local _ .vmem, ⟨25, _⟩ => ⟨S6000x4, .f32⟩
  | .local _ .vmem, ⟨26, _⟩ => ⟨S4x128, .f32⟩
  | .local _ .vmem, ⟨27, _⟩ => ⟨S1x128, .f32⟩
  | .local _ .vmem, ⟨28, _⟩ => ⟨S6000x128, .f32⟩
  | .local _ .vmem, ⟨29, _⟩ => ⟨S6000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x16, .f32⟩
  | .local _ .vmem, ⟨47, _⟩ => ⟨S1x16, .f32⟩
  | .local _ .vmem, ⟨48, _⟩ => ⟨S16x1, .f32⟩
  | .local _ .vmem, ⟨49, _⟩ => ⟨S1x1, .f32⟩
  | .local _ .vmem, ⟨50, _⟩ => ⟨S5000x1, .f32⟩
  | .local _ .vmem, ⟨51, _⟩ => ⟨S5000x1, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_cst_0 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_call3_cst : Ref sig .tc := ⟨.hbm, 141, rfl⟩
abbrev main_call3_v0 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x9_0 : S1200000.BroadcastsInDim S1200000x9 (![0] : Fin 1 → Fin S1200000x9.rank)
  bcast_S_S1200000x9 : S_.BroadcastsInDim S1200000x9 (![] : Fin 0 → Fin S1200000x9.rank)
  shapeCasts_S9_S1x9 : S9.ShapeCasts S1x9
  inb_S6000x4_S6000x4_0_0 : ∀ a, (![0, 0] : Fin 2 → Nat) a + S6000x4.size a ≤ S6000x4.size a
  h_S6000x4 : 0 < S6000x4.numel
  bitsLt_bf16_f32 : FTy.bits .bf16 < FTy.bits .f32
  inb_S4x9_S4x9_0_0 : ∀ a, (![0, 0] : Fin 2 → Nat) a + S4x9.size a ≤ S4x9.size a
  h_S4x9 : 0 < S4x9.numel
  inb_S6000x9_S6000x9_0_0 : ∀ a, (![0, 0] : Fin 2 → Nat) a + S6000x9.size a ≤ S6000x9.size a
  h_S6000x9 : 0 < S6000x9.numel
  shapeCasts_S6000x9_S6000x9 : S6000x9.ShapeCasts S6000x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S6000x9 : S1x9.Broadcasts S6000x9
  bcast_S_S100000x9 : S_.BroadcastsInDim S100000x9 (![] : Fin 0 → Fin S100000x9.rank)
  shapeCasts_S128_S1x128 : S128.ShapeCasts S1x128
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  inb_S9x128_S9x128_0_0 : ∀ a, (![0, 0] : Fin 2 → Nat) a + S9x128.size a ≤ S9x128.size a
  h_S9x128 : 0 < S9x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S1200000_S1200000x128_0 : S1200000.BroadcastsInDim S1200000x128 (![0] : Fin 1 → Fin S1200000x128.rank)
  bcast_S_S1200000x128 : S_.BroadcastsInDim S1200000x128 (![] : Fin 0 → Fin S1200000x128.rank)
  inb_S4x128_S4x128_0_0 : ∀ a, (![0, 0] : Fin 2 → Nat) a + S4x128.size a ≤ S4x128.size a
  h_S4x128 : 0 < S4x128.numel
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  broadcasts_S1x128_S6000x128 : S1x128.Broadcasts S6000x128
  bcast_S_S100000x128 : S_.BroadcastsInDim S100000x128 (![] : Fin 0 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  shapeCasts_S16_S1x16 : S16.ShapeCasts S1x16
  shapeCasts_S1_S1x1 : S1.ShapeCasts S1x1
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S64x64_0 : S64.BroadcastsInDim S64x64 (![0] : Fin 1 → Fin S64x64.rank)
  bcast_S_S64x64 : S_.BroadcastsInDim S64x64 (![] : Fin 0 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  gather_S100000x9_S1200000x1_S1200000x9_1_0_n_n_0_1_19_wf : GatherDims.WF S100000x9 S1200000x1 S1200000x9 [1] [0] [] [0] [] 1 ![1, 9]
  dot_S6000x4_S4x9_S6000x9_1_0_0_1_n_n_wf : DotDims.WF S6000x4 S4x9 S6000x9 [1] [0] [0] [1] [] []
  scatter_S100000x9_S1200000x1_S1200000x9_1_0_0_1_wf : ScatterDims.WF S100000x9 S1200000x1 S1200000x9 [1] [0] [0] 1
  dot_S5000x9_S9x128_S5000x128_1_0_0_1_n_n_wf : DotDims.WF S5000x9 S9x128 S5000x128 [1] [0] [0] [1] [] []
  dot_S5000x128_S128x128_S5000x128_1_0_0_1_n_n_wf : DotDims.WF S5000x128 S128x128 S5000x128 [1] [0] [0] [1] [] []
  gather_S100000x128_S1200000x1_S1200000x128_1_0_n_n_0_1_1128_wf : GatherDims.WF S100000x128 S1200000x1 S1200000x128 [1] [0] [] [0] [] 1 ![1, 128]
  dot_S6000x4_S4x128_S6000x128_1_0_0_1_n_n_wf : DotDims.WF S6000x4 S4x128 S6000x128 [1] [0] [0] [1] [] []
  scatter_S100000x128_S1200000x1_S1200000x128_1_0_0_1_wf : ScatterDims.WF S100000x128 S1200000x1 S1200000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  dot_S5000x16_S16x1_S5000x1_1_0_0_1_n_n_wf : DotDims.WF S5000x16 S16x1 S5000x1 [1] [0] [0] [1] [] []
  gather_S100000x64_S64x1_S64x64_1_0_n_n_0_1_164_wf : GatherDims.WF S100000x64 S64x1 S64x64 [1] [0] [] [0] [] 1 ![1, 64]
  dot_S64x64_S64x16_S64x16_1_0_0_1_n_n_wf : DotDims.WF S64x64 S64x16 S64x16 [1] [0] [0] [1] [] []
  dot_S64x16_S16x4_S64x4_1_0_0_1_n_n_wf : DotDims.WF S64x16 S16x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x9.size a ≤ S1200000x9.size a
  hwx0_0 : ∀ i : grid0.Coords, EltTy.bits .f32 = 32 ∨ (Rect.block (s := S1200000x9) S6000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x4.size a ≤ S1200000x4.size a
  hwx0_1 : ∀ i : grid0.Coords, EltTy.bits .f32 = 32 ∨ (Rect.block (s := S1200000x4) S6000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x9.size a ≤ S4x9.size a
  hwx0_2 : ∀ i : grid0.Coords, EltTy.bits .f32 = 32 ∨ (Rect.block (s := S4x9) S4x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9.size a ≤ S1x9.size a
  hwx0_3 : ∀ i : grid0.Coords, EltTy.bits .f32 = 32 ∨ (Rect.block (s := S1x9) S1x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x9.size a ≤ S1200000x9.size a
  hwx0_4 : ∀ i : grid0.Coords, EltTy.bits .f32 = 32 ∨ (Rect.block (s := S1200000x9) S6000x9.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x9.size a ≤ S100000x9.size a
  hwx1_0 : ∀ i : grid1.Coords, EltTy.bits .f32 = 32 ∨ (Rect.block (s := S100000x9) S5000x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x9.size a ≤ S100000x9.size a
  hwx1_1 : ∀ i : grid1.Coords, EltTy.bits .f32 = 32 ∨ (Rect.block (s := S100000x9) S5000x9.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x128.size a ≤ S9x128.size a
  hwx1_2 : ∀ i : grid1.Coords, EltTy.bits .f32 = 32 ∨ (Rect.block (s := S9x128) S9x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S1200000x128.size a
  hwx2_0 : ∀ i : grid2.Coords, EltTy.bits .f32 = 32 ∨ (Rect.block (s := S1200000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x4.size a ≤ S1200000x4.size a
  hwx2_1 : ∀ i : grid2.Coords, EltTy.bits .f32 = 32 ∨ (Rect.block (s := S1200000x4) S6000x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x128.size a
  hwx2_2 : ∀ i : grid2.Coords, EltTy.bits .f32 = 32 ∨ (Rect.block (s := S4x128) S4x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x128.size a ≤ S1200000x128.size a
  hwx2_4 : ∀ i : grid2.Coords, EltTy.bits .f32 = 32 ∨ (Rect.block (s := S1200000x128) S6000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x64.size a ≤ S100000x64.size a
  hwx3_10 : ∀ i : grid3.Coords, EltTy.bits .f32 = 32 ∨ (Rect.block (s := S100000x64) S5000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x1.size a ≤ S16x1.size a
  hwx4_3 : ∀ i : grid4.Coords, EltTy.bits .f32 = 32 ∨ (Rect.block (s := S16x1) S16x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def gather_S100000x9_S1200000x1_S1200000x9_1_0_n_n_0_1_19 : GatherDims S100000x9 S1200000x1 S1200000x9 where
  offsetDims := [1]
  collapsedSliceDims := [0]
  operandBatchingDims := []
  startIndicesBatchingDims := []
  startIndexMap := [0]
  indexVectorDim := 1
  sliceSizes := ![1, 9]
  wf := gather_S100000x9_S1200000x1_S1200000x9_1_0_n_n_0_1_19_wf
def dot_S6000x4_S4x9_S6000x9_1_0_0_1_n_n : DotDims S6000x4 S4x9 S6000x9 where
  lhsContracting := [1]
  rhsContracting := [0]
  lhsNonContracting := [0]
  rhsNonContracting := [1]
  lhsBatch := []
  rhsBatch := []
  wf := dot_S6000x4_S4x9_S6000x9_1_0_0_1_n_n_wf
def scatter_S100000x9_S1200000x1_S1200000x9_1_0_0_1 : ScatterDims S100000x9 S1200000x1 S1200000x9 where
  updateWindowDims := [1]
  insertedWindowDims := [0]
  scatterDimsToOperandDims := [0]
  indexVectorDim := 1
  wf := scatter_S100000x9_S1200000x1_S1200000x9_1_0_0_1_wf
def dot_S5000x9_S9x128_S5000x128_1_0_0_1_n_n : DotDims S5000x9 S9x128 S5000x128 where
  lhsContracting := [1]
  rhsContracting := [0]
  lhsNonContracting := [0]
  rhsNonContracting := [1]
  lhsBatch := []
  rhsBatch := []
  wf := dot_S5000x9_S9x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def dot_S6000x4_S4x128_S6000x128_1_0_0_1_n_n : DotDims S6000x4 S4x128 S6000x128 where
  lhsContracting := [1]
  rhsContracting := [0]
  lhsNonContracting := [0]
  rhsNonContracting := [1]
  lhsBatch := []
  rhsBatch := []
  wf := dot_S6000x4_S4x128_S6000x128_1_0_0_1_n_n_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x64_S64x1_S64x64_1_0_n_n_0_1_164 : GatherDims S100000x64 S64x1 S64x64 where
  offsetDims := [1]
  collapsedSliceDims := [0]
  operandBatchingDims := []
  startIndicesBatchingDims := []
  startIndexMap := [0]
  indexVectorDim := 1
  sliceSizes := ![1, 64]
  wf := gather_S100000x64_S64x1_S64x64_1_0_n_n_0_1_164_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x4_S64x4_1_0_0_1_n_n : DotDims S64x16 S16x4 S64x4 where
  lhsContracting := [1]
  rhsContracting := [0]
  lhsNonContracting := [0]
  rhsNonContracting := [1]
  lhsBatch := []
  rhsBatch := []
  wf := dot_S64x16_S16x4_S64x4_1_0_0_1_n_n_wf

abbrev win0_0 : Pipeline.Window sig grid0 :=
  Pipeline.Window.ofSpec (Memref.whole main_v4) S6000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S4x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S6000x9.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S9x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v17) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S6000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v16) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg18) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v27) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg24) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v28) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v29) S5000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v29) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg26) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg28) S16x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v31) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v32) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x9 : Shape := ⟨2, ![100000, 9]⟩
abbrev S2x1200000 : Shape := ⟨2, ![2, 1200000]⟩
abbrev S1200000x4 : Shape := ⟨2, ![1200000, 4]⟩
abbrev S100000 : Shape := ⟨1, ![100000]⟩
abbrev S65 : Shape := ⟨1, ![65]⟩
abbrev S64 : Shape := ⟨1, ![64]⟩
abbrev S4x9 : Shape := ⟨2, ![4, 9]⟩
abbrev S9 : Shape := ⟨1, ![9]⟩
abbrev S9x128 : Shape := ⟨2, ![9, 128]⟩
abbrev S128 : Shape := ⟨1, ![128]⟩
abbrev S128x128 : Shape := ⟨2, ![128, 128]⟩
abbrev S4x128 : Shape := ⟨2, ![4, 128]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S16x4 : Shape := ⟨2, ![16, 4]⟩
abbrev S4 : Shape := ⟨1, ![4]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x9 : Shape := ⟨2, ![1200000, 9]⟩
abbrev S1x9 : Shape := ⟨2, ![1, 9]⟩
abbrev S100000x128 : Shape := ⟨2, ![100000, 128]⟩
abbrev S1x128 : Shape := ⟨2, ![1, 128]⟩
abbrev S1200000x128 : Shape := ⟨2, ![1200000, 128]⟩
abbrev S100000x64 : Shape := ⟨2, ![100000, 64]⟩
abbrev S1x64 : Shape := ⟨2, ![1, 64]⟩
abbrev S100000x16 : Shape := ⟨2, ![100000, 16]⟩
abbrev S1x16 : Shape := ⟨2, ![1, 16]⟩
abbrev S100000x1 : Shape := ⟨2, ![100000, 1]⟩
abbrev S1x1 : Shape := ⟨2, ![1, 1]⟩
abbrev S64x1 : Shape := ⟨2, ![64, 1]⟩
abbrev S64x4 : Shape := ⟨2, ![64, 4]⟩
abbrev S1x4 : Shape := ⟨2, ![1, 4]⟩

abbrev nBuf : Space → Nat
  | .hbm => 174
  | .vmem => 0
  | .smem => 0
  | _ => 0

abbrev hbmTy0_0 (i : Nat) : BufTy := match i % 128 with
  | 0 => ⟨S100000x9, .f32⟩
  | 1 => ⟨S2x1200000, .i32⟩
  | 2 => ⟨S1200000x4, .f32⟩
  | 3 => ⟨S100000, .i32⟩
  | 4 => ⟨S65, .i32⟩
  | 5 => ⟨S64, .i32⟩
  | 6 => ⟨S4x9, .f32⟩
  | 7 => ⟨S9, .f32⟩
  | 8 => ⟨S9x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S4x128, .f32⟩
  | 17 => ⟨S128, .f32⟩
  | 18 => ⟨S128x64, .f32⟩
  | 19 => ⟨S64, .f32⟩
  | 20 => ⟨S64, .f32⟩
  | 21 => ⟨S64, .f32⟩
  | 22 => ⟨S64, .f32⟩
  | 23 => ⟨S64, .f32⟩
  | 24 => ⟨S64x64, .f32⟩
  | 25 => ⟨S64, .f32⟩
  | 26 => ⟨S64x16, .f32⟩
  | 27 => ⟨S16, .f32⟩
  | 28 => ⟨S16x1, .f32⟩
  | 29 => ⟨S1, .f32⟩
  | 30 => ⟨S64x16, .f32⟩
  | 31 => ⟨S16, .f32⟩
  | 32 => ⟨S16x4, .f32⟩
  | 33 => ⟨S4, .f32⟩
  | 34 => ⟨S1x1200000, .i32⟩
  | 35 => ⟨S1200000, .i32⟩
  | 36 => ⟨S1x1200000, .i32⟩
  | 37 => ⟨S1200000, .i32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000x9, .f32⟩
  | 47 => ⟨S1200000x9, .f32⟩
  | 48 => ⟨S1200000x9, .f32⟩
  | 49 => ⟨S1x9, .f32⟩
  | 50 => ⟨S1200000x9, .f32⟩
  | 51 => ⟨S1200000x9, .f32⟩
  | 52 => ⟨S_, .f32⟩
  | 53 => ⟨S1200000x9, .f32⟩
  | 54 => ⟨S1200000x9, .f32⟩
  | 55 => ⟨S_, .f32⟩
  | 56 => ⟨S100000x9, .f32⟩
  | 57 => ⟨S1200000x1, .i32⟩
  | 58 => ⟨S100000x9, .f32⟩
  | 59 => ⟨S100000x9, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S1200000, .i32⟩
  | 92 => ⟨S1200000, .i1⟩
  | 93 => ⟨S_, .i32⟩
  | 94 => ⟨S1200000, .i32⟩
  | 95 => ⟨S1200000, .i32⟩
  | 96 => ⟨S1200000, .i32⟩
  | 97 => ⟨S1200000x1, .i32⟩
  | 98 => ⟨S1200000x128, .f32⟩
  | 99 => ⟨S1200000x128, .f32⟩
  | 100 => ⟨S1200000x128, .f32⟩
  | 101 => ⟨S1x128, .f32⟩
  | 102 => ⟨S1200000x128, .f32⟩
  | 103 => ⟨S1200000x128, .f32⟩
  | 104 => ⟨S_, .f32⟩
  | 105 => ⟨S1200000x128, .f32⟩
  | 106 => ⟨S1200000x128, .f32⟩
  | 107 => ⟨S_, .f32⟩
  | 108 => ⟨S100000x128, .f32⟩
  | 109 => ⟨S1200000x1, .i32⟩
  | 110 => ⟨S100000x128, .f32⟩
  | 111 => ⟨S100000x128, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x9, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x16, .f32⟩
  | 15 => ⟨S1x16, .f32⟩
  | 16 => ⟨S100000x16, .f32⟩
  | 17 => ⟨S100000x16, .f32⟩
  | 18 => ⟨S_, .f32⟩
  | 19 => ⟨S100000x16, .f32⟩
  | 20 => ⟨S100000x16, .f32⟩
  | 21 => ⟨S100000x1, .f32⟩
  | 22 => ⟨S1x1, .f32⟩
  | 23 => ⟨S100000x1, .f32⟩
  | 24 => ⟨S100000x1, .f32⟩
  | 25 => ⟨S100000, .f32⟩
  | 26 => ⟨S_, .i32⟩
  | 27 => ⟨S64, .i32⟩
  | 28 => ⟨S64, .i1⟩
  | 29 => ⟨S_, .i32⟩
  | 30 => ⟨S64, .i32⟩
  | 31 => ⟨S64, .i32⟩
  | 32 => ⟨S64, .i32⟩
  | 33 => ⟨S64x1, .i32⟩
  | 34 => ⟨S64x64, .f32⟩
  | 35 => ⟨S64x16, .f32⟩
  | 36 => ⟨S1x16, .f32⟩
  | 37 => ⟨S64x16, .f32⟩
  | 38 => ⟨S64x16, .f32⟩
  | 39 => ⟨S_, .f32⟩
  | 40 => ⟨S64x16, .f32⟩
  | 41 => ⟨S64x16, .f32⟩
  | 42 => ⟨S64x4, .f32⟩
  | 43 => ⟨S1x4, .f32⟩
  | 44 => ⟨S64x4, .f32⟩
  | 45 => ⟨S64x4, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call0_cst : Ref sig .tc := ⟨.hbm, 52, rfl⟩
abbrev main_call0_v0 : Ref sig .tc := ⟨.hbm, 53, rfl⟩
abbrev main_v16 : Ref sig .tc := ⟨.hbm, 54, rfl⟩
abbrev main_cst : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call1_cst : Ref sig .tc := ⟨.hbm, 80, rfl⟩
abbrev main_call1_v0 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call2_cst : Ref sig .tc := ⟨.hbm, 87, rfl⟩
abbrev main_call2_v0 : Ref sig .tc := ⟨.hbm, 88, rfl⟩
abbrev main_v45 : Ref sig .tc := ⟨.hbm, 89, rfl⟩
abbrev main_c_2 : Ref sig .tc := ⟨.hbm, 90, rfl⟩
abbrev main_v46 : Ref sig .tc := ⟨.hbm, 91, rfl⟩
abbrev main_v47 : Ref sig .tc := ⟨.hbm, 92, rfl⟩
abbrev main_c_3 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_call3_cst : Ref sig .tc := ⟨.hbm, 104, rfl⟩
abbrev main_call3_v0 : Ref sig .tc := ⟨.hbm, 105, rfl⟩
abbrev main_v58 : Ref sig .tc := ⟨.hbm, 106, rfl⟩
abbrev main_cst_4 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_5 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_call4_cst : Ref sig .tc := ⟨.hbm, 132, rfl⟩
abbrev main_call4_v0 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_call5_cst : Ref sig .tc := ⟨.hbm, 139, rfl⟩
abbrev main_call5_v0 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_call6_cst : Ref sig .tc := ⟨.hbm, 146, rfl⟩
abbrev main_call6_v0 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_6 : Ref sig .tc := ⟨.hbm, 154, rfl⟩
abbrev main_v98 : Ref sig .tc := ⟨.hbm, 155, rfl⟩
abbrev main_v99 : Ref sig .tc := ⟨.hbm, 156, rfl⟩
abbrev main_c_7 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_call7_cst : Ref sig .tc := ⟨.hbm, 167, rfl⟩
abbrev main_call7_v0 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S9_S1x9_1 : S9.BroadcastsInDim S1x9 (![1] : Fin 1 → Fin S1x9.rank)
  bcast_S1x9_S1200000x9_0_1 : S1x9.BroadcastsInDim S1200000x9 (![0, 1] : Fin 2 → Fin S1200000x9.rank)
  bcast_S_S1200000x9 : S_.BroadcastsInDim S1200000x9 (![] : Fin 0 → Fin S1200000x9.rank)
  bcast_S_S100000x9 : S_.BroadcastsInDim S100000x9 (![] : Fin 0 → Fin S100000x9.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S1x128_S1200000x128_0_1 : S1x128.BroadcastsInDim S1200000x128 (![0, 1] : Fin 2 → Fin S1200000x128.rank)
  bcast_S_S1200000x128 : S_.BroadcastsInDim S1200000x128 (![] : Fin 0 → Fin S1200000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S64_S64x1_0 : S64.BroadcastsInDim S64x1 (![0] : Fin 1 → Fin S64x1.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  gather_S100000x9_S1200000x1_S1200000x9_1_0_n_n_0_1_19_wf : GatherDims.WF S100000x9 S1200000x1 S1200000x9 [1] [0] [] [0] [] 1 ![1, 9]
  dot_S1200000x4_S4x9_S1200000x9_1_0_0_1_n_n_wf : DotDims.WF S1200000x4 S4x9 S1200000x9 [1] [0] [0] [1] [] []
  scatter_S100000x9_S1200000x1_S1200000x9_1_0_0_1_wf : ScatterDims.WF S100000x9 S1200000x1 S1200000x9 [1] [0] [0] 1
  dot_S100000x9_S9x128_S100000x128_1_0_0_1_n_n_wf : DotDims.WF S100000x9 S9x128 S100000x128 [1] [0] [0] [1] [] []
  dot_S100000x128_S128x128_S100000x128_1_0_0_1_n_n_wf : DotDims.WF S100000x128 S128x128 S100000x128 [1] [0] [0] [1] [] []
  gather_S100000x128_S1200000x1_S1200000x128_1_0_n_n_0_1_1128_wf : GatherDims.WF S100000x128 S1200000x1 S1200000x128 [1] [0] [] [0] [] 1 ![1, 128]
  dot_S1200000x4_S4x128_S1200000x128_1_0_0_1_n_n_wf : DotDims.WF S1200000x4 S4x128 S1200000x128 [1] [0] [0] [1] [] []
  scatter_S100000x128_S1200000x1_S1200000x128_1_0_0_1_wf : ScatterDims.WF S100000x128 S1200000x1 S1200000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  dot_S100000x16_S16x1_S100000x1_1_0_0_1_n_n_wf : DotDims.WF S100000x16 S16x1 S100000x1 [1] [0] [0] [1] [] []
  gather_S100000x64_S64x1_S64x64_1_0_n_n_0_1_164_wf : GatherDims.WF S100000x64 S64x1 S64x64 [1] [0] [] [0] [] 1 ![1, 64]
  dot_S64x64_S64x16_S64x16_1_0_0_1_n_n_wf : DotDims.WF S64x64 S64x16 S64x16 [1] [0] [0] [1] [] []
  dot_S64x16_S16x4_S64x4_1_0_0_1_n_n_wf : DotDims.WF S64x16 S16x4 S64x4 [1] [0] [0] [1] [] []

variable [Facts₀]

def gather_S100000x9_S1200000x1_S1200000x9_1_0_n_n_0_1_19 : GatherDims S100000x9 S1200000x1 S1200000x9 where
  offsetDims := [1]
  collapsedSliceDims := [0]
  operandBatchingDims := []
  startIndicesBatchingDims := []
  startIndexMap := [0]
  indexVectorDim := 1
  sliceSizes := ![1, 9]
  wf := gather_S100000x9_S1200000x1_S1200000x9_1_0_n_n_0_1_19_wf
def dot_S1200000x4_S4x9_S1200000x9_1_0_0_1_n_n : DotDims S1200000x4 S4x9 S1200000x9 where
  lhsContracting := [1]
  rhsContracting := [0]
  lhsNonContracting := [0]
  rhsNonContracting := [1]
  lhsBatch := []
  rhsBatch := []
  wf := dot_S1200000x4_S4x9_S1200000x9_1_0_0_1_n_n_wf
def scatter_S100000x9_S1200000x1_S1200000x9_1_0_0_1 : ScatterDims S100000x9 S1200000x1 S1200000x9 where
  updateWindowDims := [1]
  insertedWindowDims := [0]
  scatterDimsToOperandDims := [0]
  indexVectorDim := 1
  wf := scatter_S100000x9_S1200000x1_S1200000x9_1_0_0_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def dot_S1200000x4_S4x128_S1200000x128_1_0_0_1_n_n : DotDims S1200000x4 S4x128 S1200000x128 where
  lhsContracting := [1]
  rhsContracting := [0]
  lhsNonContracting := [0]
  rhsNonContracting := [1]
  lhsBatch := []
  rhsBatch := []
  wf := dot_S1200000x4_S4x128_S1200000x128_1_0_0_1_n_n_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x64_S64x1_S64x64_1_0_n_n_0_1_164 : GatherDims S100000x64 S64x1 S64x64 where
  offsetDims := [1]
  collapsedSliceDims := [0]
  operandBatchingDims := []
  startIndicesBatchingDims := []
  startIndexMap := [0]
  indexVectorDim := 1
  sliceSizes := ![1, 64]
  wf := gather_S100000x64_S64x1_S64x64_1_0_n_n_0_1_164_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x4_S64x4_1_0_0_1_n_n : DotDims S64x16 S16x4 S64x4 where
  lhsContracting := [1]
  rhsContracting := [0]
  lhsNonContracting := [0]
  rhsNonContracting := [1]
  lhsBatch := []
  rhsBatch := []
  wf := dot_S64x16_S16x4_S64x4_1_0_0_1_n_n_wf

class Facts : Prop extends Facts₀ where

variable [Facts]
-- ==== Proof.Frames.lean ====
/-
  The four conjuncts that say nothing about values. Each kernel program runs to the end without a fault and leaves its
  argument arrays as launched: the launch of its five pipelined regions among its stretches of host operations. The
  reference is host operations only: its run ends with every result at a term of the arguments and the arguments
  untouched, and forgetting the results leaves the frame. The idealized kernel is the printed kernel read over the
  extended reals with no operation rewritten, so there is nothing to preserve.
-/
import proofs.«428024_j38096359915723_1_alg».proof.Defs
import proofs.«428024_j38096359915723_1_alg».proof.Proof.Gen.Kernel.Frame
import proofs.«428024_j38096359915723_1_alg».proof.Proof.Gen.KernelIdeal.Frame
import proofs.«428024_j38096359915723_1_alg».proof.Proof.Gen.ReferenceIdeal.Run
import proofs.«428024_j38096359915723_1_alg».proof.Proof.Gen.Pre_finite_inputs

noncomputable section

namespace Cert.Proof.Parts

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

end Cert.Proof.Parts

end
-- ==== Proof.Spec.lean ====
/-
  The five dense stages of the two-layer edge-conditioned graph network, each as ONE function of whole arrays over the
  extended reals, entry by entry. An edge's message is its gathered source row plus the linear image of the edge's
  attributes plus a bias, clipped at zero. A node's update adds the aggregated messages to the node's row, applies a
  linear map and a bias, normalises with a stored mean and variance (scale g, shift bt, the variance offset by a fixed
  positive word before the inverse square root), clips at zero, applies a second linear map and bias, and clips at zero
  again. The location head and the mutation head are each linear, bias, clip at zero, linear, bias. Every matrix
  product is written as the plain sum over the contracted coordinate.

  Both programs are later shown to compute exactly these functions: neither the order of the operations nor any
  literal differs between them, so no law of the extended reals beyond reindexing a finite sum is needed.
-/
import proofs.«428024_j38096359915723_1_alg».proof.KernelIdeal
import Idealize.ShloMosaic.Lib.ValueIdx
import Idealize.ShloMosaic.PureOps.Ideal

noncomputable section

namespace Cert.Bridge

open Idealize.ShloMosaic Idealize.ShloMosaic.ValueIdx Cert.KernelIdeal

/-- The zero both programs clip against and accumulate from. -/
abbrev zero32 : EReal := Ideal.ofBits .f32 0x00000000#32
/-- The offset added to a stored variance before the inverse square root: one word, the same in both programs. -/
abbrev varEps : EReal := Ideal.ofBits .f32 0x3727C5AC#32

/-- A bias the kernel receives as one row of C entries, read as the vector of C entries it is. -/
def unrow {C : Nat} (b : FVec Ideal ⟨2, ![1, C]⟩ .f32) : FVec Ideal ⟨1, ![C]⟩ .f32 := fun j => b (ix2 (0 : Fin 1) (j 0))

/-! ## An edge's message -/

/-- Entry (p, q) of the messages of a layer whose rows have C entries. -/
def msgAt {C : Nat} (xg : FVec Ideal ⟨2, ![1200000, C]⟩ .f32) (ea : FVec Ideal S1200000x4 .f32)
    (We : FVec Ideal ⟨2, ![4, C]⟩ .f32) (be : FVec Ideal ⟨1, ![C]⟩ .f32) (p : Fin 1200000) (q : Fin C) : EReal :=
  max ((xg (ix2 p q) + ∑ k : Fin 4, ea (ix2 p k) * We (ix2 k q)) + be (ix1 q)) zero32

/-- The messages of a layer, as an array. -/
def msg {C : Nat} (xg : FVec Ideal ⟨2, ![1200000, C]⟩ .f32) (ea : FVec Ideal S1200000x4 .f32)
    (We : FVec Ideal ⟨2, ![4, C]⟩ .f32) (be : FVec Ideal ⟨1, ![C]⟩ .f32) : FVec Ideal ⟨2, ![1200000, C]⟩ .f32 :=
  fun i => msgAt xg ea We be (i 0) (i 1)

/-! ## A node's update -/

/-- Entry (p, h) of the hidden layer of a node update from rows of A entries to rows of H: the first linear map and
    bias of the node's row plus its aggregate, normalised, clipped at zero. -/
def hiddenAt {A H : Nat} (x aggr : FVec Ideal ⟨2, ![100000, A]⟩ .f32) (W1 : FVec Ideal ⟨2, ![A, H]⟩ .f32)
    (b1 g bt mu var : FVec Ideal ⟨1, ![H]⟩ .f32) (p : Fin 100000) (h : Fin H) : EReal :=
  max (((g (ix1 h) * (((∑ k : Fin A, (x (ix2 p k) + aggr (ix2 p k)) * W1 (ix2 k h)) + b1 (ix1 h)) - mu (ix1 h)))
        * Ideal.rsqrt (var (ix1 h) + varEps)) + bt (ix1 h)) zero32

/-- Entry (p, q) of a node update: the second linear map and bias of the hidden layer, clipped at zero. -/
def nodeAt {A H : Nat} (x aggr : FVec Ideal ⟨2, ![100000, A]⟩ .f32) (W1 : FVec Ideal ⟨2, ![A, H]⟩ .f32)
    (b1 g bt mu var : FVec Ideal ⟨1, ![H]⟩ .f32) (W2 : FVec Ideal ⟨2, ![H, H]⟩ .f32) (b2 : FVec Ideal ⟨1, ![H]⟩ .f32)
    (p : Fin 100000) (q : Fin H) : EReal :=
  max ((∑ h : Fin H, hiddenAt x aggr W1 b1 g bt mu var p h * W2 (ix2 h q)) + b2 (ix1 q)) zero32

/-- A node update, as an array. -/
def node {A H : Nat} (x aggr : FVec Ideal ⟨2, ![100000, A]⟩ .f32) (W1 : FVec Ideal ⟨2, ![A, H]⟩ .f32)
    (b1 g bt mu var : FVec Ideal ⟨1, ![H]⟩ .f32) (W2 : FVec Ideal ⟨2, ![H, H]⟩ .f32) (b2 : FVec Ideal ⟨1, ![H]⟩ .f32) :
    FVec Ideal ⟨2, ![100000, H]⟩ .f32 :=
  fun i => nodeAt x aggr W1 b1 g bt mu var W2 b2 (i 0) (i 1)

/-! ## The two heads: linear, bias, clip at zero, linear, bias -/

/-- Entry (p, q) of a two-layer head over R rows of 64 entries, with 16 hidden entries and O outputs. -/
def headAt {R O : Nat} (x : FVec Ideal ⟨2, ![R, 64]⟩ .f32) (W1 : FVec Ideal S64x16 .f32) (b1 : FVec Ideal S16 .f32)
    (W2 : FVec Ideal ⟨2, ![16, O]⟩ .f32) (b2 : FVec Ideal ⟨1, ![O]⟩ .f32) (p : Fin R) (q : Fin O) : EReal :=
  (∑ h : Fin 16, max ((∑ k : Fin 64, x (ix2 p k) * W1 (ix2 k h)) + b1 (ix1 h)) zero32 * W2 (ix2 h q)) + b2 (ix1 q)

/-- A head, as an array of R rows of O entries. -/
def head {R O : Nat} (x : FVec Ideal ⟨2, ![R, 64]⟩ .f32) (W1 : FVec Ideal S64x16 .f32) (b1 : FVec Ideal S16 .f32)
    (W2 : FVec Ideal ⟨2, ![16, O]⟩ .f32) (b2 : FVec Ideal ⟨1, ![O]⟩ .f32) : FVec Ideal ⟨2, ![R, O]⟩ .f32 :=
  fun i => headAt x W1 b1 W2 b2 (i 0) (i 1)

end Cert.Bridge

end
-- ==== Proof.Fold.lean ====
/-
  The kernel program's buffer contents at its segment boundaries, read back.

  The program is host stretches and five pipelined regions in turn. Between two boundaries a buffer either is written
  by one operation of the stretch, and then holds that operation's function of its operands' contents at the stretch's
  entry, or is written by none, and then holds what it held. Across a region a buffer that is none of the region's
  window arrays holds what it held; an input window's array holds what it held at entry; an output window's array holds
  what the pipeline leaves. Every fact below is a chain of such steps, from the boundary named back to the launch
  memory, to a region's output, or to the stretch that wrote the buffer.

  The arguments are never written: at any boundary an argument's buffer holds the launch memory's contents.
-/
import proofs.«428024_j38096359915723_1_alg».proof.Proof.Gen.KernelIdeal.Frame
import Idealize.ShloMosaic.Lib.StableHlo.Run
import Idealize.ShloMosaic.PureOps.Ideal

set_option maxRecDepth 16384

noncomputable section

namespace Cert.Bridge.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The two index rows of the edge list -/

/-- Row 0 of the edge list as 1200000 words: each edge's source. -/
def ksrc : IVec S1200000 32 :=
  shapeCast S1200000 ((extractStridedSlice S1x1200000 ![0, 0] · slices_S2x1200000_S1x1200000_0_0) (m ((c : Thread nD τ).loc main_arg1))) shapeCasts_S1x1200000_S1200000
/-- Row 1 of the edge list as 1200000 words: each edge's target. -/
def kdst : IVec S1200000 32 :=
  shapeCast S1200000 ((extractStridedSlice S1x1200000 ![1, 0] · slices_S2x1200000_S1x1200000_1_0) (m ((c : Thread nD τ).loc main_arg1))) shapeCasts_S1x1200000_S1200000

/-! ## What each host stretch writes

One list of references per stretch, holding every reference an operation of the stretch writes: a reference outside
the list keeps its contents across the stretch. -/

/-- A written reference that is in the list is, as a one-element set of buffers, inside the list's buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev wr0 : List (Ref sig .tc) := [main_v0, main_v1, main_v2, main_v3]
abbrev wr0_1 : List (Ref sig .tc) := [main_call0_c, main_call0_v0, main_call0_v1, main_call0_c_0, main_call0_v2, main_call0_v3, main_call0_v4,
  main_call0_v5, main_call0_c_1, main_call0_c_2, main_call0_v6, main_call0_v7, main_call0_v8, main_call0_v9, main_call0_v10, main_call0_v11,
  main_call0_c_3, main_call0_v12, main_call0_v13, main_call0_v14, main_call0_cst, main_call0_v15, main_v4]
abbrev wr0_2 : List (Ref sig .tc) := [main_v5]
abbrev wr1 : List (Ref sig .tc) := [main_cst, main_v7, main_v8, main_v9, main_v10, main_v11, main_v12, main_v13, main_v14, main_v15]
abbrev wr2 : List (Ref sig .tc) := [main_call1_c, main_call1_v0, main_call1_v1, main_call1_c_0, main_call1_v2, main_call1_v3, main_call1_v4,
  main_call1_v5, main_call1_c_1, main_call1_c_2, main_call1_v6, main_call1_v7, main_call1_v8, main_call1_v9, main_call1_v10, main_call1_v11,
  main_call1_c_3, main_call1_v12, main_call1_v13, main_call1_v14, main_call1_cst, main_call1_v15, main_v17]
abbrev wr2_1 : List (Ref sig .tc) := [main_v18]
abbrev wr3 : List (Ref sig .tc) := [main_cst_0, main_v20, main_v21, main_v22, main_v23, main_v24, main_v25, main_v26, main_v27, main_v28]
abbrev wr4 : List (Ref sig .tc) := [main_v30, main_v31]
abbrev wr5 : List (Ref sig .tc) := [main_v33]
abbrev wr5_1 : List (Ref sig .tc) := [main_call2_c, main_call2_v0, main_call2_v1, main_call2_c_0, main_call2_v2, main_call2_v3, main_call2_v4,
  main_call2_v5, main_call2_c_1, main_call2_c_2, main_call2_v6, main_call2_v7, main_call2_v8, main_call2_v9, main_call2_v10, main_call2_v11,
  main_call2_c_3, main_call2_v12, main_call2_v13, main_call2_v14, main_call2_cst, main_call2_v15, main_v34]
abbrev wr5_2 : List (Ref sig .tc) := [main_v35, main_v36, main_v37, main_v38]
abbrev wr5_3 : List (Ref sig .tc) := [main_call3_cst, main_call3_v0, main_v39]
abbrev wr5_4 : List (Ref sig .tc) := [main_v40, main_v41, main_v42, main_v43]

/-- Operation by operation: what it writes is one reference, and that reference is in the list. -/
local macro "writes_listed" : tactic =>
  `(tactic| (simp only [List.Forall, StableHlo.nullary_writes, StableHlo.unary_writes, StableHlo.binary_writes, StableHlo.ternary_writes,
               StableHlo.reshape_writes]
             repeat' apply And.intro
             all_goals exact sub_of_mem (by decide)))

theorem hW0 : (hostOps0 (F := Ideal)).Forall fun op => op.writes ⊆ (wr0.map (Proc.devRef (τ := τ) .tc)).toFinset := by
  simp only [hostOps0]; writes_listed
theorem hW0_1 : (hostOps0_1 (F := Ideal)).Forall fun op => op.writes ⊆ (wr0_1.map (Proc.devRef (τ := τ) .tc)).toFinset := by
  simp only [hostOps0_1]; writes_listed
theorem hW0_2 : (hostOps0_2 (F := Ideal)).Forall fun op => op.writes ⊆ (wr0_2.map (Proc.devRef (τ := τ) .tc)).toFinset := by
  simp only [hostOps0_2]; writes_listed
theorem hW1 : (hostOps1 (F := Ideal)).Forall fun op => op.writes ⊆ (wr1.map (Proc.devRef (τ := τ) .tc)).toFinset := by
  simp only [hostOps1]; writes_listed
theorem hW2 : (hostOps2 (F := Ideal)).Forall fun op => op.writes ⊆ (wr2.map (Proc.devRef (τ := τ) .tc)).toFinset := by
  simp only [hostOps2]; writes_listed
theorem hW2_1 : (hostOps2_1 (F := Ideal)).Forall fun op => op.writes ⊆ (wr2_1.map (Proc.devRef (τ := τ) .tc)).toFinset := by
  simp only [hostOps2_1]; writes_listed
theorem hW3 : (hostOps3 (F := Ideal)).Forall fun op => op.writes ⊆ (wr3.map (Proc.devRef (τ := τ) .tc)).toFinset := by
  simp only [hostOps3]; writes_listed
theorem hW4 : (hostOps4 (F := Ideal)).Forall fun op => op.writes ⊆ (wr4.map (Proc.devRef (τ := τ) .tc)).toFinset := by
  simp only [hostOps4]; writes_listed
theorem hW5 : (hostOps5 (F := Ideal)).Forall fun op => op.writes ⊆ (wr5.map (Proc.devRef (τ := τ) .tc)).toFinset := by
  simp only [hostOps5]; writes_listed
theorem hW5_1 : (hostOps5_1 (F := Ideal)).Forall fun op => op.writes ⊆ (wr5_1.map (Proc.devRef (τ := τ) .tc)).toFinset := by
  simp only [hostOps5_1]; writes_listed
theorem hW5_2 : (hostOps5_2 (F := Ideal)).Forall fun op => op.writes ⊆ (wr5_2.map (Proc.devRef (τ := τ) .tc)).toFinset := by
  simp only [hostOps5_2]; writes_listed
theorem hW5_3 : (hostOps5_3 (F := Ideal)).Forall fun op => op.writes ⊆ (wr5_3.map (Proc.devRef (τ := τ) .tc)).toFinset := by
  simp only [hostOps5_3]; writes_listed
theorem hW5_4 : (hostOps5_4 (F := Ideal)).Forall fun op => op.writes ⊆ (wr5_4.map (Proc.devRef (τ := τ) .tc)).toFinset := by
  simp only [hostOps5_4]; writes_listed

/-! ## A buffer nothing writes, stretch by stretch and region by region

Each side condition says the reference is outside a stretch's list, or is none of a region's window arrays; at a
literal reference each is decided. -/

/-- Across the second and third stretches. -/
theorem s13 (b : Ref sig .tc) (h1 : b ∉ wr0_1 := by decide) (h2 : b ∉ wr0_2 := by decide) :
    W3 (F := Ideal) m ρ c (Proc.devRef .tc b) = W1 m ρ c (Proc.devRef .tc b) :=
  (after_of_writes_sub hostOps0_2 _ hW0_2 h2).trans (after_of_writes_sub hostOps0_1 _ hW0_1 h1)
/-- From the launch to region 0's entry. -/
theorem to3 (b : Ref sig .tc) (h0 : b ∉ wr0 := by decide) (h1 : b ∉ wr0_1 := by decide) (h2 : b ∉ wr0_2 := by decide) :
    W3 (F := Ideal) m ρ c (Proc.devRef .tc b) = m ((c : Thread nD τ).loc b) :=
  (s13 m ρ c b h1 h2).trans (after_of_writes_sub hostOps0 _ hW0 h0)
/-- To region 0's exit. -/
theorem to4 (b : Ref sig .tc) (r0 : ∀ w, Pipeline.arrRef spec0 w ≠ b := by decide)
    (h0 : b ∉ wr0 := by decide) (h1 : b ∉ wr0_1 := by decide) (h2 : b ∉ wr0_2 := by decide) :
    W4 (F := Ideal) m ρ c (Proc.devRef .tc b) = m ((c : Thread nD τ).loc b) :=
  (W4_of_ne m ρ c b r0).trans (to3 m ρ c b h0 h1 h2)
/-- Across the stretch before region 1. -/
theorem s45 (b : Ref sig .tc) (h : b ∉ wr1 := by decide) : W5 (F := Ideal) m ρ c (Proc.devRef .tc b) = W4 m ρ c (Proc.devRef .tc b) :=
  after_of_writes_sub hostOps1 _ hW1 h
/-- Across region 1. -/
theorem s56 (b : Ref sig .tc) (r1 : ∀ w, Pipeline.arrRef spec1 w ≠ b := by decide) : W6 (F := Ideal) m ρ c (Proc.devRef .tc b) = W5 m ρ c (Proc.devRef .tc b) :=
  W6_of_ne m ρ c b r1
/-- Across the two stretches before region 2. -/
theorem s68 (b : Ref sig .tc) (h : b ∉ wr2 := by decide) (h' : b ∉ wr2_1 := by decide) : W8 (F := Ideal) m ρ c (Proc.devRef .tc b) = W6 m ρ c (Proc.devRef .tc b) :=
  (after_of_writes_sub hostOps2_1 _ hW2_1 h').trans (after_of_writes_sub hostOps2 _ hW2 h)
/-- Across region 2. -/
theorem s89 (b : Ref sig .tc) (r2 : ∀ w, Pipeline.arrRef spec2 w ≠ b := by decide) : W9 (F := Ideal) m ρ c (Proc.devRef .tc b) = W8 m ρ c (Proc.devRef .tc b) :=
  W9_of_ne m ρ c b r2
/-- Across the stretch before region 3. -/
theorem s910 (b : Ref sig .tc) (h : b ∉ wr3 := by decide) : W10 (F := Ideal) m ρ c (Proc.devRef .tc b) = W9 m ρ c (Proc.devRef .tc b) :=
  after_of_writes_sub hostOps3 _ hW3 h
/-- Across region 3. -/
theorem s1011 (b : Ref sig .tc) (r3 : ∀ w, Pipeline.arrRef spec3 w ≠ b := by decide) : W11 (F := Ideal) m ρ c (Proc.devRef .tc b) = W10 m ρ c (Proc.devRef .tc b) :=
  W11_of_ne m ρ c b r3
/-- Across the stretch before region 4. -/
theorem s1112 (b : Ref sig .tc) (h : b ∉ wr4 := by decide) : W12 (F := Ideal) m ρ c (Proc.devRef .tc b) = W11 m ρ c (Proc.devRef .tc b) :=
  after_of_writes_sub hostOps4 _ hW4 h
/-- Across region 4. -/
theorem s1213 (b : Ref sig .tc) (r4 : ∀ w, Pipeline.arrRef spec4 w ≠ b := by decide) : W13 (F := Ideal) m ρ c (Proc.devRef .tc b) = W12 m ρ c (Proc.devRef .tc b) :=
  W13_of_ne m ρ c b r4
/-- Across the first stretch after region 4. -/
theorem s1314 (b : Ref sig .tc) (h : b ∉ wr5 := by decide) : W14 (F := Ideal) m ρ c (Proc.devRef .tc b) = W13 m ρ c (Proc.devRef .tc b) :=
  after_of_writes_sub hostOps5 _ hW5 h
/-- Across the second. -/
theorem s1415 (b : Ref sig .tc) (h : b ∉ wr5_1 := by decide) : W15 (F := Ideal) m ρ c (Proc.devRef .tc b) = W14 m ρ c (Proc.devRef .tc b) :=
  after_of_writes_sub hostOps5_1 _ hW5_1 h
/-- Across the last three. -/
theorem s1518 (b : Ref sig .tc) (h2 : b ∉ wr5_2 := by decide) (h3 : b ∉ wr5_3 := by decide) (h4 : b ∉ wr5_4 := by decide) :
    W18 (F := Ideal) m ρ c (Proc.devRef .tc b) = W15 m ρ c (Proc.devRef .tc b) :=
  (after_of_writes_sub hostOps5_4 _ hW5_4 h4).trans ((after_of_writes_sub hostOps5_3 _ hW5_3 h3).trans (after_of_writes_sub hostOps5_2 _ hW5_2 h2))

/-! ## An argument no region reads through a window before the boundary named: the launch memory's contents there -/

theorem to5 (b : Ref sig .tc) (h : b ∉ wr1 := by decide) (r0 : ∀ w, Pipeline.arrRef spec0 w ≠ b := by decide)
    (h0 : b ∉ wr0 := by decide) (h1 : b ∉ wr0_1 := by decide) (h2 : b ∉ wr0_2 := by decide) :
    W5 (F := Ideal) m ρ c (Proc.devRef .tc b) = m ((c : Thread nD τ).loc b) :=
  (s45 m ρ c b h).trans (to4 m ρ c b r0 h0 h1 h2)
theorem to6 (b : Ref sig .tc) (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W6 (F := Ideal) m ρ c (Proc.devRef .tc b) = m ((c : Thread nD τ).loc b) :=
  (s56 m ρ c b r1).trans (to5 m ρ c b h r0 h0 h1 h2)
theorem to8 (b : Ref sig .tc) (g : b ∉ wr2 := by decide) (g' : b ∉ wr2_1 := by decide)
    (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W8 (F := Ideal) m ρ c (Proc.devRef .tc b) = m ((c : Thread nD τ).loc b) :=
  (s68 m ρ c b g g').trans (to6 m ρ c b r1 h r0 h0 h1 h2)
theorem to9 (b : Ref sig .tc) (r2 : ∀ w, Pipeline.arrRef spec2 w ≠ b := by decide) (g : b ∉ wr2 := by decide) (g' : b ∉ wr2_1 := by decide)
    (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W9 (F := Ideal) m ρ c (Proc.devRef .tc b) = m ((c : Thread nD τ).loc b) :=
  (s89 m ρ c b r2).trans (to8 m ρ c b g g' r1 h r0 h0 h1 h2)
theorem to10 (b : Ref sig .tc) (k : b ∉ wr3 := by decide)
    (r2 : ∀ w, Pipeline.arrRef spec2 w ≠ b := by decide) (g : b ∉ wr2 := by decide) (g' : b ∉ wr2_1 := by decide)
    (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W10 (F := Ideal) m ρ c (Proc.devRef .tc b) = m ((c : Thread nD τ).loc b) :=
  (s910 m ρ c b k).trans (to9 m ρ c b r2 g g' r1 h r0 h0 h1 h2)
theorem to11 (b : Ref sig .tc) (r3 : ∀ w, Pipeline.arrRef spec3 w ≠ b := by decide) (k : b ∉ wr3 := by decide)
    (r2 : ∀ w, Pipeline.arrRef spec2 w ≠ b := by decide) (g : b ∉ wr2 := by decide) (g' : b ∉ wr2_1 := by decide)
    (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W11 (F := Ideal) m ρ c (Proc.devRef .tc b) = m ((c : Thread nD τ).loc b) :=
  (s1011 m ρ c b r3).trans (to10 m ρ c b k r2 g g' r1 h r0 h0 h1 h2)
theorem to12 (b : Ref sig .tc) (l : b ∉ wr4 := by decide) (r3 : ∀ w, Pipeline.arrRef spec3 w ≠ b := by decide) (k : b ∉ wr3 := by decide)
    (r2 : ∀ w, Pipeline.arrRef spec2 w ≠ b := by decide) (g : b ∉ wr2 := by decide) (g' : b ∉ wr2_1 := by decide)
    (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W12 (F := Ideal) m ρ c (Proc.devRef .tc b) = m ((c : Thread nD τ).loc b) :=
  (s1112 m ρ c b l).trans (to11 m ρ c b r3 k r2 g g' r1 h r0 h0 h1 h2)
theorem to13 (b : Ref sig .tc) (r4 : ∀ w, Pipeline.arrRef spec4 w ≠ b := by decide)
    (l : b ∉ wr4 := by decide) (r3 : ∀ w, Pipeline.arrRef spec3 w ≠ b := by decide) (k : b ∉ wr3 := by decide)
    (r2 : ∀ w, Pipeline.arrRef spec2 w ≠ b := by decide) (g : b ∉ wr2 := by decide) (g' : b ∉ wr2_1 := by decide)
    (r1 : ∀ w, Pipeline.arrRef spec1 w ≠ b := by decide) (h : b ∉ wr1 := by decide)
    (r0 : ∀ w, Pipeline.arrRef spec0 w ≠ b := by decide)
    (h0 : b ∉ wr0 := by decide) (h1 : b ∉ wr0_1 := by decide) (h2 : b ∉ wr0_2 := by decide) :
    W13 (F := Ideal) m ρ c (Proc.devRef .tc b) = m ((c : Thread nD τ).loc b) :=
  (s1213 m ρ c b r4).trans (to12 m ρ c b l r3 k r2 g g' r1 h r0 h0 h1 h2)

/-! ## From the launch to region 0 -/

theorem W1_v1 : W1 (F := Ideal) m ρ c (Proc.devRef .tc main_v1) = ksrc m c := by
  show StableHlo.after hostOps0 (fun b => m ((c : Dev nD), b)) (Proc.devRef .tc main_v1) = _
  after_results
  rfl
theorem W1_v3 : W1 (F := Ideal) m ρ c (Proc.devRef .tc main_v3) = kdst m c := by
  show StableHlo.after hostOps0 (fun b => m ((c : Dev nD), b)) (Proc.devRef .tc main_v3) = _
  after_results
  rfl
theorem W1_arg0 : W1 (F := Ideal) m ρ c (Proc.devRef .tc main_arg0) = m ((c : Thread nD τ).loc main_arg0) :=
  after_of_writes_sub hostOps0 _ hW0 (by decide)

theorem V3_v4 : V3 (F := Ideal) m ρ c main_v4 = StableHlo.after hostOps0_1 (W1 m ρ c) (Proc.devRef .tc main_v4) :=
  after_of_writes_sub hostOps0_2 _ hW0_2 (by decide)
theorem V3_arg2 : V3 (F := Ideal) m ρ c main_arg2 = m ((c : Thread nD τ).loc main_arg2) := to3 m ρ c main_arg2
theorem V3_arg6 : V3 (F := Ideal) m ρ c main_arg6 = m ((c : Thread nD τ).loc main_arg6) := to3 m ρ c main_arg6
theorem V3_v5 : V3 (F := Ideal) m ρ c main_v5 = shapeCast S1x9 (m ((c : Thread nD τ).loc main_arg7)) shapeCasts_S9_S1x9 := by
  show StableHlo.after hostOps0_2 (StableHlo.after hostOps0_1 (StableHlo.after hostOps0 (fun b => m ((c : Dev nD), b)))) (Proc.devRef .tc main_v5) = _
  after_results
  rfl

/-! ## Region 0 and the stretch after it -/

theorem W4_v6 : W4 (F := Ideal) m ρ c (Proc.devRef .tc main_v6) = (dat0 (V3 m ρ) c).arrAt 4 cfg0.N := W4_arr m ρ c 4
theorem W4_v3 : W4 (F := Ideal) m ρ c (Proc.devRef .tc main_v3) = kdst m c :=
  (W4_of_ne m ρ c main_v3 (by decide)).trans ((s13 m ρ c main_v3).trans (W1_v3 m ρ c))
/-- The edge attributes are region 0's second input window: as at its entry. -/
theorem W4_arg2 : W4 (F := Ideal) m ρ c (Proc.devRef .tc main_arg2) = m ((c : Thread nD τ).loc main_arg2) :=
  ((W4_arr m ρ c 1).trans (((dat0 (V3 m ρ) c).arrAt_in 1 rfl _).trans (A_eq0 (V3 m ρ) c 1))).trans (V3_arg2 m ρ c)

theorem V5_v9 : V5 (F := Ideal) m ρ c main_v9
    = Host.scatterAdd scatter_S100000x9_S1200000x1_S1200000x9_1_0_0_1
        (broadcastInDim S100000x9 ![] bcast_S_S100000x9 (constant (F := Ideal) S_ .f32 0x00000000#32))
        (broadcastInDim S1200000x1 ![0] bcast_S1200000_S1200000x1_0 (W4 m ρ c (Proc.devRef .tc main_v3)))
        (W4 m ρ c (Proc.devRef .tc main_v6)) := by
  show StableHlo.after hostOps1 (W4 m ρ c) (Proc.devRef .tc main_v9) = _
  after_results <;> rfl
theorem V5_arg0 : V5 (F := Ideal) m ρ c main_arg0 = m ((c : Thread nD τ).loc main_arg0) := to5 m ρ c main_arg0
theorem V5_arg8 : V5 (F := Ideal) m ρ c main_arg8 = m ((c : Thread nD τ).loc main_arg8) := to5 m ρ c main_arg8
theorem V5_arg14 : V5 (F := Ideal) m ρ c main_arg14 = m ((c : Thread nD τ).loc main_arg14) := to5 m ρ c main_arg14
theorem V5_v10 : V5 (F := Ideal) m ρ c main_v10 = shapeCast S1x128 (m ((c : Thread nD τ).loc main_arg9)) shapeCasts_S128_S1x128 := by
  have e : V5 (F := Ideal) m ρ c main_v10 = shapeCast S1x128 (W4 m ρ c (Proc.devRef .tc main_arg9)) shapeCasts_S128_S1x128 := by
    show StableHlo.after hostOps1 (W4 m ρ c) (Proc.devRef .tc main_v10) = _
    after_results <;> rfl
  rw [e, to4 m ρ c main_arg9]
theorem V5_v11 : V5 (F := Ideal) m ρ c main_v11 = shapeCast S1x128 (m ((c : Thread nD τ).loc main_arg10)) shapeCasts_S128_S1x128 := by
  have e : V5 (F := Ideal) m ρ c main_v11 = shapeCast S1x128 (W4 m ρ c (Proc.devRef .tc main_arg10)) shapeCasts_S128_S1x128 := by
    show StableHlo.after hostOps1 (W4 m ρ c) (Proc.devRef .tc main_v11) = _
    after_results <;> rfl
  rw [e, to4 m ρ c main_arg10]
theorem V5_v12 : V5 (F := Ideal) m ρ c main_v12 = shapeCast S1x128 (m ((c : Thread nD τ).loc main_arg11)) shapeCasts_S128_S1x128 := by
  have e : V5 (F := Ideal) m ρ c main_v12 = shapeCast S1x128 (W4 m ρ c (Proc.devRef .tc main_arg11)) shapeCasts_S128_S1x128 := by
    show StableHlo.after hostOps1 (W4 m ρ c) (Proc.devRef .tc main_v12) = _
    after_results <;> rfl
  rw [e, to4 m ρ c main_arg11]
theorem V5_v13 : V5 (F := Ideal) m ρ c main_v13 = shapeCast S1x128 (m ((c : Thread nD τ).loc main_arg12)) shapeCasts_S128_S1x128 := by
  have e : V5 (F := Ideal) m ρ c main_v13 = shapeCast S1x128 (W4 m ρ c (Proc.devRef .tc main_arg12)) shapeCasts_S128_S1x128 := by
    show StableHlo.after hostOps1 (W4 m ρ c) (Proc.devRef .tc main_v13) = _
    after_results <;> rfl
  rw [e, to4 m ρ c main_arg12]
theorem V5_v14 : V5 (F := Ideal) m ρ c main_v14 = shapeCast S1x128 (m ((c : Thread nD τ).loc main_arg13)) shapeCasts_S128_S1x128 := by
  have e : V5 (F := Ideal) m ρ c main_v14 = shapeCast S1x128 (W4 m ρ c (Proc.devRef .tc main_arg13)) shapeCasts_S128_S1x128 := by
    show StableHlo.after hostOps1 (W4 m ρ c) (Proc.devRef .tc main_v14) = _
    after_results <;> rfl
  rw [e, to4 m ρ c main_arg13]
theorem V5_v15 : V5 (F := Ideal) m ρ c main_v15 = shapeCast S1x128 (m ((c : Thread nD τ).loc main_arg15)) shapeCasts_S128_S1x128 := by
  have e : V5 (F := Ideal) m ρ c main_v15 = shapeCast S1x128 (W4 m ρ c (Proc.devRef .tc main_arg15)) shapeCasts_S128_S1x128 := by
    show StableHlo.after hostOps1 (W4 m ρ c) (Proc.devRef .tc main_v15) = _
    after_results <;> rfl
  rw [e, to4 m ρ c main_arg15]

/-! ## Region 1 and the two stretches after it -/

theorem W6_v16 : W6 (F := Ideal) m ρ c (Proc.devRef .tc main_v16) = (dat1 (V5 m ρ) c).arrAt 10 cfg1.N := W6_arr m ρ c 10
theorem W6_v1 : W6 (F := Ideal) m ρ c (Proc.devRef .tc main_v1) = ksrc m c :=
  (s56 m ρ c main_v1).trans ((s45 m ρ c main_v1).trans ((W4_of_ne m ρ c main_v1 (by decide)).trans ((s13 m ρ c main_v1).trans (W1_v1 m ρ c))))
theorem W6_v3 : W6 (F := Ideal) m ρ c (Proc.devRef .tc main_v3) = kdst m c :=
  (s56 m ρ c main_v3).trans ((s45 m ρ c main_v3).trans (W4_v3 m ρ c))
theorem W6_arg2 : W6 (F := Ideal) m ρ c (Proc.devRef .tc main_arg2) = m ((c : Thread nD τ).loc main_arg2) :=
  (s56 m ρ c main_arg2).trans ((s45 m ρ c main_arg2).trans (W4_arg2 m ρ c))

theorem V8_v17 : V8 (F := Ideal) m ρ c main_v17 = StableHlo.after hostOps2 (W6 m ρ c) (Proc.devRef .tc main_v17) :=
  after_of_writes_sub hostOps2_1 _ hW2_1 (by decide)
theorem V8_arg2 : V8 (F := Ideal) m ρ c main_arg2 = m ((c : Thread nD τ).loc main_arg2) := (s68 m ρ c main_arg2).trans (W6_arg2 m ρ c)
theorem V8_arg16 : V8 (F := Ideal) m ρ c main_arg16 = m ((c : Thread nD τ).loc main_arg16) := to8 m ρ c main_arg16
theorem V8_v18 : V8 (F := Ideal) m ρ c main_v18 = shapeCast S1x128 (m ((c : Thread nD τ).loc main_arg17)) shapeCasts_S128_S1x128 := by
  have e : V8 (F := Ideal) m ρ c main_v18 = shapeCast S1x128 (W6 m ρ c (Proc.devRef .tc main_arg17)) shapeCasts_S128_S1x128 := by
    show StableHlo.after hostOps2_1 (StableHlo.after hostOps2 (W6 m ρ c)) (Proc.devRef .tc main_v18) = _
    after_results <;> rfl
  rw [e, to6 m ρ c main_arg17]

/-! ## Region 2 and the stretch after it -/

theorem W9_v19 : W9 (F := Ideal) m ρ c (Proc.devRef .tc main_v19) = (dat2 (V8 m ρ) c).arrAt 4 cfg2.N := W9_arr m ρ c 4
theorem W9_v3 : W9 (F := Ideal) m ρ c (Proc.devRef .tc main_v3) = kdst m c :=
  (s89 m ρ c main_v3).trans ((s68 m ρ c main_v3).trans (W6_v3 m ρ c))

theorem V10_v22 : V10 (F := Ideal) m ρ c main_v22
    = Host.scatterAdd scatter_S100000x128_S1200000x1_S1200000x128_1_0_0_1
        (broadcastInDim S100000x128 ![] bcast_S_S100000x128 (constant (F := Ideal) S_ .f32 0x00000000#32))
        (broadcastInDim S1200000x1 ![0] bcast_S1200000_S1200000x1_0 (W9 m ρ c (Proc.devRef .tc main_v3)))
        (W9 m ρ c (Proc.devRef .tc main_v19)) := by
  show StableHlo.after hostOps3 (W9 m ρ c) (Proc.devRef .tc main_v22) = _
  after_results <;> rfl
theorem V10_v16 : V10 (F := Ideal) m ρ c main_v16 = (dat1 (V5 m ρ) c).arrAt 10 cfg1.N :=
  (s910 m ρ c main_v16).trans ((s89 m ρ c main_v16).trans ((s68 m ρ c main_v16).trans (W6_v16 m ρ c)))
theorem V10_arg18 : V10 (F := Ideal) m ρ c main_arg18 = m ((c : Thread nD τ).loc main_arg18) := to10 m ρ c main_arg18
theorem V10_arg24 : V10 (F := Ideal) m ρ c main_arg24 = m ((c : Thread nD τ).loc main_arg24) := to10 m ρ c main_arg24
theorem V10_v23 : V10 (F := Ideal) m ρ c main_v23 = shapeCast S1x64 (m ((c : Thread nD τ).loc main_arg19)) shapeCasts_S64_S1x64 := by
  have e : V10 (F := Ideal) m ρ c main_v23 = shapeCast S1x64 (W9 m ρ c (Proc.devRef .tc main_arg19)) shapeCasts_S64_S1x64 := by
    show StableHlo.after hostOps3 (W9 m ρ c) (Proc.devRef .tc main_v23) = _
    after_results <;> rfl
  rw [e, to9 m ρ c main_arg19]
theorem V10_v24 : V10 (F := Ideal) m ρ c main_v24 = shapeCast S1x64 (m ((c : Thread nD τ).loc main_arg20)) shapeCasts_S64_S1x64 := by
  have e : V10 (F := Ideal) m ρ c main_v24 = shapeCast S1x64 (W9 m ρ c (Proc.devRef .tc main_arg20)) shapeCasts_S64_S1x64 := by
    show StableHlo.after hostOps3 (W9 m ρ c) (Proc.devRef .tc main_v24) = _
    after_results <;> rfl
  rw [e, to9 m ρ c main_arg20]
theorem V10_v25 : V10 (F := Ideal) m ρ c main_v25 = shapeCast S1x64 (m ((c : Thread nD τ).loc main_arg21)) shapeCasts_S64_S1x64 := by
  have e : V10 (F := Ideal) m ρ c main_v25 = shapeCast S1x64 (W9 m ρ c (Proc.devRef .tc main_arg21)) shapeCasts_S64_S1x64 := by
    show StableHlo.after hostOps3 (W9 m ρ c) (Proc.devRef .tc main_v25) = _
    after_results <;> rfl
  rw [e, to9 m ρ c main_arg21]
theorem V10_v26 : V10 (F := Ideal) m ρ c main_v26 = shapeCast S1x64 (m ((c : Thread nD τ).loc main_arg22)) shapeCasts_S64_S1x64 := by
  have e : V10 (F := Ideal) m ρ c main_v26 = shapeCast S1x64 (W9 m ρ c (Proc.devRef .tc main_arg22)) shapeCasts_S64_S1x64 := by
    show StableHlo.after hostOps3 (W9 m ρ c) (Proc.devRef .tc main_v26) = _
    after_results <;> rfl
  rw [e, to9 m ρ c main_arg22]
theorem V10_v27 : V10 (F := Ideal) m ρ c main_v27 = shapeCast S1x64 (m ((c : Thread nD τ).loc main_arg23)) shapeCasts_S64_S1x64 := by
  have e : V10 (F := Ideal) m ρ c main_v27 = shapeCast S1x64 (W9 m ρ c (Proc.devRef .tc main_arg23)) shapeCasts_S64_S1x64 := by
    show StableHlo.after hostOps3 (W9 m ρ c) (Proc.devRef .tc main_v27) = _
    after_results <;> rfl
  rw [e, to9 m ρ c main_arg23]
theorem V10_v28 : V10 (F := Ideal) m ρ c main_v28 = shapeCast S1x64 (m ((c : Thread nD τ).loc main_arg25)) shapeCasts_S64_S1x64 := by
  have e : V10 (F := Ideal) m ρ c main_v28 = shapeCast S1x64 (W9 m ρ c (Proc.devRef .tc main_arg25)) shapeCasts_S64_S1x64 := by
    show StableHlo.after hostOps3 (W9 m ρ c) (Proc.devRef .tc main_v28) = _
    after_results <;> rfl
  rw [e, to9 m ρ c main_arg25]

/-! ## Region 3 and the stretch after it -/

theorem W11_v29 : W11 (F := Ideal) m ρ c (Proc.devRef .tc main_v29) = (dat3 (V10 m ρ) c).arrAt 10 cfg3.N := W11_arr m ρ c 10

theorem V12_v29 : V12 (F := Ideal) m ρ c main_v29 = (dat3 (V10 m ρ) c).arrAt 10 cfg3.N :=
  (s1112 m ρ c main_v29).trans (W11_v29 m ρ c)
theorem V12_arg26 : V12 (F := Ideal) m ρ c main_arg26 = m ((c : Thread nD τ).loc main_arg26) := to12 m ρ c main_arg26
theorem V12_arg28 : V12 (F := Ideal) m ρ c main_arg28 = m ((c : Thread nD τ).loc main_arg28) := to12 m ρ c main_arg28
theorem V12_v30 : V12 (F := Ideal) m ρ c main_v30 = shapeCast S1x16 (m ((c : Thread nD τ).loc main_arg27)) shapeCasts_S16_S1x16 := by
  have e : V12 (F := Ideal) m ρ c main_v30 = shapeCast S1x16 (W11 m ρ c (Proc.devRef .tc main_arg27)) shapeCasts_S16_S1x16 := by
    show StableHlo.after hostOps4 (W11 m ρ c) (Proc.devRef .tc main_v30) = _
    after_results <;> rfl
  rw [e, to11 m ρ c main_arg27]
theorem V12_v31 : V12 (F := Ideal) m ρ c main_v31 = shapeCast S1x1 (m ((c : Thread nD τ).loc main_arg29)) shapeCasts_S1_S1x1 := by
  have e : V12 (F := Ideal) m ρ c main_v31 = shapeCast S1x1 (W11 m ρ c (Proc.devRef .tc main_arg29)) shapeCasts_S1_S1x1 := by
    show StableHlo.after hostOps4 (W11 m ρ c) (Proc.devRef .tc main_v31) = _
    after_results <;> rfl
  rw [e, to11 m ρ c main_arg29]

/-! ## Region 4 and the stretches to the return -/

/-- The second layer's node rows are region 4's first input window: as at its entry. -/
theorem W13_v29 : W13 (F := Ideal) m ρ c (Proc.devRef .tc main_v29) = (dat3 (V10 m ρ) c).arrAt 10 cfg3.N :=
  ((W13_arr m ρ c 0).trans (((dat4 (V12 m ρ) c).arrAt_in 0 rfl _).trans (A_eq4 (V12 m ρ) c 0))).trans (V12_v29 m ρ c)
theorem W13_v32 : W13 (F := Ideal) m ρ c (Proc.devRef .tc main_v32) = (dat4 (V12 m ρ) c).arrAt 5 cfg4.N := W13_arr m ρ c 5

theorem W14_v29 : W14 (F := Ideal) m ρ c (Proc.devRef .tc main_v29) = (dat3 (V10 m ρ) c).arrAt 10 cfg3.N :=
  (s1314 m ρ c main_v29).trans (W13_v29 m ρ c)
theorem W14_arg5 : W14 (F := Ideal) m ρ c (Proc.devRef .tc main_arg5) = m ((c : Thread nD τ).loc main_arg5) :=
  (s1314 m ρ c main_arg5).trans (to13 m ρ c main_arg5)
theorem W14_v33 : W14 (F := Ideal) m ρ c (Proc.devRef .tc main_v33)
    = shapeCast S100000 ((dat4 (V12 m ρ) c).arrAt 5 cfg4.N) shapeCasts_S100000x1_S100000 := by
  have e : W14 (F := Ideal) m ρ c (Proc.devRef .tc main_v33) = shapeCast S100000 (W13 m ρ c (Proc.devRef .tc main_v32)) shapeCasts_S100000x1_S100000 := by
    show StableHlo.after hostOps5 (W13 m ρ c) (Proc.devRef .tc main_v33) = _
    after_results <;> rfl
  rw [e, W13_v32 m ρ c]

theorem W15_v34 : W15 (F := Ideal) m ρ c (Proc.devRef .tc main_v34) = StableHlo.after hostOps5_1 (W14 m ρ c) (Proc.devRef .tc main_v34) := rfl
theorem W15_arg30 : W15 (F := Ideal) m ρ c (Proc.devRef .tc main_arg30) = m ((c : Thread nD τ).loc main_arg30) :=
  (s1415 m ρ c main_arg30).trans ((s1314 m ρ c main_arg30).trans (to13 m ρ c main_arg30))
theorem W15_arg31 : W15 (F := Ideal) m ρ c (Proc.devRef .tc main_arg31) = m ((c : Thread nD τ).loc main_arg31) :=
  (s1415 m ρ c main_arg31).trans ((s1314 m ρ c main_arg31).trans (to13 m ρ c main_arg31))
theorem W15_arg32 : W15 (F := Ideal) m ρ c (Proc.devRef .tc main_arg32) = m ((c : Thread nD τ).loc main_arg32) :=
  (s1415 m ρ c main_arg32).trans ((s1314 m ρ c main_arg32).trans (to13 m ρ c main_arg32))
theorem W15_arg33 : W15 (F := Ideal) m ρ c (Proc.devRef .tc main_arg33) = m ((c : Thread nD τ).loc main_arg33) :=
  (s1415 m ρ c main_arg33).trans ((s1314 m ρ c main_arg33).trans (to13 m ρ c main_arg33))

theorem W18_v29 : W18 (F := Ideal) m ρ c (Proc.devRef .tc main_v29) = (dat3 (V10 m ρ) c).arrAt 10 cfg3.N :=
  (s1518 m ρ c main_v29).trans ((s1415 m ρ c main_v29).trans (W14_v29 m ρ c))
theorem W18_v33 : W18 (F := Ideal) m ρ c (Proc.devRef .tc main_v33)
    = shapeCast S100000 ((dat4 (V12 m ρ) c).arrAt 5 cfg4.N) shapeCasts_S100000x1_S100000 :=
  (s1518 m ρ c main_v33).trans ((s1415 m ρ c main_v33).trans (W14_v33 m ρ c))
theorem W18_v43 : W18 (F := Ideal) m ρ c (Proc.devRef .tc main_v43)
    = StableHlo.after hostOps5_4 (StableHlo.after hostOps5_3 (StableHlo.after hostOps5_2 (W15 m ρ c))) (Proc.devRef .tc main_v43) := rfl

end Cert.Bridge.Fold

end
-- ==== Proof.Takes.lean ====
/-
  The three table look-ups by an integer index (a row of a table picked per entry of an index vector).

  Each look-up first WRAPS a negative index by adding the table's row count 100000, then TESTS that the wrapped index
  lies in [0, 99999], gathers the rows at the wrapped index, and finally keeps a gathered row where the test holds and
  replaces it by a fill value where it fails. When every index lies in [-100000, 100000) every wrapped index passes the
  test, so the test vector is all ones, its broadcast along the rows is all ones, the final choice keeps every gathered
  row, and the look-up is exactly the gather at the wrapped index.
-/
import proofs.«428024_j38096359915723_1_alg».proof.Proof.Gen.KernelIdeal.Launch
import Idealize.ShloMosaic.Lib.StableHlo.Run
import Idealize.ShloMosaic.Lib.StableHlo.Predicate
import Idealize.ShloMosaic.Lib.ReduceAll
import Idealize.ShloMosaic.Lib.ValueIdx

noncomputable section

namespace Cert.Bridge.Takes

open Idealize.ShloMosaic Idealize.ShloMosaic.ValueIdx
open Cert.KernelIdeal Cert.KernelIdeal.Gen

/-! ## Shapes: a scalar spreads over a vector, a vector of n entries stands as a column of n rows -/

/-- A scalar broadcasts to a vector of any length. -/
theorem bcast_scalar_vec (n : Nat) :
    (⟨0, ![]⟩ : Shape).BroadcastsInDim ⟨1, ![n]⟩ (![] : Fin (⟨0, ![]⟩ : Shape).rank → Fin (⟨1, ![n]⟩ : Shape).rank) :=
  ⟨fun a => a.elim0, fun a => a.elim0⟩

/-- A vector of n entries broadcasts along the rows of an n-row column. -/
theorem bcast_vec_col (n : Nat) :
    (⟨1, ![n]⟩ : Shape).BroadcastsInDim ⟨2, ![n, 1]⟩ (![0] : Fin (⟨1, ![n]⟩ : Shape).rank → Fin (⟨2, ![n, 1]⟩ : Shape).rank) :=
  ⟨fun a b _ => Subsingleton.elim a b, fun a => Or.inr (by obtain rfl : a = 0 := Subsingleton.elim _ _; rfl)⟩

/-- A vector of n entries laid along the rows of an n-row rectangle reads, at any entry, the vector at the entry's row. -/
theorem bcast_rows_apply {α : Type} {n C : Nat}
    (h : (⟨1, ![n]⟩ : Shape).BroadcastsInDim ⟨2, ![n, C]⟩ (![0] : Fin (⟨1, ![n]⟩ : Shape).rank → Fin (⟨2, ![n, C]⟩ : Shape).rank))
    (v : (⟨1, ![n]⟩ : Shape).Idx → α) (j : (⟨2, ![n, C]⟩ : Shape).Idx) :
    broadcastInDim ⟨2, ![n, C]⟩ ![0] h v j = v (ix1 (j 0)) := by
  simp only [broadcastInDim]
  congr 1
  funext a
  obtain rfl : a = 0 := Subsingleton.elim _ _
  apply Fin.ext
  have hp : (j 0).val < n := idx2_lt0 j
  split
  · next h1 => change n = 1 at h1; show (0 : Nat) = (j 0).val; omega
  · rfl

/-! ## The wrapped index -/

/-- The wrapped index as the column the gather takes: row e holds the index at e, plus 100000 when it is negative. -/
def wrapIdx {n : Nat} (idx : IVec ⟨1, ![n]⟩ 32) : IVec ⟨2, ![n, 1]⟩ 32 :=
  broadcastInDim ⟨2, ![n, 1]⟩ ![0] (bcast_vec_col n)
    (select (cmpi .slt idx (broadcastInDim ⟨1, ![n]⟩ ![] (bcast_scalar_vec n) (constantI ⟨0, ![]⟩ 32 0#32)))
      (addi idx (broadcastInDim ⟨1, ![n]⟩ ![] (bcast_scalar_vec n) (constantI ⟨0, ![]⟩ 32 100000#32))) idx)

/-- The wrapped index read at an entry of the column. -/
theorem wrapIdx_apply {n : Nat} (idx : IVec ⟨1, ![n]⟩ 32) (j : (⟨2, ![n, 1]⟩ : Shape).Idx) :
    wrapIdx idx j = if (idx (ix1 (j 0))).slt 0#32 then idx (ix1 (j 0)) + 100000#32 else idx (ix1 (j 0)) := by
  unfold wrapIdx
  rw [bcast_rows_apply]
  show Scalar.select (IntOp.cmpi .slt (idx (ix1 (j 0))) 0#32) (IntOp.addi (idx (ix1 (j 0))) 100000#32) (idx (ix1 (j 0))) = _
  generalize idx (ix1 (j 0)) = w
  show (if BitVec.ofBool (w.slt 0#32) = 1 then w + 100000#32 else w) = _
  cases w.slt 0#32 <;> rfl

/-- The same at row p of the column. -/
theorem wrapIdx_ix2 {n : Nat} (idx : IVec ⟨1, ![n]⟩ 32) (p : Fin n) (q : Fin 1) :
    wrapIdx idx (ix2 p q) = if (idx (ix1 p)).slt 0#32 then idx (ix1 p) + 100000#32 else idx (ix1 p) :=
  wrapIdx_apply idx (ix2 p q)

/-! ## An all-ones test keeps every gathered row -/

/-- A reduction by "and" from 1 over bits that are all 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize List.filter _ _ = l
  induction l with
  | nil => rfl
  | cons a l ih =>
    rw [List.foldl_cons, hx]
    exact ih

/-- A choice whose mask is an all-ones vector laid along the rows of a rectangle returns its first branch. -/
theorem select_bcast_ones {α : Type} {n C : Nat}
    (h : (⟨1, ![n]⟩ : Shape).BroadcastsInDim ⟨2, ![n, C]⟩ (![0] : Fin (⟨1, ![n]⟩ : Shape).rank → Fin (⟨2, ![n, C]⟩ : Shape).rank))
    (m : IVec ⟨1, ![n]⟩ 1) (hm : ∀ e, m e = 1#1) (a b : (⟨2, ![n, C]⟩ : Shape).Idx → α) :
    select (broadcastInDim ⟨2, ![n, C]⟩ ![0] h m) a b = a := by
  funext j
  rw [select_apply, bcast_rows_apply, hm, select_one]

/-- The range test of a column of indices against the literals 0 and 99999 is 1 at every entry where both compares hold. -/
theorem range_test_one (w : BitVec 32) (h0 : (0#32).sle w = true) (h1 : w.sle 99999#32 = true) :
    IntOp.andi (IntOp.cmpi .sge w 0#32) (IntOp.cmpi .sle w 99999#32) = 1#1 := by
  show BitVec.ofBool ((0#32).sle w) &&& BitVec.ofBool (w.sle 99999#32) = 1#1
  rw [h0, h1]; rfl

/-- The look-up's last step with the test written out: when every wrapped index lies in [0, 99999], the choice between
    the gathered rows and the fill by the broadcast test is the gathered rows. -/
theorem take_core {α : Type} {n C : Nat} {sT : Shape} (G : GatherDims sT ⟨2, ![n, 1]⟩ ⟨2, ![n, C]⟩)
    (hrows : (⟨1, ![n]⟩ : Shape).BroadcastsInDim ⟨2, ![n, C]⟩ (![0] : Fin (⟨1, ![n]⟩ : Shape).rank → Fin (⟨2, ![n, C]⟩ : Shape).rank))
    (h6 : (⟨0, ![]⟩ : Shape).BroadcastsInDim ⟨2, ![n, 1]⟩ (![] : Fin (⟨0, ![]⟩ : Shape).rank → Fin (⟨2, ![n, 1]⟩ : Shape).rank))
    (h8 : (⟨1, ![1]⟩ : Shape).BroadcastsInDim ⟨2, ![1, 1]⟩ (![1] : Fin (⟨1, ![1]⟩ : Shape).rank → Fin (⟨2, ![1, 1]⟩ : Shape).rank))
    (h9 : (⟨2, ![1, 1]⟩ : Shape).BroadcastsInDim ⟨2, ![n, 1]⟩ (![0, 1] : Fin (⟨2, ![1, 1]⟩ : Shape).rank → Fin (⟨2, ![n, 1]⟩ : Shape).rank))
    (hred : (⟨2, ![n, 1]⟩ : Shape).ReducesTo [1] ⟨1, ![n]⟩) (hu : 0 < (⟨0, ![]⟩ : Shape).numel)
    (tbl : sT.Idx → α) (idx : IVec ⟨1, ![n]⟩ 32) (fill : (⟨2, ![n, C]⟩ : Shape).Idx → α)
    (hr : ∀ e : (⟨1, ![n]⟩ : Shape).Idx, let i : BitVec 32 := idx e;
      (0#32).sle (if i.slt 0#32 then i + 100000#32 else i) = true ∧ (if i.slt 0#32 then i + 100000#32 else i).sle 99999#32 = true) :
    select (broadcastInDim ⟨2, ![n, C]⟩ ![0] hrows
        (Host.reduce IntOp.andi
          (andi (cmpi .sge (wrapIdx idx) (broadcastInDim ⟨2, ![n, 1]⟩ ![] h6 (constantI ⟨0, ![]⟩ 32 0#32)))
            (cmpi .sle (wrapIdx idx)
              (broadcastInDim ⟨2, ![n, 1]⟩ ![0, 1] h9 (broadcastInDim ⟨2, ![1, 1]⟩ ![1] h8 (constantI ⟨1, ![1]⟩ 32 99999#32)))))
          (constantI ⟨0, ![]⟩ 1 1#1) hred hu))
      (Host.gather G tbl (wrapIdx idx)) fill
    = Host.gather G tbl (wrapIdx idx) := by
  refine select_bcast_ones _ _ (fun e => ?_) _ _
  refine reduce_andi_ones _ _ _ _ (fun j => ?_) (fun _ => rfl) e
  show IntOp.andi (IntOp.cmpi .sge (wrapIdx idx j) 0#32) (IntOp.cmpi .sle (wrapIdx idx j) 99999#32) = 1#1
  have hj := hr (ix1 (j 0))
  rw [wrapIdx_apply]
  exact range_test_one _ hj.1 hj.2

/-! ## The three look-ups -/

/-- Transport along an equation between a type and itself is the identity. -/
theorem cast_self {α : Sort _} (h : α = α) (a : α) : cast h a = a := (cast_eq h a).trans rfl

/-- The first look-up (rows of 9 entries, one per entry of the 1200000-long index vector) is the gather at the wrapped
    index, when every wrapped index lies in [0, 99999]. -/
theorem take0 (W : Valuation τ sig (Elt Ideal))
    (hr : ∀ e : S1200000.Idx, let i : BitVec 32 := (W (Proc.devRef .tc main_v1) : IVec S1200000 32) e;
      (0#32).sle (if i.slt 0#32 then i + 100000#32 else i) = true ∧ (if i.slt 0#32 then i + 100000#32 else i).sle 99999#32 = true) :
    StableHlo.after hostOps0_1 W (Proc.devRef .tc main_v4)
      = Host.gather gather_S100000x9_S1200000x1_S1200000x9_1_0_n_n_0_1_19 (W (Proc.devRef .tc main_arg0)) (wrapIdx (W (Proc.devRef .tc main_v1))) := by
  dsimp only [hostOps0_1]
  after_results_simp
  simp only [StableHlo.TRef.ofBuf, StableHlo.TRef.toBuf, cast_self]
  exact take_core _ _ _ _ _ _ _ _ _ _ hr

/-- The second look-up (rows of 128 entries, by the same index vector) is the gather at the wrapped index, when every
    wrapped index lies in [0, 99999]. -/
theorem take1 (W : Valuation τ sig (Elt Ideal))
    (hr : ∀ e : S1200000.Idx, let i : BitVec 32 := (W (Proc.devRef .tc main_v1) : IVec S1200000 32) e;
      (0#32).sle (if i.slt 0#32 then i + 100000#32 else i) = true ∧ (if i.slt 0#32 then i + 100000#32 else i).sle 99999#32 = true) :
    StableHlo.after hostOps2 W (Proc.devRef .tc main_v17)
      = Host.gather gather_S100000x128_S1200000x1_S1200000x128_1_0_n_n_0_1_1128 (W (Proc.devRef .tc main_v16)) (wrapIdx (W (Proc.devRef .tc main_v1))) := by
  dsimp only [hostOps2]
  after_results_simp
  simp only [StableHlo.TRef.ofBuf, StableHlo.TRef.toBuf, cast_self]
  exact take_core _ _ _ _ _ _ _ _ _ _ hr

/-- The third look-up (rows of 64 entries, one per entry of the 64-long index vector) is the gather at the wrapped index,
    when every wrapped index lies in [0, 99999]. -/
theorem take2 (W : Valuation τ sig (Elt Ideal))
    (hr : ∀ e : S64.Idx, let i : BitVec 32 := (W (Proc.devRef .tc main_arg5) : IVec S64 32) e;
      (0#32).sle (if i.slt 0#32 then i + 100000#32 else i) = true ∧ (if i.slt 0#32 then i + 100000#32 else i).sle 99999#32 = true) :
    StableHlo.after hostOps5_1 W (Proc.devRef .tc main_v34)
      = Host.gather gather_S100000x64_S64x1_S64x64_1_0_n_n_0_1_164 (W (Proc.devRef .tc main_v29)) (wrapIdx (W (Proc.devRef .tc main_arg5))) := by
  dsimp only [hostOps5_1]
  after_results_simp
  simp only [StableHlo.TRef.ofBuf, StableHlo.TRef.toBuf, cast_self]
  exact take_core _ _ _ _ _ _ _ _ _ _ hr

end Cert.Bridge.Takes

end
-- ==== Proof.Region0.lean ====
/-
  The first edge-message region, read as one function of whole arrays.

  The region visits the 1200000 edges in 200 blocks of 6000 consecutive rows. At block t it holds rows
  6000 t … 6000 t + 5999 of the gathered source rows and of the edge attributes, and, whole, the 4 × 9 weight matrix
  and the 1 × 9 bias row; it writes rows 6000 t … 6000 t + 5999 of the messages. Entry (p, q) of what it writes is the
  gathered entry plus the sum over the four attributes of attribute times weight, plus the bias entry, clipped at
  zero. The narrowing of the two factors changes nothing over the extended reals, the product accumulates from zero,
  the two shape casts are to the same shape, and the bias row is repeated down the 6000 rows. Row r of the array lies
  in block r / 6000 and in no other, the 200 blocks fill the array, and so the array after the region is the message
  function of the four arrays the region found.
-/
import proofs.«428024_j38096359915723_1_alg».proof.Proof.Gen.KernelIdeal.Frame
import proofs.«428024_j38096359915723_1_alg».proof.Proof.Spec
import Idealize.ShloMosaic.Lib.Pipeline.Value
import Idealize.ShloMosaic.Lib.ValueIdx
import Idealize.ShloMosaic.PureOps.Ideal.Laws

noncomputable section

namespace Cert.Bridge.Region0

open Idealize.ShloMosaic Idealize.ShloMosaic.ValueIdx Idealize.ShloMosaic.TcCoe Idealize.SL.Sem
open Idealize.ShloMosaic.Pipeline (Dat)
open Cert.KernelIdeal Cert.KernelIdeal.Gen

/-! ## The product of a block of attributes with the weights, at an entry -/

/-- The left factor's row is the output's row. -/
theorem lhs_axis_0 (i : S6000x9.Idx) (k : dot_S6000x4_S4x9_S6000x9_1_0_0_1_n_n.contr.Idx) :
    (dot_S6000x4_S4x9_S6000x9_1_0_0_1_n_n.lhsIdx i k 0).val = (i 0).val := by
  unfold DotDims.lhsIdx
  rw [dif_neg (show ¬(0 : Fin S6000x4.rank) ∈ dot_S6000x4_S4x9_S6000x9_1_0_0_1_n_n.lhsBatch by decide), dif_pos (show (0 : Fin S6000x4.rank) ∈ dot_S6000x4_S4x9_S6000x9_1_0_0_1_n_n.lhsNonContracting by decide)]
  rfl
/-- The left factor's column is the contracted coordinate. -/
theorem lhs_axis_1 (i : S6000x9.Idx) (k : dot_S6000x4_S4x9_S6000x9_1_0_0_1_n_n.contr.Idx) :
    (dot_S6000x4_S4x9_S6000x9_1_0_0_1_n_n.lhsIdx i k 1).val = (k ⟨0, by decide⟩).val :=
  dot_S6000x4_S4x9_S6000x9_1_0_0_1_n_n.lhsIdx_val_of_single rfl i k
/-- The right factor's row is the contracted coordinate. -/
theorem rhs_axis_0 (i : S6000x9.Idx) (k : dot_S6000x4_S4x9_S6000x9_1_0_0_1_n_n.contr.Idx) :
    (dot_S6000x4_S4x9_S6000x9_1_0_0_1_n_n.rhsIdx i k 0).val = (k ⟨0, by decide⟩).val :=
  dot_S6000x4_S4x9_S6000x9_1_0_0_1_n_n.rhsIdx_val_of_single rfl i k
/-- The right factor's column is the output's column. -/
theorem rhs_axis_1 (i : S6000x9.Idx) (k : dot_S6000x4_S4x9_S6000x9_1_0_0_1_n_n.contr.Idx) :
    (dot_S6000x4_S4x9_S6000x9_1_0_0_1_n_n.rhsIdx i k 1).val = (i 1).val := by
  unfold DotDims.rhsIdx
  rw [dif_neg (show ¬(1 : Fin S4x9.rank) ∈ dot_S6000x4_S4x9_S6000x9_1_0_0_1_n_n.rhsBatch by decide), dif_pos (show (1 : Fin S4x9.rank) ∈ dot_S6000x4_S4x9_S6000x9_1_0_0_1_n_n.rhsNonContracting by decide)]
  rfl

/-- Entry (p, q) of the product accumulated from zero: the sum over the four attributes. -/
theorem product_at (a : FVec Ideal S6000x4 .bf16) (b : FVec Ideal S4x9 .bf16) (p : Fin 6000) (q : Fin 9) :
    matmul dot_S6000x4_S4x9_S6000x9_1_0_0_1_n_n none a b (constant (F := Ideal) S6000x9 .f32 0x00000000#32) (ix2 p q)
      = ∑ k : Fin 4, a (ix2 p k) * b (ix2 k q) := by
  simp only [matmul]
  rw [Ideal.matmul_constant_zero_apply, ← Equiv.sum_comp (contrEquiv1 dot_S6000x4_S4x9_S6000x9_1_0_0_1_n_n 4 rfl rfl).symm]
  refine Finset.sum_congr rfl fun k _ => ?_
  have hk := contrEquiv1_symm_val dot_S6000x4_S4x9_S6000x9_1_0_0_1_n_n 4 rfl rfl k
  have el : dot_S6000x4_S4x9_S6000x9_1_0_0_1_n_n.lhsIdx (ix2 p q) ((contrEquiv1 dot_S6000x4_S4x9_S6000x9_1_0_0_1_n_n 4 rfl rfl).symm k) = ix2 p k := funext fun x => Fin.ext (by
    match x with
    | ⟨0, _⟩ => exact lhs_axis_0 _ _
    | ⟨1, _⟩ => exact (lhs_axis_1 _ _).trans hk)
  have er : dot_S6000x4_S4x9_S6000x9_1_0_0_1_n_n.rhsIdx (ix2 p q) ((contrEquiv1 dot_S6000x4_S4x9_S6000x9_1_0_0_1_n_n 4 rfl rfl).symm k) = ix2 k q := funext fun x => Fin.ext (by
    match x with
    | ⟨0, _⟩ => exact (rhs_axis_0 _ _).trans hk
    | ⟨1, _⟩ => exact rhs_axis_1 _ _)
  rw [el, er]

/-- The bias row repeated down the rows: entry (p, q) is the row's entry q. -/
theorem bias_at (x : S1x9.Idx → EReal) (p : Fin 6000) (q : Fin 9) :
    broadcastTo S6000x9 x broadcasts_S1x9_S6000x9 (ix2 p q) = x (ix2 (0 : Fin 1) q) :=
  broadcastTo_apply x broadcasts_S1x9_S6000x9 (ix2 p q) (ix2 (0 : Fin 1) q) (fun a => by
    match a with
    | ⟨0, _⟩ => show (0 : Nat) = if (1 : Nat) = 1 then 0 else p.val; rw [if_pos rfl]
    | ⟨1, _⟩ => show q.val = if (9 : Nat) = 1 then 0 else q.val; rw [if_neg (by decide)])

/-! ## What the body stores, at an entry -/

/-- Entry (p, q) of the stored block, from the four blocks the body loads. -/
theorem stored_at (ea : Vec Ideal S6000x4 .f32) (we : Vec Ideal S4x9 .f32) (xg : Vec Ideal S6000x9 .f32) (be : Vec Ideal S1x9 .f32)
    (p : Fin 6000) (q : Fin 9) :
    k0_pay1 (F := Ideal) ea we xg be (ix2 p q)
      = max ((xg (ix2 p q) + ∑ k : Fin 4, ea (ix2 p k) * we (ix2 k q)) + be (ix2 (0 : Fin 1) q)) zero32 := by
  unfold k0_pay1
  rw [maximumf_apply, addf_apply, addf_apply, shapeCast_self, shapeCast_self, bias_at, product_at]
  rfl

/-! ## The message function at an entry -/

/-- Entry (r, q) of the message function, with the bias read off its row. -/
theorem msg_at (xg : FVec Ideal S1200000x9 .f32) (ea : FVec Ideal S1200000x4 .f32) (we : FVec Ideal S4x9 .f32)
    (be : FVec Ideal S1x9 .f32) (r : Fin 1200000) (q : Fin 9) :
    msg (C := 9) xg ea we (unrow be) (ix2 r q)
      = max ((xg (ix2 r q) + ∑ k : Fin 4, ea (ix2 r k) * we (ix2 k q)) + be (ix2 (0 : Fin 1) q)) zero32 := rfl

/-! ## From blocks to the array -/

theorem hz : (![0, 0] : Fin 2 → Nat) = fun _ => 0 := funext fun a => by fin_cases a <;> rfl

/-- The block index of each window at point t: the two row-blocked inputs and the output are at block t of the rows,
    the weights and the bias row are not blocked. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is row 6000 t + p of the array. -/
def row (t : Fin cfg0.N) (p : Fin 6000) : Fin 1200000 :=
  ⟨t.val * 6000 + p.val, by
    have ht : t.val < grid0.N := t.isLt
    rw [N_0] at ht
    have hp := p.isLt
    omega⟩

section Blocks

variable (V : (c : Dev nD) → (b : Ref sig .tc) → Buf (Elt Ideal) ((c : Thread nD τ).loc b))

/-- Entry (p, q) of the block of gathered rows at point t is entry (6000 t + p, q) of the array. -/
theorem gathered_block_at (c : Dev nD) (t : Fin cfg0.N) (p : Fin 6000) (q : Fin 9) :
    (iblk0 V c 0 t : Vec Ideal S6000x9 .f32) (ix2 p q) = (V c main_v4 : FVec Ideal S1200000x9 .f32) (ix2 (row t p) q) := by
  obtain ⟨e0, e1, -⟩ := idx_facts t
  have h : ((cfg0.win 0).blk t).view.emb (ix2 p q) = (ix2 (row t p) q : S1200000x9.Idx) := by
    funext a; apply Fin.ext
    match a with
    | ⟨0, _⟩ => show win0_0.index t (0 : Fin 2) * 6000 + 1 * p.val = t.val * 6000 + p.val; omega
    | ⟨1, _⟩ => show win0_0.index t (1 : Fin 2) * 9 + 1 * q.val = q.val; omega
  show V c main_v4 (((cfg0.win 0).blk t).view.emb (ix2 p q)) = _
  rw [h]

/-- Entry (p, k) of the block of attributes at point t is entry (6000 t + p, k) of the array. -/
theorem attr_block_at (c : Dev nD) (t : Fin cfg0.N) (p : Fin 6000) (k : Fin 4) :
    (iblk0 V c 1 t : Vec Ideal S6000x4 .f32) (ix2 p k) = (V c main_arg2 : FVec Ideal S1200000x4 .f32) (ix2 (row t p) k) := by
  obtain ⟨-, -, e2, e3, -⟩ := idx_facts t
  have h : ((cfg0.win 1).blk t).view.emb (ix2 p k) = (ix2 (row t p) k : S1200000x4.Idx) := by
    funext a; apply Fin.ext
    match a with
    | ⟨0, _⟩ => show win0_1.index t (0 : Fin 2) * 6000 + 1 * p.val = t.val * 6000 + p.val; omega
    | ⟨1, _⟩ => show win0_1.index t (1 : Fin 2) * 4 + 1 * k.val = k.val; omega
  show V c main_arg2 (((cfg0.win 1).blk t).view.emb (ix2 p k)) = _
  rw [h]

/-- The weights are staged whole: entry (k, q) of their block is entry (k, q) of the array. -/
theorem weights_block_at (c : Dev nD) (t : Fin cfg0.N) (k : Fin 4) (q : Fin 9) :
    (iblk0 V c 2 t : Vec Ideal S4x9 .f32) (ix2 k q) = (V c main_arg6 : FVec Ideal S4x9 .f32) (ix2 k q) := by
  obtain ⟨-, -, -, -, e4, e5, -⟩ := idx_facts t
  have h : ((cfg0.win 2).blk t).view.emb (ix2 k q) = (ix2 k q : S4x9.Idx) := by
    funext a; apply Fin.ext
    match a with
    | ⟨0, _⟩ => show win0_2.index t (0 : Fin 2) * 4 + 1 * k.val = k.val; omega
    | ⟨1, _⟩ => show win0_2.index t (1 : Fin 2) * 9 + 1 * q.val = q.val; omega
  show V c main_arg6 (((cfg0.win 2).blk t).view.emb (ix2 k q)) = _
  rw [h]

/-- The bias row is staged whole: entry (0, q) of its block is entry (0, q) of the array. -/
theorem bias_block_at (c : Dev nD) (t : Fin cfg0.N) (q : Fin 9) :
    (iblk0 V c 3 t : Vec Ideal S1x9 .f32) (ix2 (0 : Fin 1) q) = (V c main_v5 : FVec Ideal S1x9 .f32) (ix2 (0 : Fin 1) q) := by
  obtain ⟨-, -, -, -, -, -, e6, e7, -⟩ := idx_facts t
  have h : ((cfg0.win 3).blk t).view.emb (ix2 (0 : Fin 1) q) = (ix2 (0 : Fin 1) q : S1x9.Idx) := by
    funext a; apply Fin.ext
    match a with
    | ⟨0, _⟩ => show win0_3.index t (0 : Fin 2) * 1 + 1 * 0 = 0; omega
    | ⟨1, _⟩ => show win0_3.index t (1 : Fin 2) * 9 + 1 * q.val = q.val; omega
  show V c main_v5 (((cfg0.win 3).blk t).view.emb (ix2 (0 : Fin 1) q)) = _
  rw [h]

/-- Entry (p, q) of what point t stores is entry (6000 t + p, q) of the message function of the four arrays. -/
theorem stored_eq_msg (c : Dev nD) (t : Fin cfg0.N) (p : Fin 6000) (q : Fin 9) :
    k0_pay1 (F := Ideal) (iblk0 V c 1 t) (iblk0 V c 2 t) (iblk0 V c 0 t) (iblk0 V c 3 t) (ix2 p q)
      = msg (C := 9) (V c main_v4) (V c main_arg2) (V c main_arg6) (unrow (V c main_v5)) (ix2 (row t p) q) := by
  refine (stored_at (iblk0 V c 1 t) (iblk0 V c 2 t) (iblk0 V c 0 t) (iblk0 V c 3 t) p q).trans ?_
  rw [msg_at, gathered_block_at V c t p q, bias_block_at V c t q]
  simp only [attr_block_at V c t p, weights_block_at V c t]

/-- What point t writes back is block t of the message function. -/
theorem flushed_eq (c : Dev nD) (t : Fin cfg0.N) :
    (dat0 (F := Ideal) V c).flushed 4 t = ((cfg0.win 4).blk t).view.read (Elt Ideal)
      (msg (C := 9) (V c main_v4) (V c main_arg2) (V c main_arg6) (unrow (V c main_v5))) := by
  show (cfg0.win 4).cut (grid0.coords t) ((dat0 V c).after 4 t) = _
  rw [after0_4]
  unfold out0_4
  rw [View.canon_unit_zero hz]
  simp only [View.ld_unit_zero (S := S6000x4) hz, View.ld_unit_zero (S := S4x9) hz, View.ld_unit_zero (S := S6000x9) hz,
    View.ld_unit_zero (S := S1x9) hz]
  funext j
  have hj0 : (j 0).val < 6000 := (j 0).isLt
  have hj1 : (j 1).val < 9 := (j 1).isLt
  have hx : (cfg0.win 4).xinj (grid0.coords t) j = ix2 (⟨(j 0).val, hj0⟩ : Fin 6000) (⟨(j 1).val, hj1⟩ : Fin 9) :=
    funext fun a => by match a with | ⟨0, _⟩ => rfl | ⟨1, _⟩ => rfl
  have hi : ((cfg0.win 4).blk t).view.emb j = (ix2 (row t ⟨(j 0).val, hj0⟩) (⟨(j 1).val, hj1⟩ : Fin 9) : S1200000x9.Idx) := by
    obtain ⟨-, -, -, -, -, -, -, -, e8, e9⟩ := idx_facts t
    funext a; apply Fin.ext
    match a with
    | ⟨0, _⟩ => show win0_4.index t (0 : Fin 2) * 6000 + 1 * (j 0).val = t.val * 6000 + (j 0).val; omega
    | ⟨1, _⟩ => show win0_4.index t (1 : Fin 2) * 9 + 1 * (j 1).val = (j 1).val; omega
  show k0_pay1 (F := Ideal) (iblk0 V c 1 t) (iblk0 V c 2 t) (iblk0 V c 0 t) (iblk0 V c 3 t) ((cfg0.win 4).xinj (grid0.coords t) j)
    = msg (C := 9) (V c main_v4) (V c main_arg2) (V c main_arg6) (unrow (V c main_v5)) (((cfg0.win 4).blk t).view.emb j)
  rw [hx, hi]
  exact stored_eq_msg V c t _ _

end Blocks

/-- An index of the array is in point t's block iff each coordinate is in the block's range on its axis. -/
theorem mem_blk (t : Fin cfg0.N) (i : S1200000x9.Idx) :
    i ∈ ((cfg0.win 4).blk t).view.set ↔ ∀ a : Fin 2, win0_4.index t a * S6000x9.size a ≤ (i a).val ∧ (i a).val < win0_4.index t a * S6000x9.size a + S6000x9.size a := by
  show i ∈ ((View.whole main_v6).slice (win0_4.rect t)).set ↔ _
  rw [View.set_slice_whole, Rect.mem_set_unit]
  exact Iff.rfl

/-- Every entry of the array is written: row r lies in the block of point r / 6000. -/
theorem covered (i : S1200000x9.Idx) :
    ∃ t : Fin cfg0.N, (cfg0.win 4).flush t = true ∧ i ∈ ((cfg0.win 4).blk t).view.set := by
  have hi0 : (i 0).val < 1200000 := (i 0).isLt
  have hi1 : (i 1).val < 9 := (i 1).isLt
  have ht : (i 0).val / 6000 < cfg0.N := by show _ < grid0.N; rw [N_0]; omega
  obtain ⟨-, -, -, -, -, -, -, -, e8, e9⟩ := idx_facts ⟨(i 0).val / 6000, ht⟩
  have e8' : win0_4.index ⟨(i 0).val / 6000, ht⟩ (0 : Fin 2) = (i 0).val / 6000 := e8
  refine ⟨⟨(i 0).val / 6000, ht⟩, flush0_4 _, ?_⟩
  rw [mem_blk]
  intro a
  match a with
  | ⟨0, _⟩ =>
    show win0_4.index ⟨(i 0).val / 6000, ht⟩ (0 : Fin 2) * 6000 ≤ (i 0).val
      ∧ (i 0).val < win0_4.index ⟨(i 0).val / 6000, ht⟩ (0 : Fin 2) * 6000 + 6000
    omega
  | ⟨1, _⟩ =>
    show win0_4.index ⟨(i 0).val / 6000, ht⟩ (1 : Fin 2) * 9 ≤ (i 1).val
      ∧ (i 1).val < win0_4.index ⟨(i 0).val / 6000, ht⟩ (1 : Fin 2) * 9 + 9
    omega

/-- The messages after the region: the message function of the gathered rows, the attributes, the weights and the
    bias as the region found them. -/
theorem out_eq (V : (c : Dev nD) → (b : Ref sig .tc) → Buf (Elt Ideal) ((c : Thread nD τ).loc b)) (c : Dev nD) :
    (dat0 (F := Ideal) V c).arrAt 4 cfg0.N
      = Cert.Bridge.msg (C := 9) (V c main_v4) (V c main_arg2) (V c main_arg6) (Cert.Bridge.unrow (V c main_v5)) :=
  (dat0 (F := Ideal) V c).arrAt_eq_of_cover 4 _ (fun t _ => flushed_eq V c t) covered

end Cert.Bridge.Region0

end
-- ==== Proof.Region1.lean ====
/-
  The value of the first node update of the kernel program, read off its pipeline's proof data.

  The update runs over twenty blocks of five thousand rows. On one block the body adds the block of the node rows to
  the block of their aggregates, multiplies by the first matrix, adds a bias row, subtracts the stored mean, scales,
  multiplies by the inverse square root of the stored variance offset by a fixed positive word, shifts, clips at zero,
  multiplies by the second matrix, adds a second bias row and clips at zero again. Read at one entry of the block each
  matrix product is the plain sum over the contracted coordinate, a bias row is read at its column, and nothing else
  moves an index; the narrowing of a product's operands is the identity on the extended reals.

  The row blocks follow the grid point and every other window is the whole of its array, so the entry (p, q) of the
  block at point t is the entry (5000 t + p, q) of one function of the whole arrays: the specification's node update.
  The twenty blocks tile the hundred thousand rows, hence the array the pipeline leaves is that function.
-/
import proofs.«428024_j38096359915723_1_alg».proof.Proof.Gen.KernelIdeal.Frame
import proofs.«428024_j38096359915723_1_alg».proof.Proof.Spec
import Idealize.ShloMosaic.Lib.Pipeline.Value
import Idealize.ShloMosaic.Lib.ValueIdx
import Idealize.ShloMosaic.PureOps.Ideal.Laws

noncomputable section

namespace Cert.Bridge.Region1

open Cert.KernelIdeal Cert.KernelIdeal.Gen
open Idealize.ShloMosaic Idealize.ShloMosaic.ValueIdx Idealize.ShloMosaic.TcCoe Idealize.SL.Sem
open Idealize.ShloMosaic.Pipeline (Dat)

/-! ## The first product: a row of 9 entries against the 9 × 128 matrix -/

theorem lhsA_0 (i : S5000x128.Idx) (q : dot_S5000x9_S9x128_S5000x128_1_0_0_1_n_n.contr.Idx) :
    (dot_S5000x9_S9x128_S5000x128_1_0_0_1_n_n.lhsIdx i q 0).val = (i 0).val := by
  unfold DotDims.lhsIdx
  rw [dif_neg (show ¬(0 : Fin S5000x9.rank) ∈ dot_S5000x9_S9x128_S5000x128_1_0_0_1_n_n.lhsBatch by decide), dif_pos (show (0 : Fin S5000x9.rank) ∈ dot_S5000x9_S9x128_S5000x128_1_0_0_1_n_n.lhsNonContracting by decide)]
  rfl
theorem lhsA_1 (i : S5000x128.Idx) (q : dot_S5000x9_S9x128_S5000x128_1_0_0_1_n_n.contr.Idx) :
    (dot_S5000x9_S9x128_S5000x128_1_0_0_1_n_n.lhsIdx i q 1).val = (q ⟨0, by decide⟩).val :=
  dot_S5000x9_S9x128_S5000x128_1_0_0_1_n_n.lhsIdx_val_of_single rfl i q
theorem rhsA_0 (i : S5000x128.Idx) (q : dot_S5000x9_S9x128_S5000x128_1_0_0_1_n_n.contr.Idx) :
    (dot_S5000x9_S9x128_S5000x128_1_0_0_1_n_n.rhsIdx i q 0).val = (q ⟨0, by decide⟩).val :=
  dot_S5000x9_S9x128_S5000x128_1_0_0_1_n_n.rhsIdx_val_of_single rfl i q
theorem rhsA_1 (i : S5000x128.Idx) (q : dot_S5000x9_S9x128_S5000x128_1_0_0_1_n_n.contr.Idx) :
    (dot_S5000x9_S9x128_S5000x128_1_0_0_1_n_n.rhsIdx i q 1).val = (i 1).val := by
  unfold DotDims.rhsIdx
  rw [dif_neg (show ¬(1 : Fin S9x128.rank) ∈ dot_S5000x9_S9x128_S5000x128_1_0_0_1_n_n.rhsBatch by decide), dif_pos (show (1 : Fin S9x128.rank) ∈ dot_S5000x9_S9x128_S5000x128_1_0_0_1_n_n.rhsNonContracting by decide)]
  rfl

/-- Entry (p, h) of the first product into zero: the sum over the nine contracted coordinates. -/
theorem prodA_apply (l : FVec Ideal S5000x9 .bf16) (r : FVec Ideal S9x128 .bf16) (p : Fin 5000) (h : Fin 128) :
    matmul dot_S5000x9_S9x128_S5000x128_1_0_0_1_n_n none l r (constant (F := Ideal) S5000x128 .f32 0x00000000#32) (ix2 p h)
      = ∑ k : Fin 9, l (ix2 p k) * r (ix2 k h) := by
  refine (Ideal.matmul_constant_zero_apply dot_S5000x9_S9x128_S5000x128_1_0_0_1_n_n none l r (ix2 p h)).trans ?_
  rw [← Equiv.sum_comp (contrEquiv1 dot_S5000x9_S9x128_S5000x128_1_0_0_1_n_n 9 rfl rfl).symm]
  refine Finset.sum_congr rfl fun k _ => ?_
  have hk := contrEquiv1_symm_val dot_S5000x9_S9x128_S5000x128_1_0_0_1_n_n 9 rfl rfl k
  have el : dot_S5000x9_S9x128_S5000x128_1_0_0_1_n_n.lhsIdx (ix2 p h) ((contrEquiv1 dot_S5000x9_S9x128_S5000x128_1_0_0_1_n_n 9 rfl rfl).symm k) = ix2 p k := funext fun a => Fin.ext (by
    match a with
    | ⟨0, _⟩ => exact lhsA_0 _ _
    | ⟨1, _⟩ => exact (lhsA_1 _ _).trans hk)
  have er : dot_S5000x9_S9x128_S5000x128_1_0_0_1_n_n.rhsIdx (ix2 p h) ((contrEquiv1 dot_S5000x9_S9x128_S5000x128_1_0_0_1_n_n 9 rfl rfl).symm k) = ix2 k h := funext fun a => Fin.ext (by
    match a with
    | ⟨0, _⟩ => exact (rhsA_0 _ _).trans hk
    | ⟨1, _⟩ => exact rhsA_1 _ _)
  rw [el, er]

/-! ## The second product: a row of 128 hidden entries against the 128 × 128 matrix -/

theorem lhsB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the second product into zero: the sum over the 128 contracted coordinates. -/
theorem prodB_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ h : Fin 128, l (ix2 p h) * r (ix2 h q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## A bias row read at an entry of the block -/

/-- A row of 128 entries spread over the 5000 rows of a block reads, at (p, h), its entry h. -/
theorem row_apply (v : FVec Ideal S1x128 .f32) (p : Fin 5000) (h : Fin 128) :
    broadcastTo S5000x128 v broadcasts_S1x128_S5000x128 (ix2 p h) = v (ix2 (0 : Fin 1) h) :=
  broadcastTo_apply v broadcasts_S1x128_S5000x128 (ix2 p h) (ix2 (0 : Fin 1) h) (fun a => match a with
    | ⟨0, _⟩ => by show (0 : Nat) = if (1 : Nat) = 1 then 0 else p.val; rw [if_pos rfl]
    | ⟨1, _⟩ => by show h.val = if (128 : Nat) = 1 then 0 else h.val; rw [if_neg (by decide)])

/-! ## The hidden layer of one block -/

/-- The hidden layer of one block as the body computes it from the loaded blocks: the first product and bias, the
    stored mean taken off, the scale, the inverse square root of the offset variance, the shift, the clip at zero. -/
def hidB (x a : FVec Ideal S5000x9 .f32) (W1 : FVec Ideal S9x128 .f32) (b1 g mu var bt : FVec Ideal S1x128 .f32) :
    FVec Ideal S5000x128 .f32 :=
  maximumf
    (addf
      (mulf
        (mulf (broadcastTo S5000x128 (shapeCast S1x128 g shapeCasts_S1x128_S1x128) broadcasts_S1x128_S5000x128)
          (subf
            (addf
              (matmul dot_S5000x9_S9x128_S5000x128_1_0_0_1_n_n none
                (truncf .bf16 (addf x (shapeCast S5000x9 a shapeCasts_S5000x9_S5000x9)) bitsLt_bf16_f32)
                (truncf .bf16 W1 bitsLt_bf16_f32) (constant (F := Ideal) S5000x128 .f32 0x00000000#32))
              (broadcastTo S5000x128 (shapeCast S1x128 b1 shapeCasts_S1x128_S1x128) broadcasts_S1x128_S5000x128))
            (broadcastTo S5000x128 (shapeCast S1x128 mu shapeCasts_S1x128_S1x128) broadcasts_S1x128_S5000x128)))
        (broadcastTo S5000x128
          (rsqrt (addf (shapeCast S1x128 var shapeCasts_S1x128_S1x128)
            (broadcast S1x128 (Scalar.ofBits (F := Ideal) .f32 0x3727C5AC#32))))
          broadcasts_S1x128_S5000x128))
      (broadcastTo S5000x128 (shapeCast S1x128 bt shapeCasts_S1x128_S1x128) broadcasts_S1x128_S5000x128))
    (broadcast S5000x128 (Scalar.ofBits (F := Ideal) .f32 0x00000000#32))

/-- The body's first payload is the second product, into zero, of that hidden layer with the second matrix. -/
theorem pay2_eq (x a : FVec Ideal S5000x9 .f32) (W1 : FVec Ideal S9x128 .f32) (b1 g mu var bt : FVec Ideal S1x128 .f32)
    (W2 : FVec Ideal S128x128 .f32) :
    k1_pay2 (F := Ideal) x a W1 b1 g mu var bt W2
      = matmul dot_S5000x128_S128x128_S5000x128_1_0_0_1_n_n none (truncf .bf16 (hidB x a W1 b1 g mu var bt) bitsLt_bf16_f32)
          (truncf .bf16 W2 bitsLt_bf16_f32) (constant (F := Ideal) S5000x128 .f32 0x00000000#32) := rfl

/-- Entry (p, h) of a block's hidden layer, written from entries of the blocks. -/
def hidAt (x a : FVec Ideal S5000x9 .f32) (W1 : FVec Ideal S9x128 .f32) (b1 g mu var bt : FVec Ideal S1x128 .f32)
    (p : Fin 5000) (h : Fin 128) : EReal :=
  max (((g (ix2 (0 : Fin 1) h) * (((∑ k : Fin 9, (x (ix2 p k) + a (ix2 p k)) * W1 (ix2 k h)) + b1 (ix2 (0 : Fin 1) h))
        - mu (ix2 (0 : Fin 1) h))) * Ideal.rsqrt (var (ix2 (0 : Fin 1) h) + Cert.Bridge.varEps)) + bt (ix2 (0 : Fin 1) h))
    Cert.Bridge.zero32

/-- The hidden layer of a block read at (p, h). -/
theorem hidB_apply (x a : FVec Ideal S5000x9 .f32) (W1 : FVec Ideal S9x128 .f32) (b1 g mu var bt : FVec Ideal S1x128 .f32)
    (p : Fin 5000) (h : Fin 128) :
    hidB x a W1 b1 g mu var bt (ix2 p h) = hidAt x a W1 b1 g mu var bt p h := by
  unfold hidB hidAt
  simp only [shapeCast_self, maximumf_apply, addf_apply, mulf_apply, subf_apply, broadcast_apply, row_apply, prodA_apply,
    truncf_apply]
  rfl

/-- The body's whole payload read at (p, q): the second product over the hidden entries, the second bias, the clip. -/
theorem pay_apply (x a : FVec Ideal S5000x9 .f32) (W1 : FVec Ideal S9x128 .f32) (b1 g mu var bt : FVec Ideal S1x128 .f32)
    (W2 : FVec Ideal S128x128 .f32) (b2 : FVec Ideal S1x128 .f32) (p : Fin 5000) (q : Fin 128) :
    k1_pay1 (F := Ideal) (k1_pay2 (F := Ideal) x a W1 b1 g mu var bt W2) b2 (ix2 p q)
      = max ((∑ h : Fin 128, hidAt x a W1 b1 g mu var bt p h * W2 (ix2 h q)) + b2 (ix2 (0 : Fin 1) q)) Cert.Bridge.zero32 := by
  rw [pay2_eq]
  unfold k1_pay1
  simp only [shapeCast_self, maximumf_apply, addf_apply, broadcast_apply, row_apply, prodB_apply, truncf_apply, hidB_apply]
  rfl

/-! ## From the blocks' entries to the arrays' entries -/

/-- One entry of the body's payload is the node update's entry (r, q), when the two row blocks hold row r of their
    arrays at their row p and every other block is the whole of its array. -/
theorem entry_eq (X A : FVec Ideal ⟨2, ![100000, 9]⟩ .f32) (W1 : FVec Ideal ⟨2, ![9, 128]⟩ .f32)
    (B1 G BT MU VAR : FVec Ideal ⟨2, ![1, 128]⟩ .f32) (W2 : FVec Ideal ⟨2, ![128, 128]⟩ .f32) (B2 : FVec Ideal ⟨2, ![1, 128]⟩ .f32)
    (x a : FVec Ideal S5000x9 .f32) (w1 : FVec Ideal S9x128 .f32) (b1 g bt mu var : FVec Ideal S1x128 .f32)
    (w2 : FVec Ideal S128x128 .f32) (b2 : FVec Ideal S1x128 .f32) (p : Fin 5000) (q : Fin 128) (r : Fin 100000)
    (hx : ∀ k : Fin 9, x (ix2 p k) = X (ix2 r k)) (ha : ∀ k : Fin 9, a (ix2 p k) = A (ix2 r k))
    (hw1 : w1 = W1) (hb1 : b1 = B1) (hg : g = G) (hbt : bt = BT) (hmu : mu = MU) (hvar : var = VAR) (hw2 : w2 = W2)
    (hb2 : b2 = B2) :
    k1_pay1 (F := Ideal) (k1_pay2 (F := Ideal) x a w1 b1 g mu var bt w2) b2 (ix2 p q)
      = Cert.Bridge.nodeAt (A := 9) (H := 128) X A W1 (Cert.Bridge.unrow B1) (Cert.Bridge.unrow G) (Cert.Bridge.unrow BT)
          (Cert.Bridge.unrow MU) (Cert.Bridge.unrow VAR) W2 (Cert.Bridge.unrow B2) r q := by
  subst hw1 hb1 hg hbt hmu hvar hw2 hb2
  rw [pay_apply]
  unfold Cert.Bridge.nodeAt Cert.Bridge.hiddenAt hidAt Cert.Bridge.unrow
  simp only [hx, ha]

theorem hz : (![0, 0] : Fin 2 → Nat) = fun _ => 0 := funext fun a => by fin_cases a <;> rfl

/-- The printed index maps over the twenty points: the two row windows and the output move with the point along the
    rows and stay at column block zero; every other window stays at block zero on both axes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

section Arrays

variable (V : (c : Dev nD) → (b : Ref sig .tc) → Buf (Elt Ideal) ((c : Thread nD τ).loc b))

/-- The node update of the arrays the region finds. -/
abbrev G (c : Dev nD) : FVec Ideal ⟨2, ![100000, 128]⟩ .f32 :=
  Cert.Bridge.node (A := 9) (H := 128) (V c main_arg0) (V c main_v9) (V c main_arg8) (Cert.Bridge.unrow (V c main_v10))
    (Cert.Bridge.unrow (V c main_v11)) (Cert.Bridge.unrow (V c main_v12)) (Cert.Bridge.unrow (V c main_v13))
    (Cert.Bridge.unrow (V c main_v14)) (V c main_arg14) (Cert.Bridge.unrow (V c main_v15))

/-- The array row that row p of the block at point t is. -/
def rowOf (t : Fin cfg1.N) (p : Fin 5000) : Fin 100000 :=
  ⟨t.val * 5000 + p.val, by have h := t.isLt; have hN : cfg1.N = 20 := N_1; have hp := p.isLt; omega⟩

/-- WHAT POINT t WRITES BACK is block t of the node update of the arrays the region finds. -/
theorem flushed_eq (c : Dev nD) (t : Fin cfg1.N) :
    (dat1 (F := Ideal) V c).flushed 10 t = ((cfg1.win 10).blk t).view.read (Elt Ideal) (G V c) := by
  show (cfg1.win 10).cut (grid1.coords t) ((dat1 (F := Ideal) V c).after 10 t) = _
  rw [after1_10]
  unfold out1_10
  rw [View.canon_unit_zero hz]
  simp only [View.ld_unit_zero (S := S5000x9) hz, View.ld_unit_zero (S := S9x128) hz, View.ld_unit_zero (S := S1x128) hz,
    View.ld_unit_zero (S := S128x128) hz]
  obtain ⟨e0r, e0c, e1r, e1c, e2r, e2c, e3r, e3c, e4r, e4c, e5r, e5c, e6r, e6c, e7r, e7c, e8r, e8c, e9r, e9c, e10r, e10c⟩ :=
    idx_facts t
  funext j
  obtain ⟨p, q, rfl⟩ : ∃ (p : Fin 5000) (q : Fin 128), j = ix2 p q := ⟨j 0, j 1, eq_ix2 j⟩
  have hemb : (((cfg1.win 10).blk t).view.emb (ix2 p q) : (⟨2, ![100000, 128]⟩ : Shape).Idx) = ix2 (rowOf t p) q := by
    funext a; apply Fin.ext
    match a with
    | ⟨0, _⟩ => show win1_10.index t (0 : Fin 2) * 5000 + 1 * p.val = t.val * 5000 + p.val; omega
    | ⟨1, _⟩ => show win1_10.index t (1 : Fin 2) * 128 + 1 * q.val = q.val; omega
  show k1_pay1 (F := Ideal) (k1_pay2 (F := Ideal) (iblk1 V c 0 t) (iblk1 V c 1 t) (iblk1 V c 2 t) (iblk1 V c 3 t) (iblk1 V c 4 t)
      (iblk1 V c 6 t) (iblk1 V c 7 t) (iblk1 V c 5 t) (iblk1 V c 8 t)) (iblk1 V c 9 t) (ix2 p q)
    = G V c (((cfg1.win 10).blk t).view.emb (ix2 p q))
  refine Eq.trans ?_ (congrArg (G V c) hemb.symm)
  refine entry_eq (V c main_arg0) (V c main_v9) (V c main_arg8) (V c main_v10) (V c main_v11) (V c main_v12) (V c main_v13)
    (V c main_v14) (V c main_arg14) (V c main_v15) (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) p q (rowOf t p)
    ?_ ?_ ?_ ?_ ?_ ?_ ?_ ?_ ?_ ?_
  · intro k
    show V c main_arg0 (((cfg1.win 0).blk t).view.emb (ix2 p k)) = V c main_arg0 (ix2 (rowOf t p) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 9 + 1 * k.val = k.val; omega
  · intro k
    show V c main_v9 (((cfg1.win 1).blk t).view.emb (ix2 p k)) = V c main_v9 (ix2 (rowOf t p) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 9 + 1 * k.val = k.val; omega
  · funext y
    show V c main_arg8 (((cfg1.win 2).blk t).view.emb y) = V c main_arg8 y
    refine congrArg _ (funext fun a => Fin.ext ?_)
    match a with
    | ⟨0, _⟩ => show win1_2.index t (0 : Fin 2) * 9 + 1 * (y 0).val = (y 0).val; omega
    | ⟨1, _⟩ => show win1_2.index t (1 : Fin 2) * 128 + 1 * (y 1).val = (y 1).val; omega
  · funext y
    show V c main_v10 (((cfg1.win 3).blk t).view.emb y) = V c main_v10 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_v11 (((cfg1.win 4).blk t).view.emb y) = V c main_v11 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · funext y
    show V c main_v12 (((cfg1.win 5).blk t).view.emb y) = V c main_v12 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  · funext y
    show V c main_v13 (((cfg1.win 6).blk t).view.emb y) = V c main_v13 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  · funext y
    show V c main_v14 (((cfg1.win 7).blk t).view.emb y) = V c main_v14 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 128 + 1 * (y 1).val = (y 1).val; omega
  · funext y
    show V c main_arg14 (((cfg1.win 8).blk t).view.emb y) = V c main_arg14 y
    refine congrArg _ (funext fun a => Fin.ext ?_)
    match a with
    | ⟨0, _⟩ => show win1_8.index t (0 : Fin 2) * 128 + 1 * (y 0).val = (y 0).val; omega
    | ⟨1, _⟩ => show win1_8.index t (1 : Fin 2) * 128 + 1 * (y 1).val = (y 1).val; omega
  · funext y
    show V c main_v15 (((cfg1.win 9).blk t).view.emb y) = V c main_v15 y
    refine congrArg _ (funext fun a => Fin.ext ?_)
    match a with
    | ⟨0, _⟩ => show win1_9.index t (0 : Fin 2) * 1 + 1 * (y 0).val = (y 0).val; omega
    | ⟨1, _⟩ => show win1_9.index t (1 : Fin 2) * 128 + 1 * (y 1).val = (y 1).val; omega

/-- An index of the output array is in point t's block iff each coordinate is in the block's range on its axis. -/
theorem mem_blk (t : Fin cfg1.N) (i : S100000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v16).slice (win1_10.rect t)).set ↔ _
  rw [View.set_slice_whole, Rect.mem_set_unit]
  exact Iff.rfl

/-- The twenty blocks tile the array: row r lies in the block of point r / 5000. -/
theorem cover (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 20 := N_1
  have ht : (i 0).val / 5000 < cfg1.N := by omega
  obtain ⟨-, -, -, -, -, -, -, -, -, -, -, -, -, -, -, -, -, -, -, -, e10r, e10c⟩ := idx_facts ⟨(i 0).val / 5000, ht⟩
  have e10r' : win1_10.index ⟨(i 0).val / 5000, ht⟩ (0 : Fin 2) = (i 0).val / 5000 := e10r
  refine ⟨⟨(i 0).val / 5000, ht⟩, flush1_10 _, ?_⟩
  rw [mem_blk]
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    omega
  | ⟨1, _⟩ =>
    show win1_10.index ⟨(i 0).val / 5000, ht⟩ (1 : Fin 2) * 128 ≤ (i 1).val ∧ (i 1).val < win1_10.index ⟨(i 0).val / 5000, ht⟩ (1 : Fin 2) * 128 + 128
    omega

/-- THE ARRAY the first node update leaves: the specification's node update of the arrays the region finds. -/
theorem out_eq (c : Dev nD) :
    (dat1 (F := Ideal) V c).arrAt 10 cfg1.N
      = Cert.Bridge.node (A := 9) (H := 128) (V c main_arg0) (V c main_v9) (V c main_arg8) (Cert.Bridge.unrow (V c main_v10))
          (Cert.Bridge.unrow (V c main_v11)) (Cert.Bridge.unrow (V c main_v12)) (Cert.Bridge.unrow (V c main_v13))
          (Cert.Bridge.unrow (V c main_v14)) (V c main_arg14) (Cert.Bridge.unrow (V c main_v15)) :=
  (dat1 (F := Ideal) V c).arrAt_eq_of_cover 10 (G V c) (fun t _ => flushed_eq V c t) cover

end Arrays

end Cert.Bridge.Region1

end
-- ==== Proof.Region2.lean ====
/-
  The second edge-message region, read as one function of whole arrays.

  It is the first layer's edge-message computation at rows of 128 entries. The region visits the 1200000 edges in 200
  blocks of 6000 consecutive rows. At block t it holds rows 6000 t … 6000 t + 5999 of the gathered source rows and of
  the edge attributes, and, whole, the 4 × 128 weight matrix and the 1 × 128 bias row; it writes rows
  6000 t … 6000 t + 5999 of the messages. Entry (p, q) of what it writes is the gathered entry plus the sum over the
  four attributes of attribute times weight, plus the bias entry, clipped at zero. The narrowing of the two factors
  changes nothing over the extended reals, the product accumulates from zero, the two shape casts are to the same
  shape, and the bias row is repeated down the 6000 rows. Row r of the array lies in block r / 6000 and in no other,
  the 200 blocks fill the array, and so the array after the region is the message function of the four arrays the
  region found.
-/
import proofs.«428024_j38096359915723_1_alg».proof.Proof.Gen.KernelIdeal.Frame
import proofs.«428024_j38096359915723_1_alg».proof.Proof.Spec
import Idealize.ShloMosaic.Lib.Pipeline.Value
import Idealize.ShloMosaic.Lib.ValueIdx
import Idealize.ShloMosaic.PureOps.Ideal.Laws

noncomputable section

namespace Cert.Bridge.Region2

open Idealize.ShloMosaic Idealize.ShloMosaic.ValueIdx Idealize.ShloMosaic.TcCoe Idealize.SL.Sem
open Idealize.ShloMosaic.Pipeline (Dat)
open Cert.KernelIdeal Cert.KernelIdeal.Gen

/-! ## The product of a block of attributes with the weights, at an entry -/

/-- The left factor's row is the output's row. -/
theorem lhs_axis_0 (i : S6000x128.Idx) (k : dot_S6000x4_S4x128_S6000x128_1_0_0_1_n_n.contr.Idx) :
    (dot_S6000x4_S4x128_S6000x128_1_0_0_1_n_n.lhsIdx i k 0).val = (i 0).val := by
  unfold DotDims.lhsIdx
  rw [dif_neg (show ¬(0 : Fin S6000x4.rank) ∈ dot_S6000x4_S4x128_S6000x128_1_0_0_1_n_n.lhsBatch by decide), dif_pos (show (0 : Fin S6000x4.rank) ∈ dot_S6000x4_S4x128_S6000x128_1_0_0_1_n_n.lhsNonContracting by decide)]
  rfl
/-- The left factor's column is the contracted coordinate. -/
theorem lhs_axis_1 (i : S6000x128.Idx) (k : dot_S6000x4_S4x128_S6000x128_1_0_0_1_n_n.contr.Idx) :
    (dot_S6000x4_S4x128_S6000x128_1_0_0_1_n_n.lhsIdx i k 1).val = (k ⟨0, by decide⟩).val :=
  dot_S6000x4_S4x128_S6000x128_1_0_0_1_n_n.lhsIdx_val_of_single rfl i k
/-- The right factor's row is the contracted coordinate. -/
theorem rhs_axis_0 (i : S6000x128.Idx) (k : dot_S6000x4_S4x128_S6000x128_1_0_0_1_n_n.contr.Idx) :
    (dot_S6000x4_S4x128_S6000x128_1_0_0_1_n_n.rhsIdx i k 0).val = (k ⟨0, by decide⟩).val :=
  dot_S6000x4_S4x128_S6000x128_1_0_0_1_n_n.rhsIdx_val_of_single rfl i k
/-- The right factor's column is the output's column. -/
theorem rhs_axis_1 (i : S6000x128.Idx) (k : dot_S6000x4_S4x128_S6000x128_1_0_0_1_n_n.contr.Idx) :
    (dot_S6000x4_S4x128_S6000x128_1_0_0_1_n_n.rhsIdx i k 1).val = (i 1).val := by
  unfold DotDims.rhsIdx
  rw [dif_neg (show ¬(1 : Fin S4x128.rank) ∈ dot_S6000x4_S4x128_S6000x128_1_0_0_1_n_n.rhsBatch by decide), dif_pos (show (1 : Fin S4x128.rank) ∈ dot_S6000x4_S4x128_S6000x128_1_0_0_1_n_n.rhsNonContracting by decide)]
  rfl

/-- Entry (p, q) of the product accumulated from zero: the sum over the four attributes. -/
theorem product_at (a : FVec Ideal S6000x4 .bf16) (b : FVec Ideal S4x128 .bf16) (p : Fin 6000) (q : Fin 128) :
    matmul dot_S6000x4_S4x128_S6000x128_1_0_0_1_n_n none a b (constant (F := Ideal) S6000x128 .f32 0x00000000#32) (ix2 p q)
      = ∑ k : Fin 4, a (ix2 p k) * b (ix2 k q) := by
  simp only [matmul]
  rw [Ideal.matmul_constant_zero_apply, ← Equiv.sum_comp (contrEquiv1 dot_S6000x4_S4x128_S6000x128_1_0_0_1_n_n 4 rfl rfl).symm]
  refine Finset.sum_congr rfl fun k _ => ?_
  have hk := contrEquiv1_symm_val dot_S6000x4_S4x128_S6000x128_1_0_0_1_n_n 4 rfl rfl k
  have el : dot_S6000x4_S4x128_S6000x128_1_0_0_1_n_n.lhsIdx (ix2 p q) ((contrEquiv1 dot_S6000x4_S4x128_S6000x128_1_0_0_1_n_n 4 rfl rfl).symm k) = ix2 p k := funext fun x => Fin.ext (by
    match x with
    | ⟨0, _⟩ => exact lhs_axis_0 _ _
    | ⟨1, _⟩ => exact (lhs_axis_1 _ _).trans hk)
  have er : dot_S6000x4_S4x128_S6000x128_1_0_0_1_n_n.rhsIdx (ix2 p q) ((contrEquiv1 dot_S6000x4_S4x128_S6000x128_1_0_0_1_n_n 4 rfl rfl).symm k) = ix2 k q := funext fun x => Fin.ext (by
    match x with
    | ⟨0, _⟩ => exact (rhs_axis_0 _ _).trans hk
    | ⟨1, _⟩ => exact rhs_axis_1 _ _)
  rw [el, er]

/-- The bias row repeated down the rows: entry (p, q) is the row's entry q. -/
theorem bias_at (x : S1x128.Idx → EReal) (p : Fin 6000) (q : Fin 128) :
    broadcastTo S6000x128 x broadcasts_S1x128_S6000x128 (ix2 p q) = x (ix2 (0 : Fin 1) q) :=
  broadcastTo_apply x broadcasts_S1x128_S6000x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## What the body stores, at an entry -/

/-- Entry (p, q) of the stored block, from the four blocks the body loads. -/
theorem stored_at (ea : Vec Ideal S6000x4 .f32) (we : Vec Ideal S4x128 .f32) (xg : Vec Ideal S6000x128 .f32) (be : Vec Ideal S1x128 .f32)
    (p : Fin 6000) (q : Fin 128) :
    k2_pay1 (F := Ideal) ea we xg be (ix2 p q)
      = max ((xg (ix2 p q) + ∑ k : Fin 4, ea (ix2 p k) * we (ix2 k q)) + be (ix2 (0 : Fin 1) q)) zero32 := by
  unfold k2_pay1
  rw [maximumf_apply, addf_apply, addf_apply, shapeCast_self, shapeCast_self, bias_at, product_at]
  rfl

/-! ## The message function at an entry -/

/-- Entry (r, q) of the message function, with the bias read off its row. -/
theorem msg_at (xg : FVec Ideal S1200000x128 .f32) (ea : FVec Ideal S1200000x4 .f32) (we : FVec Ideal S4x128 .f32)
    (be : FVec Ideal S1x128 .f32) (r : Fin 1200000) (q : Fin 128) :
    msg (C := 128) xg ea we (unrow be) (ix2 r q)
      = max ((xg (ix2 r q) + ∑ k : Fin 4, ea (ix2 r k) * we (ix2 k q)) + be (ix2 (0 : Fin 1) q)) zero32 := rfl

/-! ## From blocks to the array -/

theorem hz : (![0, 0] : Fin 2 → Nat) = fun _ => 0 := funext fun a => by fin_cases a <;> rfl

/-- The block index of each window at point t: the two row-blocked inputs and the output are at block t of the rows,
    the weights and the bias row are not blocked. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t is row 6000 t + p of the array. -/
def row (t : Fin cfg2.N) (p : Fin 6000) : Fin 1200000 :=
  ⟨t.val * 6000 + p.val, by
    have ht : t.val < grid2.N := t.isLt
    rw [N_2] at ht
    have hp := p.isLt
    omega⟩

section Blocks

variable (V : (c : Dev nD) → (b : Ref sig .tc) → Buf (Elt Ideal) ((c : Thread nD τ).loc b))

/-- Entry (p, q) of the block of gathered rows at point t is entry (6000 t + p, q) of the array. -/
theorem gathered_block_at (c : Dev nD) (t : Fin cfg2.N) (p : Fin 6000) (q : Fin 128) :
    (iblk2 V c 0 t : Vec Ideal S6000x128 .f32) (ix2 p q) = (V c main_v17 : FVec Ideal S1200000x128 .f32) (ix2 (row t p) q) := by
  obtain ⟨e0, e1, -⟩ := idx_facts t
  have h : ((cfg2.win 0).blk t).view.emb (ix2 p q) = (ix2 (row t p) q : S1200000x128.Idx) := by
    funext a; apply Fin.ext
    match a with
    | ⟨0, _⟩ => show win2_0.index t (0 : Fin 2) * 6000 + 1 * p.val = t.val * 6000 + p.val; omega
    | ⟨1, _⟩ => show win2_0.index t (1 : Fin 2) * 128 + 1 * q.val = q.val; omega
  show V c main_v17 (((cfg2.win 0).blk t).view.emb (ix2 p q)) = _
  rw [h]

/-- Entry (p, k) of the block of attributes at point t is entry (6000 t + p, k) of the array. -/
theorem attr_block_at (c : Dev nD) (t : Fin cfg2.N) (p : Fin 6000) (k : Fin 4) :
    (iblk2 V c 1 t : Vec Ideal S6000x4 .f32) (ix2 p k) = (V c main_arg2 : FVec Ideal S1200000x4 .f32) (ix2 (row t p) k) := by
  obtain ⟨-, -, e2, e3, -⟩ := idx_facts t
  have h : ((cfg2.win 1).blk t).view.emb (ix2 p k) = (ix2 (row t p) k : S1200000x4.Idx) := by
    funext a; apply Fin.ext
    match a with
    | ⟨0, _⟩ => show win2_1.index t (0 : Fin 2) * 6000 + 1 * p.val = t.val * 6000 + p.val; omega
    | ⟨1, _⟩ => show win2_1.index t (1 : Fin 2) * 4 + 1 * k.val = k.val; omega
  show V c main_arg2 (((cfg2.win 1).blk t).view.emb (ix2 p k)) = _
  rw [h]

/-- The weights are staged whole: entry (k, q) of their block is entry (k, q) of the array. -/
theorem weights_block_at (c : Dev nD) (t : Fin cfg2.N) (k : Fin 4) (q : Fin 128) :
    (iblk2 V c 2 t : Vec Ideal S4x128 .f32) (ix2 k q) = (V c main_arg16 : FVec Ideal S4x128 .f32) (ix2 k q) := by
  obtain ⟨-, -, -, -, e4, e5, -⟩ := idx_facts t
  have h : ((cfg2.win 2).blk t).view.emb (ix2 k q) = (ix2 k q : S4x128.Idx) := by
    funext a; apply Fin.ext
    match a with
    | ⟨0, _⟩ => show win2_2.index t (0 : Fin 2) * 4 + 1 * k.val = k.val; omega
    | ⟨1, _⟩ => show win2_2.index t (1 : Fin 2) * 128 + 1 * q.val = q.val; omega
  show V c main_arg16 (((cfg2.win 2).blk t).view.emb (ix2 k q)) = _
  rw [h]

/-- The bias row is staged whole: entry (0, q) of its block is entry (0, q) of the array. -/
theorem bias_block_at (c : Dev nD) (t : Fin cfg2.N) (q : Fin 128) :
    (iblk2 V c 3 t : Vec Ideal S1x128 .f32) (ix2 (0 : Fin 1) q) = (V c main_v18 : FVec Ideal S1x128 .f32) (ix2 (0 : Fin 1) q) := by
  obtain ⟨-, -, -, -, -, -, e6, e7, -⟩ := idx_facts t
  have h : ((cfg2.win 3).blk t).view.emb (ix2 (0 : Fin 1) q) = (ix2 (0 : Fin 1) q : S1x128.Idx) := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  show V c main_v18 (((cfg2.win 3).blk t).view.emb (ix2 (0 : Fin 1) q)) = _
  rw [h]

/-- Entry (p, q) of what point t stores is entry (6000 t + p, q) of the message function of the four arrays. -/
theorem stored_eq_msg (c : Dev nD) (t : Fin cfg2.N) (p : Fin 6000) (q : Fin 128) :
    k2_pay1 (F := Ideal) (iblk2 V c 1 t) (iblk2 V c 2 t) (iblk2 V c 0 t) (iblk2 V c 3 t) (ix2 p q)
      = msg (C := 128) (V c main_v17) (V c main_arg2) (V c main_arg16) (unrow (V c main_v18)) (ix2 (row t p) q) := by
  refine (stored_at (iblk2 V c 1 t) (iblk2 V c 2 t) (iblk2 V c 0 t) (iblk2 V c 3 t) p q).trans ?_
  rw [msg_at, gathered_block_at V c t p q, bias_block_at V c t q]
  simp only [attr_block_at V c t p, weights_block_at V c t]

/-- What point t writes back is block t of the message function. -/
theorem flushed_eq (c : Dev nD) (t : Fin cfg2.N) :
    (dat2 (F := Ideal) V c).flushed 4 t = ((cfg2.win 4).blk t).view.read (Elt Ideal)
      (msg (C := 128) (V c main_v17) (V c main_arg2) (V c main_arg16) (unrow (V c main_v18))) := by
  show (cfg2.win 4).cut (grid2.coords t) ((dat2 V c).after 4 t) = _
  rw [after2_4]
  unfold out2_4
  rw [View.canon_unit_zero hz]
  simp only [View.ld_unit_zero (S := S6000x4) hz, View.ld_unit_zero (S := S4x128) hz, View.ld_unit_zero (S := S6000x128) hz,
    View.ld_unit_zero (S := S1x128) hz]
  funext j
  have hj0 : (j 0).val < 6000 := (j 0).isLt
  have hj1 : (j 1).val < 128 := (j 1).isLt
  have hx : (cfg2.win 4).xinj (grid2.coords t) j = ix2 (⟨(j 0).val, hj0⟩ : Fin 6000) (⟨(j 1).val, hj1⟩ : Fin 128) :=
    funext fun a => by match a with | ⟨0, _⟩ => rfl | ⟨1, _⟩ => rfl
  have hi : ((cfg2.win 4).blk t).view.emb j = (ix2 (row t ⟨(j 0).val, hj0⟩) (⟨(j 1).val, hj1⟩ : Fin 128) : S1200000x128.Idx) := by
    obtain ⟨-, -, -, -, -, -, -, -, e8, e9⟩ := idx_facts t
    funext a; apply Fin.ext
    match a with
    | ⟨0, _⟩ => show win2_4.index t (0 : Fin 2) * 6000 + 1 * (j 0).val = t.val * 6000 + (j 0).val; omega
    | ⟨1, _⟩ => show win2_4.index t (1 : Fin 2) * 128 + 1 * (j 1).val = (j 1).val; omega
  show k2_pay1 (F := Ideal) (iblk2 V c 1 t) (iblk2 V c 2 t) (iblk2 V c 0 t) (iblk2 V c 3 t) ((cfg2.win 4).xinj (grid2.coords t) j)
    = msg (C := 128) (V c main_v17) (V c main_arg2) (V c main_arg16) (unrow (V c main_v18)) (((cfg2.win 4).blk t).view.emb j)
  rw [hx, hi]
  exact stored_eq_msg V c t _ _

end Blocks

/-- An index of the array is in point t's block iff each coordinate is in the block's range on its axis. -/
theorem mem_blk (t : Fin cfg2.N) (i : S1200000x128.Idx) :
    i ∈ ((cfg2.win 4).blk t).view.set ↔ ∀ a : Fin 2, win2_4.index t a * S6000x128.size a ≤ (i a).val ∧ (i a).val < win2_4.index t a * S6000x128.size a + S6000x128.size a := by
  show i ∈ ((View.whole main_v19).slice (win2_4.rect t)).set ↔ _
  rw [View.set_slice_whole, Rect.mem_set_unit]
  exact Iff.rfl

/-- Every entry of the array is written: row r lies in the block of point r / 6000. -/
theorem covered (i : S1200000x128.Idx) :
    ∃ t : Fin cfg2.N, (cfg2.win 4).flush t = true ∧ i ∈ ((cfg2.win 4).blk t).view.set := by
  have hi0 : (i 0).val < 1200000 := (i 0).isLt
  have hi1 : (i 1).val < 128 := (i 1).isLt
  have ht : (i 0).val / 6000 < cfg2.N := by show _ < grid2.N; rw [N_2]; omega
  obtain ⟨-, -, -, -, -, -, -, -, e8, e9⟩ := idx_facts ⟨(i 0).val / 6000, ht⟩
  have e8' : win2_4.index ⟨(i 0).val / 6000, ht⟩ (0 : Fin 2) = (i 0).val / 6000 := e8
  refine ⟨⟨(i 0).val / 6000, ht⟩, flush2_4 _, ?_⟩
  rw [mem_blk]
  intro a
  match a with
  | ⟨0, _⟩ =>
    show win2_4.index ⟨(i 0).val / 6000, ht⟩ (0 : Fin 2) * 6000 ≤ (i 0).val
      ∧ (i 0).val < win2_4.index ⟨(i 0).val / 6000, ht⟩ (0 : Fin 2) * 6000 + 6000
    omega
  | ⟨1, _⟩ =>
    show win2_4.index ⟨(i 0).val / 6000, ht⟩ (1 : Fin 2) * 128 ≤ (i 1).val
      ∧ (i 1).val < win2_4.index ⟨(i 0).val / 6000, ht⟩ (1 : Fin 2) * 128 + 128
    omega

/-- The messages after the region: the message function of the gathered rows, the attributes, the weights and the
    bias as the region found them. -/
theorem out_eq (V : (c : Dev nD) → (b : Ref sig .tc) → Buf (Elt Ideal) ((c : Thread nD τ).loc b)) (c : Dev nD) :
    (dat2 (F := Ideal) V c).arrAt 4 cfg2.N
      = Cert.Bridge.msg (C := 128) (V c main_v17) (V c main_arg2) (V c main_arg16) (Cert.Bridge.unrow (V c main_v18)) :=
  (dat2 (F := Ideal) V c).arrAt_eq_of_cover 4 _ (fun t _ => flushed_eq V c t) covered

end Cert.Bridge.Region2

end
-- ==== Proof.Region3.lean ====
/-
  The value of the second node update of the kernel program, read off its pipeline's proof data.

  The update runs over twenty blocks of five thousand rows of 128 entries. On one block the body adds the block of the
  node rows to the block of their aggregates, multiplies by the first matrix (128 × 64), adds a bias row, subtracts
  the stored mean, scales, multiplies by the inverse square root of the stored variance offset by a fixed positive
  word, shifts, clips at zero, multiplies by the second matrix (64 × 64), adds a second bias row and clips at zero
  again. Read at one entry of the block each matrix product is the plain sum over the contracted coordinate, a bias
  row is read at its column, and nothing else moves an index; the narrowing of a product's operands is the identity
  on the extended reals.

  The row blocks follow the grid point and every other window is the whole of its array, so the entry (p, q) of the
  block at point t is the entry (5000 t + p, q) of one function of the whole arrays: the specification's node update.
  The twenty blocks tile the hundred thousand rows, hence the array the pipeline leaves is that function.
-/
import proofs.«428024_j38096359915723_1_alg».proof.Proof.Gen.KernelIdeal.Frame
import proofs.«428024_j38096359915723_1_alg».proof.Proof.Spec
import Idealize.ShloMosaic.Lib.Pipeline.Value
import Idealize.ShloMosaic.Lib.ValueIdx
import Idealize.ShloMosaic.PureOps.Ideal.Laws

noncomputable section

namespace Cert.Bridge.Region3

open Cert.KernelIdeal Cert.KernelIdeal.Gen
open Idealize.ShloMosaic Idealize.ShloMosaic.ValueIdx Idealize.ShloMosaic.TcCoe Idealize.SL.Sem
open Idealize.ShloMosaic.Pipeline (Dat)

/-! ## The first product: a row of 128 entries against the 128 × 64 matrix -/

theorem lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, h) of the first product into zero: the sum over the 128 contracted coordinates. -/
theorem prodA_apply (l : FVec Ideal S5000x128 .bf16) (r : FVec Ideal S128x64 .bf16) (p : Fin 5000) (h : Fin 64) :
    matmul dot_S5000x128_S128x64_S5000x64_1_0_0_1_n_n none l r (constant (F := Ideal) S5000x64 .f32 0x00000000#32) (ix2 p h)
      = ∑ k : Fin 128, l (ix2 p k) * r (ix2 k h) := by
  refine (Ideal.matmul_constant_zero_apply dot_S5000x128_S128x64_S5000x64_1_0_0_1_n_n none l r (ix2 p h)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p h) ((contrEquiv1 dot_S5000x128_S128x64_S5000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 p h) ((contrEquiv1 dot_S5000x128_S128x64_S5000x64_1_0_0_1_n_n 128 rfl rfl).symm k) = ix2 k h := funext fun a => Fin.ext (by
    match a with
    | ⟨0, _⟩ => exact (rhsA_0 _ _).trans hk
    | ⟨1, _⟩ => exact rhsA_1 _ _)
  rw [el, er]

/-! ## The second product: a row of 64 hidden entries against the 64 × 64 matrix -/

theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the second product into zero: the sum over the 64 contracted coordinates. -/
theorem prodB_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ h : Fin 64, l (ix2 p h) * r (ix2 h q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## A bias row read at an entry of the block -/

/-- A row of 64 entries spread over the 5000 rows of a block reads, at (p, h), its entry h. -/
theorem row_apply (v : FVec Ideal S1x64 .f32) (p : Fin 5000) (h : Fin 64) :
    broadcastTo S5000x64 v broadcasts_S1x64_S5000x64 (ix2 p h) = v (ix2 (0 : Fin 1) h) :=
  broadcastTo_apply v broadcasts_S1x64_S5000x64 (ix2 p h) (ix2 (0 : Fin 1) h) (fun a => match a with
    | ⟨0, _⟩ => by show (0 : Nat) = if (1 : Nat) = 1 then 0 else p.val; rw [if_pos rfl]
    | ⟨1, _⟩ => by show h.val = if (64 : Nat) = 1 then 0 else h.val; rw [if_neg (by decide)])

/-! ## The hidden layer of one block -/

/-- The hidden layer of one block as the body computes it from the loaded blocks: the first product and bias, the
    stored mean taken off, the scale, the inverse square root of the offset variance, the shift, the clip at zero. -/
def hidB (x a : FVec Ideal S5000x128 .f32) (W1 : FVec Ideal S128x64 .f32) (b1 g mu var bt : FVec Ideal S1x64 .f32) :
    FVec Ideal S5000x64 .f32 :=
  maximumf
    (addf
      (mulf
        (mulf (broadcastTo S5000x64 (shapeCast S1x64 g shapeCasts_S1x64_S1x64) broadcasts_S1x64_S5000x64)
          (subf
            (addf
              (matmul dot_S5000x128_S128x64_S5000x64_1_0_0_1_n_n none
                (truncf .bf16 (addf (shapeCast S5000x128 x shapeCasts_S5000x128_S5000x128)
                  (shapeCast S5000x128 a shapeCasts_S5000x128_S5000x128)) bitsLt_bf16_f32)
                (truncf .bf16 W1 bitsLt_bf16_f32) (constant (F := Ideal) S5000x64 .f32 0x00000000#32))
              (broadcastTo S5000x64 (shapeCast S1x64 b1 shapeCasts_S1x64_S1x64) broadcasts_S1x64_S5000x64))
            (broadcastTo S5000x64 (shapeCast S1x64 mu shapeCasts_S1x64_S1x64) broadcasts_S1x64_S5000x64)))
        (broadcastTo S5000x64
          (rsqrt (addf (shapeCast S1x64 var shapeCasts_S1x64_S1x64)
            (broadcast S1x64 (Scalar.ofBits (F := Ideal) .f32 0x3727C5AC#32))))
          broadcasts_S1x64_S5000x64))
      (broadcastTo S5000x64 (shapeCast S1x64 bt shapeCasts_S1x64_S1x64) broadcasts_S1x64_S5000x64))
    (broadcast S5000x64 (Scalar.ofBits (F := Ideal) .f32 0x00000000#32))

/-- The body's first payload is that hidden layer, narrowed for the second product. -/
theorem pay2_eq (x a : FVec Ideal S5000x128 .f32) (W1 : FVec Ideal S128x64 .f32) (b1 g mu var bt : FVec Ideal S1x64 .f32) :
    k3_pay2 (F := Ideal) x a W1 b1 g mu var bt = truncf .bf16 (hidB x a W1 b1 g mu var bt) bitsLt_bf16_f32 := rfl

/-- Entry (p, h) of a block's hidden layer, written from entries of the blocks. -/
def hidAt (x a : FVec Ideal S5000x128 .f32) (W1 : FVec Ideal S128x64 .f32) (b1 g mu var bt : FVec Ideal S1x64 .f32)
    (p : Fin 5000) (h : Fin 64) : EReal :=
  max (((g (ix2 (0 : Fin 1) h) * (((∑ k : Fin 128, (x (ix2 p k) + a (ix2 p k)) * W1 (ix2 k h)) + b1 (ix2 (0 : Fin 1) h))
        - mu (ix2 (0 : Fin 1) h))) * Ideal.rsqrt (var (ix2 (0 : Fin 1) h) + Cert.Bridge.varEps)) + bt (ix2 (0 : Fin 1) h))
    Cert.Bridge.zero32

/-- The hidden layer of a block read at (p, h). -/
theorem hidB_apply (x a : FVec Ideal S5000x128 .f32) (W1 : FVec Ideal S128x64 .f32) (b1 g mu var bt : FVec Ideal S1x64 .f32)
    (p : Fin 5000) (h : Fin 64) :
    hidB x a W1 b1 g mu var bt (ix2 p h) = hidAt x a W1 b1 g mu var bt p h := by
  unfold hidB hidAt
  simp only [shapeCast_self, maximumf_apply, addf_apply, mulf_apply, subf_apply, broadcast_apply, row_apply, prodA_apply,
    truncf_apply]
  rfl

/-- The body's whole payload read at (p, q): the second product over the hidden entries, the second bias, the clip. -/
theorem pay_apply (x a : FVec Ideal S5000x128 .f32) (W1 : FVec Ideal S128x64 .f32) (b1 g mu var bt : FVec Ideal S1x64 .f32)
    (W2 : FVec Ideal S64x64 .f32) (b2 : FVec Ideal S1x64 .f32) (p : Fin 5000) (q : Fin 64) :
    k3_pay1 (F := Ideal) (k3_pay2 (F := Ideal) x a W1 b1 g mu var bt) (k3_pay3 (F := Ideal) W2)
        (constant (F := Ideal) S5000x64 .f32 0x00000000#32) b2 (ix2 p q)
      = max ((∑ h : Fin 64, hidAt x a W1 b1 g mu var bt p h * W2 (ix2 h q)) + b2 (ix2 (0 : Fin 1) q)) Cert.Bridge.zero32 := by
  rw [pay2_eq]
  unfold k3_pay1 k3_pay3
  simp only [shapeCast_self, maximumf_apply, addf_apply, broadcast_apply, row_apply, prodB_apply, truncf_apply, hidB_apply]
  rfl

/-! ## From the blocks' entries to the arrays' entries -/

/-- One entry of the body's payload is the node update's entry (r, q), when the two row blocks hold row r of their
    arrays at their row p and every other block is the whole of its array. -/
theorem entry_eq (X A : FVec Ideal ⟨2, ![100000, 128]⟩ .f32) (W1 : FVec Ideal ⟨2, ![128, 64]⟩ .f32)
    (B1 G BT MU VAR : FVec Ideal ⟨2, ![1, 64]⟩ .f32) (W2 : FVec Ideal ⟨2, ![64, 64]⟩ .f32) (B2 : FVec Ideal ⟨2, ![1, 64]⟩ .f32)
    (x a : FVec Ideal S5000x128 .f32) (w1 : FVec Ideal S128x64 .f32) (b1 g bt mu var : FVec Ideal S1x64 .f32)
    (w2 : FVec Ideal S64x64 .f32) (b2 : FVec Ideal S1x64 .f32) (p : Fin 5000) (q : Fin 64) (r : Fin 100000)
    (hx : ∀ k : Fin 128, x (ix2 p k) = X (ix2 r k)) (ha : ∀ k : Fin 128, a (ix2 p k) = A (ix2 r k))
    (hw1 : w1 = W1) (hb1 : b1 = B1) (hg : g = G) (hbt : bt = BT) (hmu : mu = MU) (hvar : var = VAR) (hw2 : w2 = W2)
    (hb2 : b2 = B2) :
    k3_pay1 (F := Ideal) (k3_pay2 (F := Ideal) x a w1 b1 g mu var bt) (k3_pay3 (F := Ideal) w2)
        (constant (F := Ideal) S5000x64 .f32 0x00000000#32) b2 (ix2 p q)
      = Cert.Bridge.nodeAt (A := 128) (H := 64) X A W1 (Cert.Bridge.unrow B1) (Cert.Bridge.unrow G) (Cert.Bridge.unrow BT)
          (Cert.Bridge.unrow MU) (Cert.Bridge.unrow VAR) W2 (Cert.Bridge.unrow B2) r q := by
  subst hw1 hb1 hg hbt hmu hvar hw2 hb2
  rw [pay_apply]
  unfold Cert.Bridge.nodeAt Cert.Bridge.hiddenAt hidAt Cert.Bridge.unrow
  simp only [hx, ha]

theorem hz : (![0, 0] : Fin 2 → Nat) = fun _ => 0 := funext fun a => by fin_cases a <;> rfl

/-- The printed index maps over the twenty points: the two row windows and the output move with the point along the
    rows and stay at column block zero; every other window stays at block zero on both axes. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0 :=
  (by decide +kernel : ∀ t : Fin grid3.N, _)

section Arrays

variable (V : (c : Dev nD) → (b : Ref sig .tc) → Buf (Elt Ideal) ((c : Thread nD τ).loc b))

/-- The node update of the arrays the region finds. -/
abbrev G (c : Dev nD) : FVec Ideal ⟨2, ![100000, 64]⟩ .f32 :=
  Cert.Bridge.node (A := 128) (H := 64) (V c main_v16) (V c main_v22) (V c main_arg18) (Cert.Bridge.unrow (V c main_v23))
    (Cert.Bridge.unrow (V c main_v24)) (Cert.Bridge.unrow (V c main_v25)) (Cert.Bridge.unrow (V c main_v26))
    (Cert.Bridge.unrow (V c main_v27)) (V c main_arg24) (Cert.Bridge.unrow (V c main_v28))

/-- The array row that row p of the block at point t is. -/
def rowOf (t : Fin cfg3.N) (p : Fin 5000) : Fin 100000 :=
  ⟨t.val * 5000 + p.val, by have h := t.isLt; have hN : cfg3.N = 20 := N_3; have hp := p.isLt; omega⟩

/-- WHAT POINT t WRITES BACK is block t of the node update of the arrays the region finds. -/
theorem flushed_eq (c : Dev nD) (t : Fin cfg3.N) :
    (dat3 (F := Ideal) V c).flushed 10 t = ((cfg3.win 10).blk t).view.read (Elt Ideal) (G V c) := by
  show (cfg3.win 10).cut (grid3.coords t) ((dat3 (F := Ideal) V c).after 10 t) = _
  rw [after3_10]
  unfold out3_10
  rw [View.canon_unit_zero hz]
  simp only [View.ld_unit_zero (S := S5000x128) hz, View.ld_unit_zero (S := S128x64) hz, View.ld_unit_zero (S := S1x64) hz,
    View.ld_unit_zero (S := S64x64) hz]
  obtain ⟨e0r, e0c, e1r, e1c, e2r, e2c, e3r, e3c, e4r, e4c, e5r, e5c, e6r, e6c, e7r, e7c, e8r, e8c, e9r, e9c, e10r, e10c⟩ :=
    idx_facts t
  funext j
  obtain ⟨p, q, rfl⟩ : ∃ (p : Fin 5000) (q : Fin 64), j = ix2 p q := ⟨j 0, j 1, eq_ix2 j⟩
  have hemb : (((cfg3.win 10).blk t).view.emb (ix2 p q) : (⟨2, ![100000, 64]⟩ : Shape).Idx) = ix2 (rowOf t p) q := by
    funext a; apply Fin.ext
    match a with
    | ⟨0, _⟩ => show win3_10.index t (0 : Fin 2) * 5000 + 1 * p.val = t.val * 5000 + p.val; omega
    | ⟨1, _⟩ => show win3_10.index t (1 : Fin 2) * 64 + 1 * q.val = q.val; omega
  show k3_pay1 (F := Ideal) (k3_pay2 (F := Ideal) (iblk3 V c 0 t) (iblk3 V c 1 t) (iblk3 V c 2 t) (iblk3 V c 3 t) (iblk3 V c 4 t)
      (iblk3 V c 6 t) (iblk3 V c 7 t) (iblk3 V c 5 t)) (k3_pay3 (F := Ideal) (iblk3 V c 8 t))
      (constant (F := Ideal) S5000x64 .f32 0x00000000#32) (iblk3 V c 9 t) (ix2 p q)
    = G V c (((cfg3.win 10).blk t).view.emb (ix2 p q))
  refine Eq.trans ?_ (congrArg (G V c) hemb.symm)
  refine entry_eq (V c main_v16) (V c main_v22) (V c main_arg18) (V c main_v23) (V c main_v24) (V c main_v25) (V c main_v26)
    (V c main_v27) (V c main_arg24) (V c main_v28) (iblk3 V c 0 t) (iblk3 V c 1 t) (iblk3 V c 2 t) (iblk3 V c 3 t)
    (iblk3 V c 4 t) (iblk3 V c 5 t) (iblk3 V c 6 t) (iblk3 V c 7 t) (iblk3 V c 8 t) (iblk3 V c 9 t) p q (rowOf t p)
    ?_ ?_ ?_ ?_ ?_ ?_ ?_ ?_ ?_ ?_
  · intro k
    show V c main_v16 (((cfg3.win 0).blk t).view.emb (ix2 p k)) = V c main_v16 (ix2 (rowOf t p) k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k
    show V c main_v22 (((cfg3.win 1).blk t).view.emb (ix2 p k)) = V c main_v22 (ix2 (rowOf t p) k)
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * k.val = k.val; omega
  · funext y
    show V c main_arg18 (((cfg3.win 2).blk t).view.emb y) = V c main_arg18 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 64 + 1 * (y 1).val = (y 1).val; omega
  · funext y
    show V c main_v23 (((cfg3.win 3).blk t).view.emb y) = V c main_v23 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 64 + 1 * (y 1).val = (y 1).val; omega
  · funext y
    show V c main_v24 (((cfg3.win 4).blk t).view.emb y) = V c main_v24 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega
  · funext y
    show V c main_v25 (((cfg3.win 5).blk t).view.emb y) = V c main_v25 y
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 64 + 1 * (y 1).val = (y 1).val; omega
  · funext y
    show V c main_v26 (((cfg3.win 6).blk t).view.emb y) = V c main_v26 y
    refine congrArg _ (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega
  · funext y
    show V c main_v27 (((cfg3.win 7).blk t).view.emb y) = V c main_v27 y
    refine congrArg _ (funext fun a => Fin.ext ?_)
    match a with
    | ⟨0, _⟩ => show win3_7.index t (0 : Fin 2) * 1 + 1 * (y 0).val = (y 0).val; omega
    | ⟨1, _⟩ => show win3_7.index t (1 : Fin 2) * 64 + 1 * (y 1).val = (y 1).val; omega
  · funext y
    show V c main_arg24 (((cfg3.win 8).blk t).view.emb y) = V c main_arg24 y
    refine congrArg _ (funext fun a => Fin.ext ?_)
    match a with
    | ⟨0, _⟩ => show win3_8.index t (0 : Fin 2) * 64 + 1 * (y 0).val = (y 0).val; omega
    | ⟨1, _⟩ => show win3_8.index t (1 : Fin 2) * 64 + 1 * (y 1).val = (y 1).val; omega
  · funext y
    show V c main_v28 (((cfg3.win 9).blk t).view.emb y) = V c main_v28 y
    refine congrArg _ (funext fun a => Fin.ext ?_)
    match a with
    | ⟨0, _⟩ => show win3_9.index t (0 : Fin 2) * 1 + 1 * (y 0).val = (y 0).val; omega
    | ⟨1, _⟩ => show win3_9.index t (1 : Fin 2) * 64 + 1 * (y 1).val = (y 1).val; omega

/-- An index of the output array is in point t's block iff each coordinate is in the block's range on its axis. -/
theorem mem_blk (t : Fin cfg3.N) (i : S100000x64.Idx) :
    i ∈ ((cfg3.win 10).blk t).view.set ↔ ∀ a : Fin 2, win3_10.index t a * S5000x64.size a ≤ (i a).val ∧ (i a).val < win3_10.index t a * S5000x64.size a + S5000x64.size a := by
  show i ∈ ((View.whole main_v29).slice (win3_10.rect t)).set ↔ _
  rw [View.set_slice_whole, Rect.mem_set_unit]
  exact Iff.rfl

/-- The twenty blocks tile the array: row r lies in the block of point r / 5000. -/
theorem cover (i : S100000x64.Idx) :
    ∃ t : Fin cfg3.N, (cfg3.win 10).flush t = true ∧ i ∈ ((cfg3.win 10).blk t).view.set := by
  have hi0 : (i 0).val < 100000 := (i 0).isLt
  have hi1 : (i 1).val < 64 := (i 1).isLt
  have hN : cfg3.N = 20 := N_3
  have ht : (i 0).val / 5000 < cfg3.N := by omega
  obtain ⟨-, -, -, -, -, -, -, -, -, -, -, -, -, -, -, -, -, -, -, -, e10r, e10c⟩ := idx_facts ⟨(i 0).val / 5000, ht⟩
  have e10r' : win3_10.index ⟨(i 0).val / 5000, ht⟩ (0 : Fin 2) = (i 0).val / 5000 := e10r
  refine ⟨⟨(i 0).val / 5000, ht⟩, flush3_10 _, ?_⟩
  rw [mem_blk]
  intro a
  match a with
  | ⟨0, _⟩ =>
    show win3_10.index ⟨(i 0).val / 5000, ht⟩ (0 : Fin 2) * 5000 ≤ (i 0).val ∧ (i 0).val < win3_10.index ⟨(i 0).val / 5000, ht⟩ (0 : Fin 2) * 5000 + 5000
    omega
  | ⟨1, _⟩ =>
    show win3_10.index ⟨(i 0).val / 5000, ht⟩ (1 : Fin 2) * 64 ≤ (i 1).val ∧ (i 1).val < win3_10.index ⟨(i 0).val / 5000, ht⟩ (1 : Fin 2) * 64 + 64
    omega

/-- THE ARRAY the second node update leaves: the specification's node update of the arrays the region finds. -/
theorem out_eq (c : Dev nD) :
    (dat3 (F := Ideal) V c).arrAt 10 cfg3.N
      = Cert.Bridge.node (A := 128) (H := 64) (V c main_v16) (V c main_v22) (V c main_arg18) (Cert.Bridge.unrow (V c main_v23))
          (Cert.Bridge.unrow (V c main_v24)) (Cert.Bridge.unrow (V c main_v25)) (Cert.Bridge.unrow (V c main_v26))
          (Cert.Bridge.unrow (V c main_v27)) (V c main_arg24) (Cert.Bridge.unrow (V c main_v28)) :=
  (dat3 (F := Ideal) V c).arrAt_eq_of_cover 10 (G V c) (fun t _ => flushed_eq V c t) cover

end Arrays

end Cert.Bridge.Region3

end
-- ==== Proof.Region4.lean ====
/-
  The location head's kernel region, read as one function of whole arrays over the extended reals.

  The region runs over 20 blocks of 5000 rows. At each block the body takes the block's 5000 rows of 64 entries and
  the four parameter arrays whole, and leaves 5000 rows of one entry: the rows times the 64 × 16 matrix, plus the
  bias row, clipped at zero, times the 16 × 1 matrix, plus the one-entry bias. Over the extended reals the two
  narrowing format changes are the identity and each product into a zero accumulator is the plain sum over the
  contracted coordinate, so entry (p, q) of a block's result is the specification's head at the block's row p.
  Block t holds rows 5000 t … 5000 t + 4999 of the array, the blocks tile the 100000 rows (row r lies in block
  r / 5000), and every block is written back; so after the region the output array is the head of the whole arrays.
-/
import proofs.«428024_j38096359915723_1_alg».proof.Proof.Gen.KernelIdeal.Frame
import proofs.«428024_j38096359915723_1_alg».proof.Proof.Spec
import Idealize.ShloMosaic.Lib.Pipeline.Value
import Idealize.ShloMosaic.Lib.ValueIdx
import Idealize.ShloMosaic.PureOps.Ideal.Laws

noncomputable section

namespace Cert.Bridge.Region4

open Cert.KernelIdeal Cert.KernelIdeal.Gen
open Idealize.ShloMosaic Idealize.ShloMosaic.ValueIdx Idealize.ShloMosaic.TcCoe Idealize.SL.Sem
open Idealize.ShloMosaic.Pipeline (Dat)

/-! ## The two products' operand indices, axis by axis

Each product contracts the left operand's second axis with the right operand's first: at output index (p, h) and
contraction coordinate k the left operand is read at (p, k) and the right one at (k, h). -/

theorem lhs_hidden_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_hidden_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs_hidden_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs_hidden_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

theorem lhs_out_0 (i : S5000x1.Idx) (q : dot_S5000x16_S16x1_S5000x1_1_0_0_1_n_n.contr.Idx) :
    (dot_S5000x16_S16x1_S5000x1_1_0_0_1_n_n.lhsIdx i q 0).val = (i 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
theorem lhs_out_1 (i : S5000x1.Idx) (q : dot_S5000x16_S16x1_S5000x1_1_0_0_1_n_n.contr.Idx) :
    (dot_S5000x16_S16x1_S5000x1_1_0_0_1_n_n.lhsIdx i q 1).val = (q ⟨0, by decide⟩).val :=
  dot_S5000x16_S16x1_S5000x1_1_0_0_1_n_n.lhsIdx_val_of_single rfl i q
theorem rhs_out_0 (i : S5000x1.Idx) (q : dot_S5000x16_S16x1_S5000x1_1_0_0_1_n_n.contr.Idx) :
    (dot_S5000x16_S16x1_S5000x1_1_0_0_1_n_n.rhsIdx i q 0).val = (q ⟨0, by decide⟩).val :=
  dot_S5000x16_S16x1_S5000x1_1_0_0_1_n_n.rhsIdx_val_of_single rfl i q
theorem rhs_out_1 (i : S5000x1.Idx) (q : dot_S5000x16_S16x1_S5000x1_1_0_0_1_n_n.contr.Idx) :
    (dot_S5000x16_S16x1_S5000x1_1_0_0_1_n_n.rhsIdx i q 1).val = (i 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

/-! ## The two products at an entry -/

/-- Entry (p, h) of the rows times the first matrix, accumulated from zero: the sum over the 64 contracted coordinates. -/
theorem hidden_product (a : FVec Ideal S5000x64 .bf16) (b : FVec Ideal S64x16 .bf16) (p : Fin 5000) (h : Fin 16) :
    matmul dot_S5000x64_S64x16_S5000x16_1_0_0_1_n_n none a b (constant (F := Ideal) S5000x16 .f32 0x00000000#32) (ix2 p h)
      = ∑ k : Fin 64, a (ix2 p k) * b (ix2 k h) := by
  simp only [matmul]
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p h) ((contrEquiv1 dot_S5000x64_S64x16_S5000x16_1_0_0_1_n_n 64 rfl rfl).symm k) = ix2 p k := funext fun a => Fin.ext (by
    match a with
    | ⟨0, _⟩ => exact lhs_hidden_0 _ _
    | ⟨1, _⟩ => exact (lhs_hidden_1 _ _).trans hk)
  have er : dot_S5000x64_S64x16_S5000x16_1_0_0_1_n_n.rhsIdx (ix2 p h) ((contrEquiv1 dot_S5000x64_S64x16_S5000x16_1_0_0_1_n_n 64 rfl rfl).symm k) = ix2 k h := funext fun a => Fin.ext (by
    match a with
    | ⟨0, _⟩ => exact (rhs_hidden_0 _ _).trans hk
    | ⟨1, _⟩ => exact rhs_hidden_1 _ _)
  rw [el, er]

/-- Entry (p, q) of the hidden rows times the second matrix, accumulated from zero: the sum over the 16 contracted coordinates. -/
theorem out_product (a : FVec Ideal S5000x16 .bf16) (b : FVec Ideal S16x1 .bf16) (p : Fin 5000) (q : Fin 1) :
    matmul dot_S5000x16_S16x1_S5000x1_1_0_0_1_n_n none a b (constant (F := Ideal) S5000x1 .f32 0x00000000#32) (ix2 p q)
      = ∑ h : Fin 16, a (ix2 p h) * b (ix2 h q) := by
  simp only [matmul]
  rw [Ideal.matmul_constant_zero_apply, ← Equiv.sum_comp (contrEquiv1 dot_S5000x16_S16x1_S5000x1_1_0_0_1_n_n 16 rfl rfl).symm]
  refine Finset.sum_congr rfl fun h _ => ?_
  have hk := contrEquiv1_symm_val dot_S5000x16_S16x1_S5000x1_1_0_0_1_n_n 16 rfl rfl h
  have el : dot_S5000x16_S16x1_S5000x1_1_0_0_1_n_n.lhsIdx (ix2 p q) ((contrEquiv1 dot_S5000x16_S16x1_S5000x1_1_0_0_1_n_n 16 rfl rfl).symm h) = ix2 p h := funext fun a => Fin.ext (by
    match a with
    | ⟨0, _⟩ => exact lhs_out_0 _ _
    | ⟨1, _⟩ => exact (lhs_out_1 _ _).trans hk)
  have er : dot_S5000x16_S16x1_S5000x1_1_0_0_1_n_n.rhsIdx (ix2 p q) ((contrEquiv1 dot_S5000x16_S16x1_S5000x1_1_0_0_1_n_n 16 rfl rfl).symm h) = ix2 h q := funext fun a => Fin.ext (by
    match a with
    | ⟨0, _⟩ => exact (rhs_out_0 _ _).trans hk
    | ⟨1, _⟩ => exact rhs_out_1 _ _)
  rw [el, er]

/-! ## The two biases, spread over the rows -/

/-- The bias row spread over 5000 rows reads, at (p, h), the row's entry h. -/
theorem bias_row_apply (b : FVec Ideal S1x16 .f32) (p : Fin 5000) (h : Fin 16) :
    broadcastTo S5000x16 b broadcasts_S1x16_S5000x16 (ix2 p h) = b (ix2 (0 : Fin 1) h) :=
  broadcastTo_apply b broadcasts_S1x16_S5000x16 (ix2 p h) (ix2 (0 : Fin 1) h) (fun a => match a with
    | ⟨0, _⟩ => by show (0 : Nat) = if (1 : Nat) = 1 then 0 else _; rw [if_pos rfl]
    | ⟨1, _⟩ => by show h.val = if (16 : Nat) = 1 then 0 else _; rw [if_neg (by decide)]; rfl)

/-- The one-entry bias spread over 5000 rows reads its entry everywhere. -/
theorem bias_one_apply (b : FVec Ideal S1x1 .f32) (p : Fin 5000) (q : Fin 1) :
    broadcastTo S5000x1 b broadcasts_S1x1_S5000x1 (ix2 p q) = b (ix2 (0 : Fin 1) q) :=
  broadcastTo_apply b broadcasts_S1x1_S5000x1 (ix2 p q) (ix2 (0 : Fin 1) q) (fun a => match a with
    | ⟨0, _⟩ => by show (0 : Nat) = if (1 : Nat) = 1 then 0 else _; rw [if_pos rfl]
    | ⟨1, _⟩ => by
      show q.val = if (1 : Nat) = 1 then 0 else _
      rw [if_pos rfl]
      have := q.isLt
      omega)

/-! ## The body's result at an entry -/

/-- Entry (p, q) of what the body computes from a block of rows `x0` and the four parameter arrays, when the block's
    row p is row r of an array `X` and the parameters are the arrays `W1`, `B1`, `W2`, `B2` (the output's one
    column q being column s of theirs): the head of those arrays at (r, s). -/
theorem pay_apply (x0 : Vec Ideal S5000x64 .f32) (x1 : Vec Ideal S64x16 .f32) (x2 : Vec Ideal S1x16 .f32)
    (x3 : Vec Ideal S16x1 .f32) (x4 : Vec Ideal S1x1 .f32)
    (X : FVec Ideal ⟨2, ![100000, 64]⟩ .f32) (W1 : FVec Ideal S64x16 .f32) (B1 : FVec Ideal ⟨2, ![1, 16]⟩ .f32)
    (W2 : FVec Ideal ⟨2, ![16, 1]⟩ .f32) (B2 : FVec Ideal ⟨2, ![1, 1]⟩ .f32)
    (p : Fin 5000) (q : Fin 1) (r : Fin 100000) (s : Fin 1)
    (h0 : ∀ k : Fin 64, x0 (ix2 p k) = X (ix2 r k))
    (h1 : ∀ (k : Fin 64) (h : Fin 16), x1 (ix2 k h) = W1 (ix2 k h))
    (h2 : ∀ h : Fin 16, x2 (ix2 (0 : Fin 1) h) = B1 (ix2 (0 : Fin 1) h))
    (h3 : ∀ h : Fin 16, x3 (ix2 h q) = W2 (ix2 h s))
    (h4 : x4 (ix2 (0 : Fin 1) q) = B2 (ix2 (0 : Fin 1) s)) :
    k4_pay1 (F := Ideal) x0 x1 x2 x3 x4 (ix2 p q)
      = Cert.Bridge.head (R := 100000) (O := 1) X W1 (Cert.Bridge.unrow B1) W2 (Cert.Bridge.unrow B2) (ix2 r s) := by
  unfold k4_pay1
  simp only [shapeCast_self]
  rw [addf_apply, out_product, bias_one_apply, h4]
  show _ = (∑ h : Fin 16, max ((∑ k : Fin 64, X (ix2 r k) * W1 (ix2 k h)) + B1 (ix2 (0 : Fin 1) h)) Cert.Bridge.zero32 * W2 (ix2 h s))
      + B2 (ix2 (0 : Fin 1) s)
  refine congrArg (· + B2 (ix2 (0 : Fin 1) s)) (Finset.sum_congr rfl fun h _ => ?_)
  rw [truncf_apply, truncf_apply, maximumf_apply, addf_apply, hidden_product, bias_row_apply, broadcast_apply, h2, h3]
  refine congrArg (fun z => max (z + B1 (ix2 (0 : Fin 1) h)) _ * W2 (ix2 h s)) (Finset.sum_congr rfl fun k _ => ?_)
  rw [truncf_apply, truncf_apply, h0, h1]

/-! ## From blocks to the array -/

theorem hz : (![0, 0] : Fin 2 → Nat) = fun _ => 0 := funext fun a => match a with | ⟨0, _⟩ => rfl | ⟨1, _⟩ => rfl

/-- The index maps over the 20 blocks: the rows and the output move one block of 5000 rows per point, the four
    parameter arrays stay whole. -/
theorem idx_facts : ∀ t : Fin cfg4.N, t.val < 20
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section
variable (V : (c : Dev nD) → (b : Ref sig .tc) → Buf (Elt Ideal) ((c : Thread nD τ).loc b))

/-- What block t writes back is block t of the head of the arrays as the region finds them. -/
theorem flushed_eq (c : Dev nD) (t : Fin cfg4.N) :
    (dat4 (F := Ideal) V c).flushed 5 t = ((cfg4.win 5).blk t).view.read (Elt Ideal)
      (Cert.Bridge.head (R := 100000) (O := 1) (V c main_v29) (V c main_arg26) (Cert.Bridge.unrow (V c main_v30))
        (V c main_arg28) (Cert.Bridge.unrow (V c main_v31))) := by
  show (cfg4.win 5).cut (grid4.coords t) ((dat4 (F := Ideal) V c).after 5 t) = _
  rw [after4_5]
  unfold out4_5
  rw [View.canon_unit_zero hz]
  simp only [View.ld_unit_zero (S := S5000x64) hz, View.ld_unit_zero (S := S64x16) hz, View.ld_unit_zero (S := S1x16) hz,
    View.ld_unit_zero (S := S16x1) hz, View.ld_unit_zero (S := S1x1) hz]
  obtain ⟨ht, e00, e01, e10, e11, e20, e21, e30, e31, e40, e41, e50, e51⟩ := idx_facts t
  refine funext fun (j : S5000x1.Idx) => ?_
  obtain ⟨p, q, rfl⟩ : ∃ (p : Fin 5000) (q : Fin 1), j = ix2 p q := ⟨j 0, j 1, eq_ix2 j⟩
  have hp : p.val < 5000 := p.isLt
  have hq : q.val < 1 := q.isLt
  have hemb : ((cfg4.win 5).blk t).view.emb (ix2 p q) = ix2 (⟨t.val * 5000 + p.val, by omega⟩ : Fin 100000) q := by
    funext a; apply Fin.ext
    match a with
    | ⟨0, _⟩ => show win4_5.index t (0 : Fin 2) * 5000 + 1 * p.val = t.val * 5000 + p.val; omega
    | ⟨1, _⟩ => show win4_5.index t (1 : Fin 2) * 1 + 1 * q.val = q.val; omega
  show k4_pay1 (F := Ideal) (iblk4 V c 0 t) (iblk4 V c 1 t) (iblk4 V c 2 t) (iblk4 V c 3 t) (iblk4 V c 4 t) (ix2 p q)
    = Cert.Bridge.head (R := 100000) (O := 1) (V c main_v29) (V c main_arg26) (Cert.Bridge.unrow (V c main_v30))
        (V c main_arg28) (Cert.Bridge.unrow (V c main_v31)) (((cfg4.win 5).blk t).view.emb (ix2 p q))
  rw [hemb]
  refine pay_apply _ _ _ _ _ _ _ _ _ _ p q _ q ?_ ?_ ?_ ?_ ?_
  · intro k
    have hk : k.val < 64 := k.isLt
    show V c main_v29 (((cfg4.win 0).blk t).view.emb (ix2 p k)) = V c main_v29 (ix2 (⟨t.val * 5000 + p.val, by omega⟩ : Fin 100000) k)
    refine congrArg (V c main_v29) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  · intro k h
    show V c main_arg26 (((cfg4.win 1).blk t).view.emb (ix2 k h)) = V c main_arg26 (ix2 k h)
    refine congrArg (V c main_arg26) (funext fun a => Fin.ext ?_)
    match a with
    | ⟨0, _⟩ => show win4_1.index t (0 : Fin 2) * 64 + 1 * k.val = k.val; omega
    | ⟨1, _⟩ => show win4_1.index t (1 : Fin 2) * 16 + 1 * h.val = h.val; omega
  · intro h
    show V c main_v30 (((cfg4.win 2).blk t).view.emb (ix2 (0 : Fin 1) h)) = V c main_v30 (ix2 (0 : Fin 1) h)
    refine congrArg (V c main_v30) (funext fun a => Fin.ext ?_)
    match a with
    | ⟨0, _⟩ => show win4_2.index t (0 : Fin 2) * 1 + 1 * (0 : Fin 1).val = (0 : Fin 1).val; omega
    | ⟨1, _⟩ => show win4_2.index t (1 : Fin 2) * 16 + 1 * h.val = h.val; omega
  · intro h
    show V c main_arg28 (((cfg4.win 3).blk t).view.emb (ix2 h q)) = V c main_arg28 (ix2 h q)
    refine congrArg (V c main_arg28) (funext fun a => Fin.ext ?_)
    match a with
    | ⟨0, _⟩ => show win4_3.index t (0 : Fin 2) * 16 + 1 * h.val = h.val; omega
    | ⟨1, _⟩ => show win4_3.index t (1 : Fin 2) * 1 + 1 * q.val = q.val; omega
  · show V c main_v31 (((cfg4.win 4).blk t).view.emb (ix2 (0 : Fin 1) q)) = V c main_v31 (ix2 (0 : Fin 1) q)
    refine congrArg (V c main_v31) (funext fun a => Fin.ext ?_)
    match a with
    | ⟨0, _⟩ => show win4_4.index t (0 : Fin 2) * 1 + 1 * (0 : Fin 1).val = (0 : Fin 1).val; omega
    | ⟨1, _⟩ => show win4_4.index t (1 : Fin 2) * 1 + 1 * q.val = q.val; omega

/-- An index of the output array is in block t iff each coordinate is in the block's range on its axis. -/
theorem mem_blk (t : Fin cfg4.N) (i : S100000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v32).slice (win4_5.rect t)).set ↔ _
  rw [View.set_slice_whole, Rect.mem_set_unit]
  exact Iff.rfl

/-- The blocks tile the array: row r lies in block r / 5000, and every block is written back. -/
theorem cover (i : S100000x1.Idx) :
    ∃ t : Fin cfg4.N, (cfg4.win 5).flush t = true ∧ i ∈ ((cfg4.win 5).blk t).view.set := by
  have hi0 : (i 0).val < 100000 := (i 0).isLt
  have hi1 : (i 1).val < 1 := (i 1).isLt
  have hN : cfg4.N = 20 := N_4
  obtain ⟨t, ht⟩ : ∃ t : Fin cfg4.N, t.val = (i 0).val / 5000 := ⟨⟨(i 0).val / 5000, by omega⟩, rfl⟩
  obtain ⟨-, -, -, -, -, -, -, -, -, -, -, e50, e51⟩ := idx_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 1 ≤ (i 1).val ∧ (i 1).val < win4_5.index t (1 : Fin 2) * 1 + 1; omega

/-- THE OUTPUT ARRAY after the region: the head of the arrays as the region finds them. -/
theorem out_eq (c : Dev nD) : (dat4 (F := Ideal) V c).arrAt 5 cfg4.N
    = Cert.Bridge.head (R := 100000) (O := 1) (V c main_v29) (V c main_arg26) (Cert.Bridge.unrow (V c main_v30))
        (V c main_arg28) (Cert.Bridge.unrow (V c main_v31)) :=
  (dat4 (F := Ideal) V c).arrAt_eq_of_cover 5 _ (fun t _ => flushed_eq V c t) cover

end

end Cert.Bridge.Region4

end
-- ==== Proof.MutHead.lean ====
/-
  The mutation head of the kernel program, read as one function of whole arrays over the extended reals.

  The kernel program computes this head with plain array operations, in three stretches: the 64 gathered rows of
  64 entries times the 64 × 16 matrix, plus the bias of 16 entries spread over the rows; the clip against a zero
  spread over the array; the 64 × 16 result times the 16 × 4 matrix, plus the bias of 4 entries spread over the rows.
  Over the extended reals each product is the plain sum over the contracted coordinate, a spread bias reads its own
  entry at every row, and the spread zero reads the zero word everywhere; so entry (p, q) of the last array is the
  specification's head of the five argument arrays at (p, q).
-/
import proofs.«428024_j38096359915723_1_alg».proof.Proof.Gen.KernelIdeal.Launch
import proofs.«428024_j38096359915723_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Bridge.MutHead

open Cert.KernelIdeal Cert.KernelIdeal.Gen
open Idealize.ShloMosaic Idealize.ShloMosaic.ValueIdx Idealize.ShloMosaic.TcCoe Idealize.SL.Sem

/-! ## The two products' operand indices, axis by axis

Each product contracts the left operand's second axis with the right operand's first: at output index (p, h) and
contraction coordinate k the left operand is read at (p, k) and the right one at (k, h). -/

theorem lhs_hidden_0 (i : S64x16.Idx) (q : dot_S64x64_S64x16_S64x16_1_0_0_1_n_n.contr.Idx) :
    (dot_S64x64_S64x16_S64x16_1_0_0_1_n_n.lhsIdx i q 0).val = (i 0).val := by
  unfold DotDims.lhsIdx
  rw [dif_neg (show ¬(0 : Fin S64x64.rank) ∈ dot_S64x64_S64x16_S64x16_1_0_0_1_n_n.lhsBatch by decide), dif_pos (show (0 : Fin S64x64.rank) ∈ dot_S64x64_S64x16_S64x16_1_0_0_1_n_n.lhsNonContracting by decide)]
  rfl
theorem lhs_hidden_1 (i : S64x16.Idx) (q : dot_S64x64_S64x16_S64x16_1_0_0_1_n_n.contr.Idx) :
    (dot_S64x64_S64x16_S64x16_1_0_0_1_n_n.lhsIdx i q 1).val = (q ⟨0, by decide⟩).val :=
  dot_S64x64_S64x16_S64x16_1_0_0_1_n_n.lhsIdx_val_of_single rfl i q
theorem rhs_hidden_0 (i : S64x16.Idx) (q : dot_S64x64_S64x16_S64x16_1_0_0_1_n_n.contr.Idx) :
    (dot_S64x64_S64x16_S64x16_1_0_0_1_n_n.rhsIdx i q 0).val = (q ⟨0, by decide⟩).val :=
  dot_S64x64_S64x16_S64x16_1_0_0_1_n_n.rhsIdx_val_of_single rfl i q
theorem rhs_hidden_1 (i : S64x16.Idx) (q : dot_S64x64_S64x16_S64x16_1_0_0_1_n_n.contr.Idx) :
    (dot_S64x64_S64x16_S64x16_1_0_0_1_n_n.rhsIdx i q 1).val = (i 1).val := by
  unfold DotDims.rhsIdx
  rw [dif_neg (show ¬(1 : Fin S64x16.rank) ∈ dot_S64x64_S64x16_S64x16_1_0_0_1_n_n.rhsBatch by decide), dif_pos (show (1 : Fin S64x16.rank) ∈ dot_S64x64_S64x16_S64x16_1_0_0_1_n_n.rhsNonContracting by decide)]
  rfl

theorem lhs_out_0 (i : S64x4.Idx) (q : dot_S64x16_S16x4_S64x4_1_0_0_1_n_n.contr.Idx) :
    (dot_S64x16_S16x4_S64x4_1_0_0_1_n_n.lhsIdx i q 0).val = (i 0).val := by
  unfold DotDims.lhsIdx
  rw [dif_neg (show ¬(0 : Fin S64x16.rank) ∈ dot_S64x16_S16x4_S64x4_1_0_0_1_n_n.lhsBatch by decide), dif_pos (show (0 : Fin S64x16.rank) ∈ dot_S64x16_S16x4_S64x4_1_0_0_1_n_n.lhsNonContracting by decide)]
  rfl
theorem lhs_out_1 (i : S64x4.Idx) (q : dot_S64x16_S16x4_S64x4_1_0_0_1_n_n.contr.Idx) :
    (dot_S64x16_S16x4_S64x4_1_0_0_1_n_n.lhsIdx i q 1).val = (q ⟨0, by decide⟩).val :=
  dot_S64x16_S16x4_S64x4_1_0_0_1_n_n.lhsIdx_val_of_single rfl i q
theorem rhs_out_0 (i : S64x4.Idx) (q : dot_S64x16_S16x4_S64x4_1_0_0_1_n_n.contr.Idx) :
    (dot_S64x16_S16x4_S64x4_1_0_0_1_n_n.rhsIdx i q 0).val = (q ⟨0, by decide⟩).val :=
  dot_S64x16_S16x4_S64x4_1_0_0_1_n_n.rhsIdx_val_of_single rfl i q
theorem rhs_out_1 (i : S64x4.Idx) (q : dot_S64x16_S16x4_S64x4_1_0_0_1_n_n.contr.Idx) :
    (dot_S64x16_S16x4_S64x4_1_0_0_1_n_n.rhsIdx i q 1).val = (i 1).val := by
  unfold DotDims.rhsIdx
  rw [dif_neg (show ¬(1 : Fin S16x4.rank) ∈ dot_S64x16_S16x4_S64x4_1_0_0_1_n_n.rhsBatch by decide), dif_pos (show (1 : Fin S16x4.rank) ∈ dot_S64x16_S16x4_S64x4_1_0_0_1_n_n.rhsNonContracting by decide)]
  rfl

/-! ## The two products at an entry -/

/-- Entry (p, h) of the rows times the first matrix: the sum over the 64 contracted coordinates. -/
theorem hidden_product (a : FVec Ideal S64x64 .f32) (b : FVec Ideal S64x16 .f32) (p : Fin 64) (h : Fin 16) :
    Host.dotGeneral dot_S64x64_S64x16_S64x16_1_0_0_1_n_n none a b (ix2 p h) = ∑ k : Fin 64, a (ix2 p k) * b (ix2 k h) := by
  simp only [Host.dotGeneral]
  rw [Ideal.dotGeneral_apply, ← Equiv.sum_comp (contrEquiv1 dot_S64x64_S64x16_S64x16_1_0_0_1_n_n 64 rfl rfl).symm]
  refine Finset.sum_congr rfl fun k _ => ?_
  have hk := contrEquiv1_symm_val dot_S64x64_S64x16_S64x16_1_0_0_1_n_n 64 rfl rfl k
  have el : dot_S64x64_S64x16_S64x16_1_0_0_1_n_n.lhsIdx (ix2 p h) ((contrEquiv1 dot_S64x64_S64x16_S64x16_1_0_0_1_n_n 64 rfl rfl).symm k) = ix2 p k := funext fun a => Fin.ext (by
    match a with
    | ⟨0, _⟩ => exact lhs_hidden_0 _ _
    | ⟨1, _⟩ => exact (lhs_hidden_1 _ _).trans hk)
  have er : dot_S64x64_S64x16_S64x16_1_0_0_1_n_n.rhsIdx (ix2 p h) ((contrEquiv1 dot_S64x64_S64x16_S64x16_1_0_0_1_n_n 64 rfl rfl).symm k) = ix2 k h := funext fun a => Fin.ext (by
    match a with
    | ⟨0, _⟩ => exact (rhs_hidden_0 _ _).trans hk
    | ⟨1, _⟩ => exact rhs_hidden_1 _ _)
  rw [el, er]

/-- Entry (p, q) of the hidden rows times the second matrix: the sum over the 16 contracted coordinates. -/
theorem out_product (a : FVec Ideal S64x16 .f32) (b : FVec Ideal S16x4 .f32) (p : Fin 64) (q : Fin 4) :
    Host.dotGeneral dot_S64x16_S16x4_S64x4_1_0_0_1_n_n none a b (ix2 p q) = ∑ h : Fin 16, a (ix2 p h) * b (ix2 h q) := by
  simp only [Host.dotGeneral]
  rw [Ideal.dotGeneral_apply, ← Equiv.sum_comp (contrEquiv1 dot_S64x16_S16x4_S64x4_1_0_0_1_n_n 16 rfl rfl).symm]
  refine Finset.sum_congr rfl fun h _ => ?_
  have hk := contrEquiv1_symm_val dot_S64x16_S16x4_S64x4_1_0_0_1_n_n 16 rfl rfl h
  have el : dot_S64x16_S16x4_S64x4_1_0_0_1_n_n.lhsIdx (ix2 p q) ((contrEquiv1 dot_S64x16_S16x4_S64x4_1_0_0_1_n_n 16 rfl rfl).symm h) = ix2 p h := funext fun a => Fin.ext (by
    match a with
    | ⟨0, _⟩ => exact lhs_out_0 _ _
    | ⟨1, _⟩ => exact (lhs_out_1 _ _).trans hk)
  have er : dot_S64x16_S16x4_S64x4_1_0_0_1_n_n.rhsIdx (ix2 p q) ((contrEquiv1 dot_S64x16_S16x4_S64x4_1_0_0_1_n_n 16 rfl rfl).symm h) = ix2 h q := funext fun a => Fin.ext (by
    match a with
    | ⟨0, _⟩ => exact (rhs_out_0 _ _).trans hk
    | ⟨1, _⟩ => exact rhs_out_1 _ _)
  rw [el, er]

/-! ## The biases and the zero, spread over the rows -/

/-- The bias of 16 entries, made a row and spread over the 64 rows, reads at (p, h) its entry h. -/
theorem bias_hidden_apply (b : FVec Ideal S16 .f32) (p : Fin 64) (h : Fin 16) :
    broadcastInDim S64x16 ![0, 1] bcast_S1x16_S64x16_0_1 (broadcastInDim S1x16 ![1] bcast_S16_S1x16_1 b) (ix2 p h) = b (ix1 h) :=
  (broadcastInDim_apply _ bcast_S1x16_S64x16_0_1 _ (ix2 p h) (ix2 (0 : Fin 1) h) (fun a => match a with
    | ⟨0, _⟩ => by show (0 : Nat) = if (1 : Nat) = 1 then 0 else p.val; rw [if_pos rfl]
    | ⟨1, _⟩ => by show h.val = if (16 : Nat) = 1 then 0 else h.val; rw [if_neg (by decide)])).trans
  (broadcastInDim_apply _ bcast_S16_S1x16_1 b (ix2 (0 : Fin 1) h) (ix1 h) (fun a => match a with
    | ⟨0, _⟩ => by show h.val = if (16 : Nat) = 1 then 0 else h.val; rw [if_neg (by decide)]))

/-- The bias of 4 entries, made a row and spread over the 64 rows, reads at (p, q) its entry q. -/
theorem bias_out_apply (b : FVec Ideal S4 .f32) (p : Fin 64) (q : Fin 4) :
    broadcastInDim S64x4 ![0, 1] bcast_S1x4_S64x4_0_1 (broadcastInDim S1x4 ![1] bcast_S4_S1x4_1 b) (ix2 p q) = b (ix1 q) :=
  (broadcastInDim_apply _ bcast_S1x4_S64x4_0_1 _ (ix2 p q) (ix2 (0 : Fin 1) q) (fun a => match a with
    | ⟨0, _⟩ => by show (0 : Nat) = if (1 : Nat) = 1 then 0 else p.val; rw [if_pos rfl]
    | ⟨1, _⟩ => by show q.val = if (4 : Nat) = 1 then 0 else q.val; rw [if_neg (by decide)])).trans
  (broadcastInDim_apply _ bcast_S4_S1x4_1 b (ix2 (0 : Fin 1) q) (ix1 q) (fun a => match a with
    | ⟨0, _⟩ => by show q.val = if (4 : Nat) = 1 then 0 else q.val; rw [if_neg (by decide)]))

/-- The zero spread over the array reads the zero word everywhere. -/
theorem zero_apply (p : Fin 64) (h : Fin 16) :
    broadcastInDim S64x16 ![] bcast_S_S64x16 (constant (F := Ideal) S_ .f32 0x00000000#32) (ix2 p h) = Cert.Bridge.zero32 :=
  (broadcastInDim_apply _ bcast_S_S64x16 (constant (F := Ideal) S_ .f32 0x00000000#32) (ix2 p h) (fun a => a.elim0) (fun a => a.elim0)).trans rfl

/-! ## The three stretches' result at an entry -/

/-- The three stretches' operations, in order, as one function of the five arrays they read. -/
def stretches (X : FVec Ideal S64x64 .f32) (W1 : FVec Ideal S64x16 .f32) (b1 : FVec Ideal S16 .f32)
    (W2 : FVec Ideal S16x4 .f32) (b2 : FVec Ideal S4 .f32) : FVec Ideal S64x4 .f32 :=
  addf (Host.dotGeneral dot_S64x16_S16x4_S64x4_1_0_0_1_n_n none
        (maximumf (addf (Host.dotGeneral dot_S64x64_S64x16_S64x16_1_0_0_1_n_n none X W1)
            (broadcastInDim S64x16 ![0, 1] bcast_S1x16_S64x16_0_1 (broadcastInDim S1x16 ![1] bcast_S16_S1x16_1 b1)))
          (broadcastInDim S64x16 ![] bcast_S_S64x16 (constant (F := Ideal) S_ .f32 0x00000000#32))) W2)
      (broadcastInDim S64x4 ![0, 1] bcast_S1x4_S64x4_0_1 (broadcastInDim S1x4 ![1] bcast_S4_S1x4_1 b2))

/-- Entry (p, q) of the operations' result on arrays `X`, `W1`, `b1`, `W2`, `b2`: their head at (p, q). -/
theorem value_apply (X : FVec Ideal S64x64 .f32) (W1 : FVec Ideal S64x16 .f32) (b1 : FVec Ideal S16 .f32)
    (W2 : FVec Ideal S16x4 .f32) (b2 : FVec Ideal S4 .f32) (p : Fin 64) (q : Fin 4) :
    stretches X W1 b1 W2 b2 (ix2 p q) = Cert.Bridge.head (R := 64) (O := 4) X W1 b1 W2 b2 (ix2 p q) := by
  unfold stretches
  rw [addf_apply, out_product, bias_out_apply]
  show _ = (∑ h : Fin 16, max ((∑ k : Fin 64, X (ix2 p k) * W1 (ix2 k h)) + b1 (ix1 h)) Cert.Bridge.zero32 * W2 (ix2 h q)) + b2 (ix1 q)
  refine congrArg (· + b2 (ix1 q)) (Finset.sum_congr rfl fun h _ => ?_)
  rw [maximumf_apply, addf_apply, hidden_product, bias_hidden_apply, zero_apply]

/-! ## The last array after the three stretches -/

/-- THE MUTATION HEAD's array after the three stretches, from any contents `W`: the head of the five argument arrays. -/
theorem out_eq (W : Valuation τ sig (Elt Ideal)) :
    StableHlo.after hostOps5_4 (StableHlo.after hostOps5_3 (StableHlo.after hostOps5_2 W)) (Proc.devRef .tc main_v43)
      = Cert.Bridge.head (R := 64) (O := 4) (W (Proc.devRef .tc main_v34)) (W (Proc.devRef .tc main_arg30))
        (W (Proc.devRef .tc main_arg31)) (W (Proc.devRef .tc main_arg32)) (W (Proc.devRef .tc main_arg33)) := by
  have e : (StableHlo.after hostOps5_4 (StableHlo.after hostOps5_3 (StableHlo.after hostOps5_2 W)) (Proc.devRef .tc main_v43) : S64x4.Idx → EReal)
      = stretches (W (Proc.devRef .tc main_v34)) (W (Proc.devRef .tc main_arg30)) (W (Proc.devRef .tc main_arg31))
          (W (Proc.devRef .tc main_arg32)) (W (Proc.devRef .tc main_arg33)) := by
    dsimp only [hostOps5_2, hostOps5_3, hostOps5_4]
    after_results
    rfl
  refine e.trans (funext fun i => ?_)
  obtain ⟨p, q, rfl⟩ : ∃ (p : Fin 64) (q : Fin 4), i = ix2 p q := ⟨i 0, i 1, eq_ix2 i⟩
  exact value_apply _ _ _ _ _ p q

end Cert.Bridge.MutHead

end
-- ==== Proof.Shared.lean ====
/-
  Both printed programs slice the edge list, broadcast the index columns, gather rows, start a scatter-add from
  zeros and reshape biases with the same host functions over the same literal shapes. Each program carries its own
  copy of the shape abbreviations and of the evidence that the shapes fit (a slice lies inside its array, a reshape
  keeps the number of entries, a broadcast's axes agree, a gather's or scatter's dimension numbers are well formed).
  The shapes are the same literals and the evidence is a proposition, so the two spellings of each such value are
  one value. Stated here: the gather and scatter records agree; the source and destination index columns and the
  zero accumulators of the kernel's host stretch are the reference's; the reference's gathers, scatters and its
  final reshape are the host functions at its own earlier stages; the reference wraps the source column the same
  way both times; and a bias reshaped to one row, read back as a vector, is the bias.
-/
import proofs.«428024_j38096359915723_1_alg».proof.KernelIdeal
import proofs.«428024_j38096359915723_1_alg».proof.Proof.Gen.KernelIdeal
import proofs.«428024_j38096359915723_1_alg».proof.Proof.Gen.ReferenceIdeal.Read
import proofs.«428024_j38096359915723_1_alg».proof.Proof.Spec
import Idealize.ShloMosaic.Lib.Pipeline.Value
import Idealize.ShloMosaic.Lib.ValueLayout
import Idealize.ShloMosaic.Lib.ValueIdx

noncomputable section

namespace Cert.Bridge.Shared

open Idealize.ShloMosaic Idealize.ShloMosaic.ValueIdx

/-! ## The gather and scatter records of the two programs are the same records -/

/-- The first layer's gather of rows of 9 entries. -/
theorem gather9 :
    (Cert.KernelIdeal.gather_S100000x9_S1200000x1_S1200000x9_1_0_n_n_0_1_19 : GatherDims Cert.ReferenceIdeal.S100000x9 Cert.ReferenceIdeal.S1200000x1 Cert.ReferenceIdeal.S1200000x9) = Cert.ReferenceIdeal.gather_S100000x9_S1200000x1_S1200000x9_1_0_n_n_0_1_19 := rfl
/-- The second layer's gather of rows of 128 entries. -/
theorem gather128 :
    (Cert.KernelIdeal.gather_S100000x128_S1200000x1_S1200000x128_1_0_n_n_0_1_1128 : GatherDims Cert.ReferenceIdeal.S100000x128 Cert.ReferenceIdeal.S1200000x1 Cert.ReferenceIdeal.S1200000x128) = Cert.ReferenceIdeal.gather_S100000x128_S1200000x1_S1200000x128_1_0_n_n_0_1_1128 := rfl
/-- The mutation head's gather of 64 rows of 64 entries. -/
theorem gather64 :
    (Cert.KernelIdeal.gather_S100000x64_S64x1_S64x64_1_0_n_n_0_1_164 : GatherDims Cert.ReferenceIdeal.S100000x64 Cert.ReferenceIdeal.S64x1 Cert.ReferenceIdeal.S64x64) = Cert.ReferenceIdeal.gather_S100000x64_S64x1_S64x64_1_0_n_n_0_1_164 := rfl
/-- The first layer's scatter-add of rows of 9 entries. -/
theorem scatter9 :
    (Cert.KernelIdeal.scatter_S100000x9_S1200000x1_S1200000x9_1_0_0_1 : ScatterDims Cert.ReferenceIdeal.S100000x9 Cert.ReferenceIdeal.S1200000x1 Cert.ReferenceIdeal.S1200000x9) = Cert.ReferenceIdeal.scatter_S100000x9_S1200000x1_S1200000x9_1_0_0_1 := rfl
/-- The second layer's scatter-add of rows of 128 entries. -/
theorem scatter128 :
    (Cert.KernelIdeal.scatter_S100000x128_S1200000x1_S1200000x128_1_0_0_1 : ScatterDims Cert.ReferenceIdeal.S100000x128 Cert.ReferenceIdeal.S1200000x1 Cert.ReferenceIdeal.S1200000x128) = Cert.ReferenceIdeal.scatter_S100000x128_S1200000x1_S1200000x128_1_0_0_1 := rfl

/-- The same, applied: gathering with either program's record gathers the same rows. -/
theorem gather9_app (x : FVec Ideal Cert.KernelIdeal.S100000x9 .f32) (i : IVec Cert.KernelIdeal.S1200000x1 32) :
    Host.gather Cert.KernelIdeal.gather_S100000x9_S1200000x1_S1200000x9_1_0_n_n_0_1_19 x i = Host.gather Cert.ReferenceIdeal.gather_S100000x9_S1200000x1_S1200000x9_1_0_n_n_0_1_19 x i := rfl
theorem gather128_app (x : FVec Ideal Cert.KernelIdeal.S100000x128 .f32) (i : IVec Cert.KernelIdeal.S1200000x1 32) :
    Host.gather Cert.KernelIdeal.gather_S100000x128_S1200000x1_S1200000x128_1_0_n_n_0_1_1128 x i = Host.gather Cert.ReferenceIdeal.gather_S100000x128_S1200000x1_S1200000x128_1_0_n_n_0_1_1128 x i := rfl
theorem gather64_app (x : FVec Ideal Cert.KernelIdeal.S100000x64 .f32) (i : IVec Cert.KernelIdeal.S64x1 32) :
    Host.gather Cert.KernelIdeal.gather_S100000x64_S64x1_S64x64_1_0_n_n_0_1_164 x i = Host.gather Cert.ReferenceIdeal.gather_S100000x64_S64x1_S64x64_1_0_n_n_0_1_164 x i := rfl
/-- The same, applied: scatter-adding with either program's record adds the same rows. -/
theorem scatter9_app (z : FVec Ideal Cert.KernelIdeal.S100000x9 .f32) (i : IVec Cert.KernelIdeal.S1200000x1 32) (u : FVec Ideal Cert.KernelIdeal.S1200000x9 .f32) :
    Host.scatterAdd Cert.KernelIdeal.scatter_S100000x9_S1200000x1_S1200000x9_1_0_0_1 z i u = Host.scatterAdd Cert.ReferenceIdeal.scatter_S100000x9_S1200000x1_S1200000x9_1_0_0_1 z i u := rfl
theorem scatter128_app (z : FVec Ideal Cert.KernelIdeal.S100000x128 .f32) (i : IVec Cert.KernelIdeal.S1200000x1 32) (u : FVec Ideal Cert.KernelIdeal.S1200000x128 .f32) :
    Host.scatterAdd Cert.KernelIdeal.scatter_S100000x128_S1200000x1_S1200000x128_1_0_0_1 z i u = Host.scatterAdd Cert.ReferenceIdeal.scatter_S100000x128_S1200000x1_S1200000x128_1_0_0_1 z i u := rfl

/-! ## The index columns and the zero accumulators -/

/-- Row 0 of the edge list, as a vector: the source indices. -/
theorem src_eq (x1 : IVec Cert.KernelIdeal.S2x1200000 32) :
    shapeCast Cert.KernelIdeal.S1200000 ((extractStridedSlice Cert.KernelIdeal.S1x1200000 ![0, 0] · Cert.KernelIdeal.Facts₀.slices_S2x1200000_S1x1200000_0_0) x1)
        Cert.KernelIdeal.Facts₀.shapeCasts_S1x1200000_S1200000
      = Cert.ReferenceIdeal.Read.val_main_v1 (F := Ideal) x1 := rfl

/-- Row 1 of the edge list, as a column: the destination indices the first scatter-add takes. -/
theorem dstcol_eq (x1 : IVec Cert.KernelIdeal.S2x1200000 32) :
    broadcastInDim Cert.KernelIdeal.S1200000x1 ![0] Cert.KernelIdeal.Facts₀.bcast_S1200000_S1200000x1_0
        (shapeCast Cert.KernelIdeal.S1200000 ((extractStridedSlice Cert.KernelIdeal.S1x1200000 ![1, 0] · Cert.KernelIdeal.Facts₀.slices_S2x1200000_S1x1200000_1_0) x1)
          Cert.KernelIdeal.Facts₀.shapeCasts_S1x1200000_S1200000)
      = Cert.ReferenceIdeal.Read.val_main_v18 (F := Ideal) x1 := rfl

/-- The same column, as the reference builds it again for the second scatter-add. -/
theorem dstcol_eq' (x1 : IVec Cert.KernelIdeal.S2x1200000 32) :
    broadcastInDim Cert.KernelIdeal.S1200000x1 ![0] Cert.KernelIdeal.Facts₀.bcast_S1200000_S1200000x1_0
        (shapeCast Cert.KernelIdeal.S1200000 ((extractStridedSlice Cert.KernelIdeal.S1x1200000 ![1, 0] · Cert.KernelIdeal.Facts₀.slices_S2x1200000_S1x1200000_1_0) x1)
          Cert.KernelIdeal.Facts₀.shapeCasts_S1x1200000_S1200000)
      = Cert.ReferenceIdeal.Read.val_main_v60 (F := Ideal) x1 := rfl

/-- The zeros the first scatter-add starts from. -/
theorem zeros9 :
    broadcastInDim Cert.KernelIdeal.S100000x9 ![] Cert.KernelIdeal.Facts₀.bcast_S_S100000x9 (constant (F := Ideal) Cert.KernelIdeal.S_ .f32 0x00000000#32)
      = Cert.ReferenceIdeal.Read.val_main_v17 (F := Ideal) := rfl
/-- The zeros the second scatter-add starts from. -/
theorem zeros128 :
    broadcastInDim Cert.KernelIdeal.S100000x128 ![] Cert.KernelIdeal.Facts₀.bcast_S_S100000x128 (constant (F := Ideal) Cert.KernelIdeal.S_ .f32 0x00000000#32)
      = Cert.ReferenceIdeal.Read.val_main_v59 (F := Ideal) := rfl

/-! ## The reference's gathers, scatter-adds and last reshape, at its own earlier stages -/

section Stages
variable (x0 : (⟨Cert.ReferenceIdeal.S100000x9, .f32⟩ : BufTy).Contents (Elt Ideal)) (x1 : (⟨Cert.ReferenceIdeal.S2x1200000, .i32⟩ : BufTy).Contents (Elt Ideal))
  (x2 : (⟨Cert.ReferenceIdeal.S1200000x4, .f32⟩ : BufTy).Contents (Elt Ideal)) (x5 : (⟨Cert.ReferenceIdeal.S64, .i32⟩ : BufTy).Contents (Elt Ideal))
  (x6 : (⟨Cert.ReferenceIdeal.S4x9, .f32⟩ : BufTy).Contents (Elt Ideal)) (x7 : (⟨Cert.ReferenceIdeal.S9, .f32⟩ : BufTy).Contents (Elt Ideal))
  (x8 : (⟨Cert.ReferenceIdeal.S9x128, .f32⟩ : BufTy).Contents (Elt Ideal)) (x9 x10 x11 x12 x13 : (⟨Cert.ReferenceIdeal.S128, .f32⟩ : BufTy).Contents (Elt Ideal))
  (x14 : (⟨Cert.ReferenceIdeal.S128x128, .f32⟩ : BufTy).Contents (Elt Ideal)) (x15 : (⟨Cert.ReferenceIdeal.S128, .f32⟩ : BufTy).Contents (Elt Ideal))
  (x16 : (⟨Cert.ReferenceIdeal.S4x128, .f32⟩ : BufTy).Contents (Elt Ideal)) (x17 : (⟨Cert.ReferenceIdeal.S128, .f32⟩ : BufTy).Contents (Elt Ideal))
  (x18 : (⟨Cert.ReferenceIdeal.S128x64, .f32⟩ : BufTy).Contents (Elt Ideal)) (x19 x20 x21 x22 x23 : (⟨Cert.ReferenceIdeal.S64, .f32⟩ : BufTy).Contents (Elt Ideal))
  (x24 : (⟨Cert.ReferenceIdeal.S64x64, .f32⟩ : BufTy).Contents (Elt Ideal)) (x25 : (⟨Cert.ReferenceIdeal.S64, .f32⟩ : BufTy).Contents (Elt Ideal))
  (x26 : (⟨Cert.ReferenceIdeal.S64x16, .f32⟩ : BufTy).Contents (Elt Ideal)) (x27 : (⟨Cert.ReferenceIdeal.S16, .f32⟩ : BufTy).Contents (Elt Ideal))
  (x28 : (⟨Cert.ReferenceIdeal.S16x1, .f32⟩ : BufTy).Contents (Elt Ideal)) (x29 : (⟨Cert.ReferenceIdeal.S1, .f32⟩ : BufTy).Contents (Elt Ideal))

/-- The first layer's gathered rows: the node rows at the wrapped source column. -/
theorem gathered9 :
    Cert.ReferenceIdeal.Read.val_main_v10 (F := Ideal) x0 x1 = Host.gather Cert.ReferenceIdeal.gather_S100000x9_S1200000x1_S1200000x9_1_0_n_n_0_1_19 x0 (Cert.ReferenceIdeal.Read.val_main_v9 (F := Ideal) x1) := rfl
/-- The second layer's gathered rows: the first node update at the wrapped source column. -/
theorem gathered128 :
    Cert.ReferenceIdeal.Read.val_main_v52 (F := Ideal) x0 x1 x2 x6 x7 x8 x9 x10 x11 x12 x13 x14 x15
      = Host.gather Cert.ReferenceIdeal.gather_S100000x128_S1200000x1_S1200000x128_1_0_n_n_0_1_1128 (Cert.ReferenceIdeal.Read.val_main_v45 (F := Ideal) x0 x1 x2 x6 x7 x8 x9 x10 x11 x12 x13 x14 x15) (Cert.ReferenceIdeal.Read.val_main_v51 (F := Ideal) x1) := rfl
/-- The mutation head's gathered rows: the second node update at the wrapped column of the 64 chosen nodes. -/
theorem gathered64 :
    Cert.ReferenceIdeal.Read.val_main_v104 (F := Ideal) x0 x1 x2 x5 x6 x7 x8 x9 x10 x11 x12 x13 x14 x15 x16 x17 x18 x19 x20 x21 x22 x23 x24 x25
      = Host.gather Cert.ReferenceIdeal.gather_S100000x64_S64x1_S64x64_1_0_n_n_0_1_164 (Cert.ReferenceIdeal.Read.val_main_v87 (F := Ideal) x0 x1 x2 x6 x7 x8 x9 x10 x11 x12 x13 x14 x15 x16 x17 x18 x19 x20 x21 x22 x23 x24 x25) (Cert.ReferenceIdeal.Read.val_main_v103 (F := Ideal) x5) := rfl
/-- The first layer's aggregate: the messages added into zeros at the destination column. -/
theorem scattered9 :
    Cert.ReferenceIdeal.Read.val_main_v19 (F := Ideal) x0 x1 x2 x6 x7
      = Host.scatterAdd (F := Ideal) (φ := .f32) Cert.ReferenceIdeal.scatter_S100000x9_S1200000x1_S1200000x9_1_0_0_1 (Cert.ReferenceIdeal.Read.val_main_v17 (F := Ideal)) (Cert.ReferenceIdeal.Read.val_main_v18 (F := Ideal) x1)
          (Cert.ReferenceIdeal.Read.val_main_v16 (F := Ideal) x0 x1 x2 x6 x7) := rfl
/-- The second layer's aggregate: the messages added into zeros at the destination column. -/
theorem scattered128 :
    Cert.ReferenceIdeal.Read.val_main_v61 (F := Ideal) x0 x1 x2 x6 x7 x8 x9 x10 x11 x12 x13 x14 x15 x16 x17
      = Host.scatterAdd (F := Ideal) (φ := .f32) Cert.ReferenceIdeal.scatter_S100000x128_S1200000x1_S1200000x128_1_0_0_1 (Cert.ReferenceIdeal.Read.val_main_v59 (F := Ideal)) (Cert.ReferenceIdeal.Read.val_main_v60 (F := Ideal) x1)
          (Cert.ReferenceIdeal.Read.val_main_v58 (F := Ideal) x0 x1 x2 x6 x7 x8 x9 x10 x11 x12 x13 x14 x15 x16 x17) := rfl

/-- The reference wraps the source indices into a column twice, the same way. -/
theorem wrapcol_same : Cert.ReferenceIdeal.Read.val_main_v51 (F := Ideal) x1 = Cert.ReferenceIdeal.Read.val_main_v9 (F := Ideal) x1 := rfl

/-- The location head's result: its one column read as a vector. -/
theorem loc_reshape :
    Cert.ReferenceIdeal.Read.val_main_v97 (F := Ideal) x0 x1 x2 x6 x7 x8 x9 x10 x11 x12 x13 x14 x15 x16 x17 x18 x19 x20 x21 x22 x23 x24 x25 x26 x27 x28 x29
      = shapeCast Cert.ReferenceIdeal.S100000 (Cert.ReferenceIdeal.Read.val_main_v96 (F := Ideal) x0 x1 x2 x6 x7 x8 x9 x10 x11 x12 x13 x14 x15 x16 x17 x18 x19 x20 x21 x22 x23 x24 x25 x26 x27 x28 x29) Cert.ReferenceIdeal.Facts₀.shapeCasts_S100000x1_S100000 := rfl
/-- The same, with the kernel program's spelling of the reshape. -/
theorem loc_reshape' :
    Cert.ReferenceIdeal.Read.val_main_v97 (F := Ideal) x0 x1 x2 x6 x7 x8 x9 x10 x11 x12 x13 x14 x15 x16 x17 x18 x19 x20 x21 x22 x23 x24 x25 x26 x27 x28 x29
      = shapeCast Cert.KernelIdeal.S100000 (Cert.ReferenceIdeal.Read.val_main_v96 (F := Ideal) x0 x1 x2 x6 x7 x8 x9 x10 x11 x12 x13 x14 x15 x16 x17 x18 x19 x20 x21 x22 x23 x24 x25 x26 x27 x28 x29) Cert.KernelIdeal.Facts₀.shapeCasts_S100000x1_S100000 := rfl

end Stages

/-! ## A bias reshaped to one row and read back as a vector -/

/-- A vector of C entries reshaped to one row of C entries holds, at column q of its row, the vector's entry q:
    both positions count q entries from the start. -/
theorem unrow_reshape {C : Nat} (x : FVec Ideal ⟨1, ![C]⟩ .f32) (h : (⟨1, ![C]⟩ : Shape).ShapeCasts ⟨2, ![1, C]⟩) :
    Cert.Bridge.unrow (C := C) (shapeCast ⟨2, ![1, C]⟩ x h) = x := by
  funext j
  exact shapeCast_apply x h (ix2 (0 : Fin 1) (j 0)) j
    (by rewrite [Shape.rowMajor_val_two, Shape.rowMajor_val_one]; show (j 0).val = 0 * C + (j 0).val; omega)

theorem unrow_reshape9 (x : FVec Ideal Cert.KernelIdeal.S9 .f32) :
    Cert.Bridge.unrow (C := 9) (shapeCast Cert.KernelIdeal.S1x9 x Cert.KernelIdeal.Facts₀.shapeCasts_S9_S1x9) = x := unrow_reshape x _
theorem unrow_reshape128 (x : FVec Ideal Cert.KernelIdeal.S128 .f32) :
    Cert.Bridge.unrow (C := 128) (shapeCast Cert.KernelIdeal.S1x128 x Cert.KernelIdeal.Facts₀.shapeCasts_S128_S1x128) = x := unrow_reshape x _
theorem unrow_reshape64 (x : FVec Ideal Cert.KernelIdeal.S64 .f32) :
    Cert.Bridge.unrow (C := 64) (shapeCast Cert.KernelIdeal.S1x64 x Cert.KernelIdeal.Facts₀.shapeCasts_S64_S1x64) = x := unrow_reshape x _
theorem unrow_reshape16 (x : FVec Ideal Cert.KernelIdeal.S16 .f32) :
    Cert.Bridge.unrow (C := 16) (shapeCast Cert.KernelIdeal.S1x16 x Cert.KernelIdeal.Facts₀.shapeCasts_S16_S1x16) = x := unrow_reshape x _
theorem unrow_reshape1 (x : FVec Ideal Cert.KernelIdeal.S1 .f32) :
    Cert.Bridge.unrow (C := 1) (shapeCast Cert.KernelIdeal.S1x1 x Cert.KernelIdeal.Facts₀.shapeCasts_S1_S1x1) = x := unrow_reshape x _

end Cert.Bridge.Shared

end
-- ==== Proof.KernelValue.lean ====
/-
  The kernel program's arrays, named stage by stage from the launch memory, and the fact that the run's boundary
  contents are these arrays. Writing x for the node features, s and d for the two rows of the edge list and t for the
  target locations: a layer gathers x at the wrapped s, forms the edges' messages, adds them up per destination d
  starting from zeros, and updates the nodes; the second layer does the same from the first layer's nodes; the location
  head reads the second layer's nodes, and the mutation head their rows gathered at the wrapped t. Under the hypothesis
  that every entry of s and of t, wrapped, lands in 0 … 99999, each gather the kernel program guards with a range test
  is the plain gather.
-/
import proofs.«428024_j38096359915723_1_alg».proof.Proof.Spec
import proofs.«428024_j38096359915723_1_alg».proof.Proof.Fold
import proofs.«428024_j38096359915723_1_alg».proof.Proof.Takes
import proofs.«428024_j38096359915723_1_alg».proof.Proof.Region0
import proofs.«428024_j38096359915723_1_alg».proof.Proof.Region1
import proofs.«428024_j38096359915723_1_alg».proof.Proof.Region2
import proofs.«428024_j38096359915723_1_alg».proof.Proof.Region3
import proofs.«428024_j38096359915723_1_alg».proof.Proof.Region4
import proofs.«428024_j38096359915723_1_alg».proof.Proof.MutHead
import proofs.«428024_j38096359915723_1_alg».proof.Proof.Shared

set_option maxRecDepth 16384

noncomputable section

namespace Cert.Bridge.KernelValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer's contents at launch. -/
abbrev at0 (b : Ref sig .tc) : Buf (Elt Ideal) ((c : Thread nD τ).loc b) := m ((c : Thread nD τ).loc b)

/-- A wrapped index in range: what the kernel program's guard tests, lane by lane. -/
def Wrapped (i : BitVec 32) : Prop :=
  (0#32).sle (if i.slt 0#32 then i + 100000#32 else i) = true ∧ (if i.slt 0#32 then i + 100000#32 else i).sle 99999#32 = true

/-- The destination indices as the column the scatter-add takes. -/
def dcol : IVec S1200000x1 32 := broadcastInDim S1200000x1 ![0] bcast_S1200000_S1200000x1_0 (Fold.kdst m c)

/-! ## The first layer -/

def kxg0 : FVec Ideal S1200000x9 .f32 :=
  Host.gather gather_S100000x9_S1200000x1_S1200000x9_1_0_n_n_0_1_19 (at0 m c main_arg0) (Takes.wrapIdx (Fold.ksrc m c))
def kmsg0 : FVec Ideal S1200000x9 .f32 :=
  Cert.Bridge.msg (C := 9) (kxg0 m c) (at0 m c main_arg2) (at0 m c main_arg6) (at0 m c main_arg7)
def kaggr0 : FVec Ideal S100000x9 .f32 :=
  Host.scatterAdd scatter_S100000x9_S1200000x1_S1200000x9_1_0_0_1
    (broadcastInDim S100000x9 ![] bcast_S_S100000x9 (constant (F := Ideal) S_ .f32 0x00000000#32)) (dcol m c) (kmsg0 m c)
def kx1 : FVec Ideal S100000x128 .f32 :=
  Cert.Bridge.node (A := 9) (H := 128) (at0 m c main_arg0) (kaggr0 m c) (at0 m c main_arg8) (at0 m c main_arg9)
    (at0 m c main_arg10) (at0 m c main_arg11) (at0 m c main_arg12) (at0 m c main_arg13) (at0 m c main_arg14) (at0 m c main_arg15)

/-! ## The second layer -/

def kxg1 : FVec Ideal S1200000x128 .f32 :=
  Host.gather gather_S100000x128_S1200000x1_S1200000x128_1_0_n_n_0_1_1128 (kx1 m c) (Takes.wrapIdx (Fold.ksrc m c))
def kmsg1 : FVec Ideal S1200000x128 .f32 :=
  Cert.Bridge.msg (C := 128) (kxg1 m c) (at0 m c main_arg2) (at0 m c main_arg16) (at0 m c main_arg17)
def kaggr1 : FVec Ideal S100000x128 .f32 :=
  Host.scatterAdd scatter_S100000x128_S1200000x1_S1200000x128_1_0_0_1
    (broadcastInDim S100000x128 ![] bcast_S_S100000x128 (constant (F := Ideal) S_ .f32 0x00000000#32)) (dcol m c) (kmsg1 m c)
def kx2 : FVec Ideal S100000x64 .f32 :=
  Cert.Bridge.node (A := 128) (H := 64) (kx1 m c) (kaggr1 m c) (at0 m c main_arg18) (at0 m c main_arg19)
    (at0 m c main_arg20) (at0 m c main_arg21) (at0 m c main_arg22) (at0 m c main_arg23) (at0 m c main_arg24) (at0 m c main_arg25)

/-! ## The heads -/

def kloc2 : FVec Ideal S100000x1 .f32 :=
  Cert.Bridge.head (R := 100000) (O := 1) (kx2 m c) (at0 m c main_arg26) (at0 m c main_arg27) (at0 m c main_arg28) (at0 m c main_arg29)
def ksel : FVec Ideal S64x64 .f32 :=
  Host.gather gather_S100000x64_S64x1_S64x64_1_0_n_n_0_1_164 (kx2 m c) (Takes.wrapIdx (at0 m c main_arg5))
def kmut : FVec Ideal S64x4 .f32 :=
  Cert.Bridge.head (R := 64) (O := 4) (ksel m c) (at0 m c main_arg30) (at0 m c main_arg31) (at0 m c main_arg32) (at0 m c main_arg33)

/-! ## The run's boundary contents are these arrays -/

section
variable (hs : ∀ e : S1200000.Idx, Wrapped (Fold.ksrc m c e)) (ht : ∀ j : S64.Idx, Wrapped ((at0 m c main_arg5 : IVec S64 32) j))
include hs

/-- The first layer's messages: what the first region leaves in its output array. -/
theorem arr0 : (dat0 (F := Ideal) (V3 m ρ) c).arrAt 4 cfg0.N = kmsg0 m c := by
  have hr : ∀ e : S1200000.Idx, Wrapped ((W1 (F := Ideal) m ρ c (Proc.devRef .tc main_v1) : IVec S1200000 32) e) := by
    intro e; rw [Fold.W1_v1 m ρ c]; exact hs e
  rw [Region0.out_eq (V3 m ρ) c, Fold.V3_v4 m ρ c, Takes.take0 (W1 m ρ c) hr, Fold.W1_arg0 m ρ c, Fold.W1_v1 m ρ c,
    Fold.V3_arg2 m ρ c, Fold.V3_arg6 m ρ c, Fold.V3_v5 m ρ c, Shared.unrow_reshape9]
  rfl

/-- The first layer's aggregate, at the second region's entry. -/
theorem aggr0 : V5 (F := Ideal) m ρ c main_v9 = kaggr0 m c := by
  rw [Fold.V5_v9 m ρ c, Fold.W4_v3 m ρ c, Fold.W4_v6 m ρ c, arr0 m ρ c hs]
  rfl

/-- The first layer's nodes: what the second region leaves. -/
theorem arr1 : (dat1 (F := Ideal) (V5 m ρ) c).arrAt 10 cfg1.N = kx1 m c := by
  rw [Region1.out_eq (V5 m ρ) c, Fold.V5_arg0 m ρ c, aggr0 m ρ c hs, Fold.V5_arg8 m ρ c, Fold.V5_v10 m ρ c, Fold.V5_v11 m ρ c,
    Fold.V5_v12 m ρ c, Fold.V5_v13 m ρ c, Fold.V5_v14 m ρ c, Fold.V5_arg14 m ρ c, Fold.V5_v15 m ρ c]
  repeat rw [Shared.unrow_reshape128]
  rfl

/-- The second layer's messages. -/
theorem arr2 : (dat2 (F := Ideal) (V8 m ρ) c).arrAt 4 cfg2.N = kmsg1 m c := by
  have hr : ∀ e : S1200000.Idx, Wrapped ((W6 (F := Ideal) m ρ c (Proc.devRef .tc main_v1) : IVec S1200000 32) e) := by
    intro e; rw [Fold.W6_v1 m ρ c]; exact hs e
  rw [Region2.out_eq (V8 m ρ) c, Fold.V8_v17 m ρ c, Takes.take1 (W6 m ρ c) hr, Fold.W6_v16 m ρ c, arr1 m ρ c hs, Fold.W6_v1 m ρ c,
    Fold.V8_arg2 m ρ c, Fold.V8_arg16 m ρ c, Fold.V8_v18 m ρ c, Shared.unrow_reshape128]
  rfl

/-- The second layer's aggregate, at the fourth region's entry. -/
theorem aggr1 : V10 (F := Ideal) m ρ c main_v22 = kaggr1 m c := by
  rw [Fold.V10_v22 m ρ c, Fold.W9_v3 m ρ c, Fold.W9_v19 m ρ c, arr2 m ρ c hs]
  rfl

/-- The second layer's nodes. -/
theorem arr3 : (dat3 (F := Ideal) (V10 m ρ) c).arrAt 10 cfg3.N = kx2 m c := by
  rw [Region3.out_eq (V10 m ρ) c, Fold.V10_v16 m ρ c, arr1 m ρ c hs, aggr1 m ρ c hs, Fold.V10_arg18 m ρ c, Fold.V10_v23 m ρ c,
    Fold.V10_v24 m ρ c, Fold.V10_v25 m ρ c, Fold.V10_v26 m ρ c, Fold.V10_v27 m ρ c, Fold.V10_arg24 m ρ c, Fold.V10_v28 m ρ c]
  repeat rw [Shared.unrow_reshape64]
  rfl

/-- The location head, as the column the last region leaves. -/
theorem arr4 : (dat4 (F := Ideal) (V12 m ρ) c).arrAt 5 cfg4.N = kloc2 m c := by
  rw [Region4.out_eq (V12 m ρ) c, Fold.V12_v29 m ρ c, arr3 m ρ c hs, Fold.V12_arg26 m ρ c, Fold.V12_v30 m ρ c, Fold.V12_arg28 m ρ c,
    Fold.V12_v31 m ρ c, Shared.unrow_reshape16, Shared.unrow_reshape1]
  rfl

/-! ## The three results at the end of the run -/

theorem result_nodes : W18 (F := Ideal) m ρ c (Proc.devRef .tc main_v29) = kx2 m c :=
  (Fold.W18_v29 m ρ c).trans (arr3 m ρ c hs)

theorem result_loc : W18 (F := Ideal) m ρ c (Proc.devRef .tc main_v33)
    = shapeCast S100000 (kloc2 m c) shapeCasts_S100000x1_S100000 := by
  rw [Fold.W18_v33 m ρ c, arr4 m ρ c hs]

include ht in
theorem result_mut : W18 (F := Ideal) m ρ c (Proc.devRef .tc main_v43) = kmut m c := by
  have hr : ∀ j : S64.Idx, Wrapped ((W14 (F := Ideal) m ρ c (Proc.devRef .tc main_arg5) : IVec S64 32) j) := by
    intro j; rw [Fold.W14_arg5 m ρ c]; exact ht j
  rw [Fold.W18_v43 m ρ c, MutHead.out_eq (W15 m ρ c), Fold.W15_v34 m ρ c, Takes.take2 (W14 m ρ c) hr, Fold.W14_v29 m ρ c,
    arr3 m ρ c hs, Fold.W14_arg5 m ρ c, Fold.W15_arg30 m ρ c, Fold.W15_arg31 m ρ c, Fold.W15_arg32 m ρ c, Fold.W15_arg33 m ρ c]
  rfl

end

end Cert.Bridge.KernelValue

end
-- ==== Proof.WrapCol.lean ====
/-
  The wrapped index column, twice. The reference turns a vector of row indices into the column its gather takes by
  adding the table's row count 100000 to every negative entry and standing the result as a column of one entry per row.
  It does so for the source row of the edge list and for the 64 chosen nodes. Each is, operation for operation, the
  wrapped index column defined once for any length: the same compare against 0, the same sum with 100000, the same
  choice, the same broadcast along the rows; only the evidence that the shapes fit is spelled differently, and that
  evidence is a proposition.
-/
import proofs.«428024_j38096359915723_1_alg».proof.Proof.Takes
import proofs.«428024_j38096359915723_1_alg».proof.Proof.Gen.ReferenceIdeal.Read

noncomputable section

namespace Cert.Bridge.Shared

open Idealize.ShloMosaic

/-- The wrapped source indices of the edge list, as the column the first gather takes. -/
theorem wrapcol9 (x1 : (⟨Cert.ReferenceIdeal.S2x1200000, .i32⟩ : BufTy).Contents (Elt Ideal)) :
    Cert.Bridge.Takes.wrapIdx (Cert.ReferenceIdeal.Read.val_main_v1 (F := Ideal) x1) = Cert.ReferenceIdeal.Read.val_main_v9 (F := Ideal) x1 := rfl

/-- The wrapped indices of the 64 chosen nodes, as the column the last gather takes. -/
theorem wrapcol64 (x5 : (⟨Cert.ReferenceIdeal.S64, .i32⟩ : BufTy).Contents (Elt Ideal)) :
    Cert.Bridge.Takes.wrapIdx x5 = Cert.ReferenceIdeal.Read.val_main_v103 (F := Ideal) x5 := rfl

end Cert.Bridge.Shared

end
-- ==== Proof.RefLayer0.lean ====
/-
  The reference program's first layer, read one operation at a time, is the specification's first layer.

  An edge's message in the reference is: the gathered source row, plus the product of the edge's attributes with the
  edge weights (a sum over the four attribute coordinates), plus the bias broadcast along the rows, clipped at zero.
  A node's update is: the node's row plus the scattered aggregate, through the first linear map (a sum over nine
  coordinates), plus a bias, minus the stored mean, times the scale, times the inverse square root of the stored
  variance offset by one fixed word, plus the shift, clipped at zero; then the second linear map (a sum over 128
  coordinates), plus a bias, clipped at zero. Operation by operation these are the specification's terms: the only
  work is to identify the index each broadcast or contraction reads with the index built from coordinates.
-/
import proofs.«428024_j38096359915723_1_alg».proof.Proof.Gen.ReferenceIdeal.Read
import proofs.«428024_j38096359915723_1_alg».proof.Proof.Spec
import Idealize.ShloMosaic.Lib.ValueIdx
import Idealize.ShloMosaic.PureOps.Ideal.Laws

noncomputable section

namespace Cert.Bridge.RefLayer0

open Cert.ReferenceIdeal Cert.ReferenceIdeal.Read Idealize.ShloMosaic Idealize.ShloMosaic.ValueIdx

/-! ## Which entry each contraction and each broadcast reads -/

/-- The edge product reads the attributes at (edge, k). -/
theorem lidx11 (p : Fin 1200000) (q : Fin 9) (k : Fin 4) : lidx_main_v11 (ix2 p q) k = ix2 p k :=
  funext fun a => Fin.ext (by match a with | ⟨0, _⟩ => rfl | ⟨1, _⟩ => rfl)
/-- The edge product reads the edge weights at (k, column). -/
theorem ridx11 (p : Fin 1200000) (q : Fin 9) (k : Fin 4) : ridx_main_v11 (ix2 p q) k = ix2 k q :=
  funext fun a => Fin.ext (by match a with | ⟨0, _⟩ => rfl | ⟨1, _⟩ => rfl)
/-- The edge bias, broadcast along the rows, is read at the column. -/
theorem idx13 (p : Fin 1200000) (q : Fin 9) : idx_main_v13 (idx_main_v14 (ix2 p q)) = ix1 q :=
  funext fun a => Fin.ext (by match a with | ⟨0, _⟩ => rfl)

/-! ## The messages -/

/-- The reference's first-layer messages are the specification's, over the gathered rows it computes. -/
theorem msg_eq
    (x0 : (⟨S100000x9, .f32⟩ : BufTy).Contents (Elt Ideal)) (x1 : (⟨S2x1200000, .i32⟩ : BufTy).Contents (Elt Ideal))
    (x2 : (⟨S1200000x4, .f32⟩ : BufTy).Contents (Elt Ideal)) (x6 : (⟨S4x9, .f32⟩ : BufTy).Contents (Elt Ideal))
    (x7 : (⟨S9, .f32⟩ : BufTy).Contents (Elt Ideal)) :
    Cert.Bridge.msg (C := 9) (val_main_v10 (F := Ideal) x0 x1) x2 x6 x7 = val_main_v16 (F := Ideal) x0 x1 x2 x6 x7 := by
  funext i
  obtain ⟨p, q, rfl⟩ : ∃ (p : Fin 1200000) (q : Fin 9), i = ix2 p q := ⟨i 0, i 1, eq_ix2 i⟩
  rw [val_main_v16_apply, val_main_v15_apply, val_main_v12_apply, val_main_v11_apply, val_main_v14_apply,
    val_main_v13_apply, val_main_call0_v0_apply, val_main_call0_cst_apply]
  simp only [lidx11, ridx11, idx13, Cert.Bridge.msg, Cert.Bridge.msgAt, Ideal.addf_def, Ideal.maximumf_def,
    Ideal.ofBits_def]

/-! ## Which entry each contraction and each broadcast of the node update reads -/

/-- The first linear map reads the node's row plus aggregate at (node, k). -/
theorem lidx21 (p : Fin 100000) (h : Fin 128) (k : Fin 9) : lidx_main_v21 (ix2 p h) k = ix2 p k :=
  funext fun a => Fin.ext (by match a with | ⟨0, _⟩ => rfl | ⟨1, _⟩ => rfl)
/-- The first linear map reads its weights at (k, hidden column). -/
theorem ridx21 (p : Fin 100000) (h : Fin 128) (k : Fin 9) : ridx_main_v21 (ix2 p h) k = ix2 k h :=
  funext fun a => Fin.ext (by match a with | ⟨0, _⟩ => rfl | ⟨1, _⟩ => rfl)
/-- The first bias, broadcast along the rows, is read at the hidden column. -/
theorem idx22 (p : Fin 100000) (h : Fin 128) : idx_main_v22 (idx_main_v23 (ix2 p h)) = ix1 h :=
  funext fun a => Fin.ext (by match a with | ⟨0, _⟩ => rfl)
/-- The stored mean, broadcast along the rows, is read at the hidden column. -/
theorem idx25 (p : Fin 100000) (h : Fin 128) : idx_main_v25 (idx_main_v26 (ix2 p h)) = ix1 h :=
  funext fun a => Fin.ext (by match a with | ⟨0, _⟩ => rfl)
/-- The scale, broadcast along the rows, is read at the hidden column. -/
theorem idx28 (p : Fin 100000) (h : Fin 128) : idx_main_v28 (idx_main_v29 (ix2 p h)) = ix1 h :=
  funext fun a => Fin.ext (by match a with | ⟨0, _⟩ => rfl)
/-- The inverse square root of the offset variance, broadcast along the rows, is read at the hidden column. -/
theorem idx34 (p : Fin 100000) (h : Fin 128) : idx_main_v34 (idx_main_v35 (ix2 p h)) = ix1 h :=
  funext fun a => Fin.ext (by match a with | ⟨0, _⟩ => rfl)
/-- The shift, broadcast along the rows, is read at the hidden column. -/
theorem idx37 (p : Fin 100000) (h : Fin 128) : idx_main_v37 (idx_main_v38 (ix2 p h)) = ix1 h :=
  funext fun a => Fin.ext (by match a with | ⟨0, _⟩ => rfl)
/-- The second linear map reads the hidden layer at (node, h). -/
theorem lidx41 (p : Fin 100000) (q h : Fin 128) : lidx_main_v41 (ix2 p q) h = ix2 p h :=
  funext fun a => Fin.ext (by match a with | ⟨0, _⟩ => rfl | ⟨1, _⟩ => rfl)
/-- The second linear map reads its weights at (h, column). -/
theorem ridx41 (p : Fin 100000) (q h : Fin 128) : ridx_main_v41 (ix2 p q) h = ix2 h q :=
  funext fun a => Fin.ext (by match a with | ⟨0, _⟩ => rfl | ⟨1, _⟩ => rfl)
/-- The second bias, broadcast along the rows, is read at the column. -/
theorem idx42 (p : Fin 100000) (q : Fin 128) : idx_main_v42 (idx_main_v43 (ix2 p q)) = ix1 q :=
  funext fun a => Fin.ext (by match a with | ⟨0, _⟩ => rfl)

/-! ## The node update -/

/-- The reference's first-layer node update is the specification's, over the scattered aggregate it computes. -/
theorem node_eq
    (x0 : (⟨S100000x9, .f32⟩ : BufTy).Contents (Elt Ideal)) (x1 : (⟨S2x1200000, .i32⟩ : BufTy).Contents (Elt Ideal))
    (x2 : (⟨S1200000x4, .f32⟩ : BufTy).Contents (Elt Ideal)) (x6 : (⟨S4x9, .f32⟩ : BufTy).Contents (Elt Ideal))
    (x7 : (⟨S9, .f32⟩ : BufTy).Contents (Elt Ideal)) (x8 : (⟨S9x128, .f32⟩ : BufTy).Contents (Elt Ideal))
    (x9 x10 x11 x12 x13 : (⟨S128, .f32⟩ : BufTy).Contents (Elt Ideal))
    (x14 : (⟨S128x128, .f32⟩ : BufTy).Contents (Elt Ideal)) (x15 : (⟨S128, .f32⟩ : BufTy).Contents (Elt Ideal)) :
    Cert.Bridge.node (A := 9) (H := 128) x0 (val_main_v19 (F := Ideal) x0 x1 x2 x6 x7) x8 x9 x10 x11 x12 x13 x14 x15
      = val_main_v45 (F := Ideal) x0 x1 x2 x6 x7 x8 x9 x10 x11 x12 x13 x14 x15 := by
  funext i
  obtain ⟨p, q, rfl⟩ : ∃ (p : Fin 100000) (q : Fin 128), i = ix2 p q := ⟨i 0, i 1, eq_ix2 i⟩
  simp only [val_main_v45_apply, val_main_v44_apply, val_main_v41_apply, val_main_v40_apply, val_main_v39_apply,
    val_main_v36_apply, val_main_v30_apply, val_main_v29_apply, val_main_v28_apply, val_main_v27_apply,
    val_main_v24_apply, val_main_v21_apply, val_main_v20_apply, val_main_v23_apply, val_main_v22_apply,
    val_main_v26_apply, val_main_v25_apply, val_main_v35_apply, val_main_v34_apply, val_main_v33_apply,
    val_main_v32_apply, val_main_v31_apply, val_main_cst_1_apply, val_main_v38_apply, val_main_v37_apply,
    val_main_v43_apply, val_main_v42_apply, val_main_call1_v0_apply, val_main_call1_cst_apply,
    val_main_call2_v0_apply, val_main_call2_cst_apply,
    lidx21, ridx21, idx22, idx25, idx28, idx34, idx37, lidx41, ridx41, idx42,
    Cert.Bridge.node, Cert.Bridge.nodeAt, Cert.Bridge.hiddenAt, Ideal.addf_def, Ideal.subf_def, Ideal.mulf_def,
    Ideal.maximumf_def, Ideal.hostUnary_rsqrt_def, Ideal.ofBits_def]

end Cert.Bridge.RefLayer0

end
-- ==== Proof.RefLayer1.lean ====
/-
  The reference program's second-layer message, second-layer node update, location head and mutation head, each read
  entry by entry: the value the reference writes at an index is the specification's function of the same arrays at
  that index. The gathered rows and the aggregated messages stay whole arrays; every other operation is pointwise, a
  broadcast of a bias row, or a matrix product read as the sum over its contracted coordinate, so each equation is a
  reading of indices and nothing else.
-/
import proofs.«428024_j38096359915723_1_alg».proof.Proof.Gen.ReferenceIdeal.Read
import proofs.«428024_j38096359915723_1_alg».proof.Proof.Spec
import Idealize.ShloMosaic.Lib.ValueIdx
import Idealize.ShloMosaic.PureOps.Ideal.Laws

noncomputable section

namespace Cert.Bridge.RefLayer1

open Idealize.ShloMosaic Idealize.ShloMosaic.ValueIdx Cert.ReferenceIdeal Cert.ReferenceIdeal.Read

variable (x0 : (⟨S100000x9, .f32⟩ : BufTy).Contents (Elt Ideal)) (x1 : (⟨S2x1200000, .i32⟩ : BufTy).Contents (Elt Ideal))
  (x2 : (⟨S1200000x4, .f32⟩ : BufTy).Contents (Elt Ideal)) (x5 : (⟨S64, .i32⟩ : BufTy).Contents (Elt Ideal))
  (x6 : (⟨S4x9, .f32⟩ : BufTy).Contents (Elt Ideal)) (x7 : (⟨S9, .f32⟩ : BufTy).Contents (Elt Ideal))
  (x8 : (⟨S9x128, .f32⟩ : BufTy).Contents (Elt Ideal)) (x9 x10 x11 x12 x13 : (⟨S128, .f32⟩ : BufTy).Contents (Elt Ideal))
  (x14 : (⟨S128x128, .f32⟩ : BufTy).Contents (Elt Ideal)) (x15 : (⟨S128, .f32⟩ : BufTy).Contents (Elt Ideal))
  (x16 : (⟨S4x128, .f32⟩ : BufTy).Contents (Elt Ideal)) (x17 : (⟨S128, .f32⟩ : BufTy).Contents (Elt Ideal))
  (x18 : (⟨S128x64, .f32⟩ : BufTy).Contents (Elt Ideal)) (x19 x20 x21 x22 x23 : (⟨S64, .f32⟩ : BufTy).Contents (Elt Ideal))
  (x24 : (⟨S64x64, .f32⟩ : BufTy).Contents (Elt Ideal)) (x25 : (⟨S64, .f32⟩ : BufTy).Contents (Elt Ideal))
  (x26 : (⟨S64x16, .f32⟩ : BufTy).Contents (Elt Ideal)) (x27 : (⟨S16, .f32⟩ : BufTy).Contents (Elt Ideal))
  (x28 : (⟨S16x1, .f32⟩ : BufTy).Contents (Elt Ideal)) (x29 : (⟨S1, .f32⟩ : BufTy).Contents (Elt Ideal))
  (x30 : (⟨S64x16, .f32⟩ : BufTy).Contents (Elt Ideal)) (x31 : (⟨S16, .f32⟩ : BufTy).Contents (Elt Ideal))
  (x32 : (⟨S16x4, .f32⟩ : BufTy).Contents (Elt Ideal)) (x33 : (⟨S4, .f32⟩ : BufTy).Contents (Elt Ideal))

/-! ## The second layer's messages -/

/-- The left operand's index in the product of the edge attributes with the edge weights: row of the result, contracted coordinate. -/
theorem lidx53 (i : S1200000x128.Idx) (k : Fin 4) : lidx_main_v53 i k = ix2 (i 0) k :=
  funext fun a => Fin.ext (by match a with | ⟨0, _⟩ => rfl | ⟨1, _⟩ => rfl)
/-- The right operand's index in that product: contracted coordinate, column of the result. -/
theorem ridx53 (i : S1200000x128.Idx) (k : Fin 4) : ridx_main_v53 i k = ix2 k (i 1) :=
  funext fun a => Fin.ext (by match a with | ⟨0, _⟩ => rfl | ⟨1, _⟩ => rfl)
/-- The message bias, broadcast to a row and then to every edge, is read at the result's column. -/
theorem bidx56 (i : S1200000x128.Idx) : idx_main_v55 (idx_main_v56 i) = ix1 (i 1) :=
  funext fun a => Fin.ext (by match a with | ⟨0, _⟩ => rfl)

/-- The reference's second-layer messages are the specification's messages of the gathered rows, the edge attributes,
    the edge weights and the message bias. -/
theorem msg_eq :
    Cert.Bridge.msg (C := 128) (val_main_v52 (F := Ideal) x0 x1 x2 x6 x7 x8 x9 x10 x11 x12 x13 x14 x15) x2 x16 x17
      = val_main_v58 (F := Ideal) x0 x1 x2 x6 x7 x8 x9 x10 x11 x12 x13 x14 x15 x16 x17 := by
  funext i
  obtain ⟨p, q, rfl⟩ : ∃ (p : Fin 1200000) (q : Fin 128), i = ix2 p q := ⟨i 0, i 1, eq_ix2 i⟩
  rw [val_main_v58_apply, val_main_v57_apply, val_main_v54_apply, val_main_v53_apply, val_main_v56_apply, val_main_v55_apply,
    val_main_call3_v0_apply, val_main_call3_cst_apply]
  simp only [Cert.Bridge.msg, Cert.Bridge.msgAt, lidx53, ridx53, bidx56, Ideal.ofBits_def, Ideal.addf_def, Ideal.maximumf_def]
  rfl

/-! ## The second layer's node update -/

/-- The left operand's index in the first product of the node update: row of the result, contracted coordinate. -/
theorem lidx63 (j : S100000x64.Idx) (k : Fin 128) : lidx_main_v63 j k = ix2 (n0 := 100000) (n1 := 128) (j 0) k :=
  funext fun a => Fin.ext (by match a with | ⟨0, _⟩ => rfl | ⟨1, _⟩ => rfl)
/-- The right operand's index in that product: contracted coordinate, column of the result. -/
theorem ridx63 (j : S100000x64.Idx) (k : Fin 128) : ridx_main_v63 j k = ix2 (n0 := 128) (n1 := 64) k (j 1) :=
  funext fun a => Fin.ext (by match a with | ⟨0, _⟩ => rfl | ⟨1, _⟩ => rfl)
/-- The left operand's index in the second product of the node update. -/
theorem lidx83 (j : S100000x64.Idx) (k : Fin 64) : lidx_main_v83 j k = ix2 (n0 := 100000) (n1 := 64) (j 0) k :=
  funext fun a => Fin.ext (by match a with | ⟨0, _⟩ => rfl | ⟨1, _⟩ => rfl)
/-- The right operand's index in the second product of the node update. -/
theorem ridx83 (j : S100000x64.Idx) (k : Fin 64) : ridx_main_v83 j k = ix2 (n0 := 64) (n1 := 64) k (j 1) :=
  funext fun a => Fin.ext (by match a with | ⟨0, _⟩ => rfl | ⟨1, _⟩ => rfl)
/-- The first bias, broadcast to a row and then over the nodes, is read at the result's column. -/
theorem bidx65 (j : S100000x64.Idx) : idx_main_v64 (idx_main_v65 j) = ix1 (n := 64) (j 1) :=
  funext fun a => Fin.ext (by match a with | ⟨0, _⟩ => rfl)
/-- The stored mean is read at the result's column. -/
theorem bidx68 (j : S100000x64.Idx) : idx_main_v67 (idx_main_v68 j) = ix1 (n := 64) (j 1) :=
  funext fun a => Fin.ext (by match a with | ⟨0, _⟩ => rfl)
/-- The scale is read at the result's column. -/
theorem bidx71 (j : S100000x64.Idx) : idx_main_v70 (idx_main_v71 j) = ix1 (n := 64) (j 1) :=
  funext fun a => Fin.ext (by match a with | ⟨0, _⟩ => rfl)
/-- The inverse root of the offset variance is read at the result's column. -/
theorem bidx77 (j : S100000x64.Idx) : idx_main_v76 (idx_main_v77 j) = ix1 (n := 64) (j 1) :=
  funext fun a => Fin.ext (by match a with | ⟨0, _⟩ => rfl)
/-- The shift is read at the result's column. -/
theorem bidx80 (j : S100000x64.Idx) : idx_main_v79 (idx_main_v80 j) = ix1 (n := 64) (j 1) :=
  funext fun a => Fin.ext (by match a with | ⟨0, _⟩ => rfl)
/-- The second bias is read at the result's column. -/
theorem bidx85 (j : S100000x64.Idx) : idx_main_v84 (idx_main_v85 j) = ix1 (n := 64) (j 1) :=
  funext fun a => Fin.ext (by match a with | ⟨0, _⟩ => rfl)

/-- The reference's second-layer node update is the specification's node update of the node rows, the aggregated
    messages and the update's weights, biases and stored statistics. -/
theorem node_eq :
    Cert.Bridge.node (A := 128) (H := 64) (val_main_v45 (F := Ideal) x0 x1 x2 x6 x7 x8 x9 x10 x11 x12 x13 x14 x15)
        (val_main_v61 (F := Ideal) x0 x1 x2 x6 x7 x8 x9 x10 x11 x12 x13 x14 x15 x16 x17) x18 x19 x20 x21 x22 x23 x24 x25
      = val_main_v87 (F := Ideal) x0 x1 x2 x6 x7 x8 x9 x10 x11 x12 x13 x14 x15 x16 x17 x18 x19 x20 x21 x22 x23 x24 x25 := by
  funext i
  obtain ⟨p, q, rfl⟩ : ∃ (p : Fin 100000) (q : Fin 64), i = ix2 p q := ⟨i 0, i 1, eq_ix2 i⟩
  simp only [val_main_v87_apply, val_main_v86_apply, val_main_v83_apply, val_main_v82_apply, val_main_v81_apply,
    val_main_v78_apply, val_main_v72_apply, val_main_v71_apply, val_main_v70_apply, val_main_v69_apply, val_main_v66_apply,
    val_main_v63_apply, val_main_v62_apply, val_main_v65_apply, val_main_v64_apply, val_main_v68_apply, val_main_v67_apply,
    val_main_v77_apply, val_main_v76_apply, val_main_v75_apply, val_main_v74_apply, val_main_v73_apply, val_main_cst_5_apply,
    val_main_v80_apply, val_main_v79_apply, val_main_call4_v0_apply, val_main_call4_cst_apply, val_main_v85_apply,
    val_main_v84_apply, val_main_call5_v0_apply, val_main_call5_cst_apply]
  simp only [Cert.Bridge.node, Cert.Bridge.nodeAt, Cert.Bridge.hiddenAt, lidx63, ridx63, lidx83, ridx83, bidx65, bidx68,
    bidx71, bidx77, bidx80, bidx85, Ideal.ofBits_def, Ideal.addf_def, Ideal.subf_def, Ideal.mulf_def, Ideal.maximumf_def,
    Ideal.hostUnary_rsqrt_def]

/-! ## The location head -/

/-- The left operand's index in the head's first product: row of the result, contracted coordinate. -/
theorem lidx88 (j : S100000x16.Idx) (k : Fin 64) : lidx_main_v88 j k = ix2 (n0 := 100000) (n1 := 64) (j 0) k :=
  funext fun a => Fin.ext (by match a with | ⟨0, _⟩ => rfl | ⟨1, _⟩ => rfl)
/-- The right operand's index in the head's first product: contracted coordinate, column of the result. -/
theorem ridx88 (j : S100000x16.Idx) (k : Fin 64) : ridx_main_v88 j k = ix2 (n0 := 64) (n1 := 16) k (j 1) :=
  funext fun a => Fin.ext (by match a with | ⟨0, _⟩ => rfl | ⟨1, _⟩ => rfl)
/-- The hidden bias of the head, broadcast over the nodes, is read at the hidden column. -/
theorem bidx90 (j : S100000x16.Idx) : idx_main_v89 (idx_main_v90 j) = ix1 (n := 16) (j 1) :=
  funext fun a => Fin.ext (by match a with | ⟨0, _⟩ => rfl)
/-- The left operand's index in the head's second product. -/
theorem lidx93 (j : S100000x1.Idx) (k : Fin 16) : lidx_main_v93 j k = ix2 (n0 := 100000) (n1 := 16) (j 0) k :=
  funext fun a => Fin.ext (by match a with | ⟨0, _⟩ => rfl | ⟨1, _⟩ => rfl)
/-- The right operand's index in the head's second product. -/
theorem ridx93 (j : S100000x1.Idx) (k : Fin 16) : ridx_main_v93 j k = ix2 (n0 := 16) (n1 := 1) k (j 1) :=
  funext fun a => Fin.ext (by match a with | ⟨0, _⟩ => rfl | ⟨1, _⟩ => rfl)
/-- The output bias has one entry, and the result one column: the bias is read at that column. -/
theorem bidx95 (j : S100000x1.Idx) : idx_main_v94 (idx_main_v95 j) = ix1 (n := 1) (j 1) :=
  funext fun a => Fin.ext (by
    match a with
    | ⟨0, _⟩ =>
      have h : (j 1).val < 1 := idx2_lt1 j
      show 0 = (j 1).val
      omega)

/-- The reference's location head, before its column is dropped, is the specification's head of the updated node rows. -/
theorem loc_eq :
    Cert.Bridge.head (R := 100000) (O := 1) (val_main_v87 (F := Ideal) x0 x1 x2 x6 x7 x8 x9 x10 x11 x12 x13 x14 x15 x16 x17 x18 x19 x20 x21 x22 x23 x24 x25) x26 x27 x28 x29
      = val_main_v96 (F := Ideal) x0 x1 x2 x6 x7 x8 x9 x10 x11 x12 x13 x14 x15 x16 x17 x18 x19 x20 x21 x22 x23 x24 x25 x26 x27 x28 x29 := by
  funext i
  obtain ⟨p, q, rfl⟩ : ∃ (p : Fin 100000) (q : Fin 1), i = ix2 p q := ⟨i 0, i 1, eq_ix2 i⟩
  simp only [val_main_v96_apply, val_main_v93_apply, val_main_v92_apply, val_main_v91_apply, val_main_v88_apply,
    val_main_v90_apply, val_main_v89_apply, val_main_call6_v0_apply, val_main_call6_cst_apply, val_main_v95_apply,
    val_main_v94_apply]
  simp only [Cert.Bridge.head, Cert.Bridge.headAt, lidx88, ridx88, bidx90, lidx93, ridx93, bidx95,
    Ideal.ofBits_def, Ideal.addf_def, Ideal.mulf_def, Ideal.maximumf_def]

/-! ## The mutation head -/

/-- The left operand's index in the head's first product: row of the result, contracted coordinate. -/
theorem lidx105 (j : S64x16.Idx) (k : Fin 64) : lidx_main_v105 j k = ix2 (n0 := 64) (n1 := 64) (j 0) k :=
  funext fun a => Fin.ext (by match a with | ⟨0, _⟩ => rfl | ⟨1, _⟩ => rfl)
/-- The right operand's index in the head's first product: contracted coordinate, column of the result. -/
theorem ridx105 (j : S64x16.Idx) (k : Fin 64) : ridx_main_v105 j k = ix2 (n0 := 64) (n1 := 16) k (j 1) :=
  funext fun a => Fin.ext (by match a with | ⟨0, _⟩ => rfl | ⟨1, _⟩ => rfl)
/-- The hidden bias of the head, broadcast over the gathered rows, is read at the hidden column. -/
theorem bidx107 (j : S64x16.Idx) : idx_main_v106 (idx_main_v107 j) = ix1 (n := 16) (j 1) :=
  funext fun a => Fin.ext (by match a with | ⟨0, _⟩ => rfl)
/-- The left operand's index in the head's second product. -/
theorem lidx110 (j : S64x4.Idx) (k : Fin 16) : lidx_main_v110 j k = ix2 (n0 := 64) (n1 := 16) (j 0) k :=
  funext fun a => Fin.ext (by match a with | ⟨0, _⟩ => rfl | ⟨1, _⟩ => rfl)
/-- The right operand's index in the head's second product. -/
theorem ridx110 (j : S64x4.Idx) (k : Fin 16) : ridx_main_v110 j k = ix2 (n0 := 16) (n1 := 4) k (j 1) :=
  funext fun a => Fin.ext (by match a with | ⟨0, _⟩ => rfl | ⟨1, _⟩ => rfl)
/-- The output bias, broadcast over the gathered rows, is read at the result's column. -/
theorem bidx112 (j : S64x4.Idx) : idx_main_v111 (idx_main_v112 j) = ix1 (n := 4) (j 1) :=
  funext fun a => Fin.ext (by match a with | ⟨0, _⟩ => rfl)

/-- The reference's mutation head is the specification's head of the gathered updated rows. -/
theorem mut_eq :
    Cert.Bridge.head (R := 64) (O := 4) (val_main_v104 (F := Ideal) x0 x1 x2 x5 x6 x7 x8 x9 x10 x11 x12 x13 x14 x15 x16 x17 x18 x19 x20 x21 x22 x23 x24 x25) x30 x31 x32 x33
      = val_main_v113 (F := Ideal) x0 x1 x2 x5 x6 x7 x8 x9 x10 x11 x12 x13 x14 x15 x16 x17 x18 x19 x20 x21 x22 x23 x24 x25 x30 x31 x32 x33 := by
  funext i
  obtain ⟨p, q, rfl⟩ : ∃ (p : Fin 64) (q : Fin 4), i = ix2 p q := ⟨i 0, i 1, eq_ix2 i⟩
  simp only [val_main_v113_apply, val_main_v110_apply, val_main_v109_apply, val_main_v108_apply, val_main_v105_apply,
    val_main_v107_apply, val_main_v106_apply, val_main_call7_v0_apply, val_main_call7_cst_apply, val_main_v112_apply,
    val_main_v111_apply]
  simp only [Cert.Bridge.head, Cert.Bridge.headAt, lidx105, ridx105, bidx107, lidx110, ridx110, bidx112,
    Ideal.ofBits_def, Ideal.addf_def, Ideal.mulf_def, Ideal.maximumf_def]

end Cert.Bridge.RefLayer1

end
-- ==== Proof.Meet.lean ====
/-
  Each array of the kernel program, as named from the launch memory, is the array the reference computes at the same
  stage from the same arguments. The two programs slice the edge list, wrap and broadcast the indices, gather rows,
  start each sum over edges from zeros and add per destination with the same whole-array operations, so those stages
  meet once their operands do; each dense stage meets through the common function both sides were shown to compute.
-/
import proofs.«428024_j38096359915723_1_alg».proof.Proof.KernelValue
import proofs.«428024_j38096359915723_1_alg».proof.Proof.Shared
import proofs.«428024_j38096359915723_1_alg».proof.Proof.WrapCol
import proofs.«428024_j38096359915723_1_alg».proof.Proof.RefLayer0
import proofs.«428024_j38096359915723_1_alg».proof.Proof.RefLayer1

set_option maxRecDepth 16384

noncomputable section

namespace Cert.Bridge.Meet

open Cert.KernelIdeal Cert.KernelIdeal.Gen Cert.Bridge.KernelValue
open Idealize.ShloMosaic Idealize.ShloMosaic.TcCoe Idealize.SL.Sem

variable (m : (ℓ : Loc nD τ sig) → Buf (Elt Ideal) ℓ) (c : Dev nD)

/-! ## Indices -/

theorem src_meet : Fold.ksrc m c = Cert.ReferenceIdeal.Read.val_main_v1 (F := Ideal) (at0 m c main_arg1) := by
  unfold Fold.ksrc; exact Shared.src_eq _

theorem wrap_meet : Takes.wrapIdx (Fold.ksrc m c) = Cert.ReferenceIdeal.Read.val_main_v9 (F := Ideal) (at0 m c main_arg1) := by
  rw [src_meet m c]; exact Shared.wrapcol9 _

theorem dcol_meet : dcol m c = Cert.ReferenceIdeal.Read.val_main_v18 (F := Ideal) (at0 m c main_arg1) := by
  unfold dcol Fold.kdst; exact Shared.dstcol_eq _

theorem dcol_meet' : dcol m c = Cert.ReferenceIdeal.Read.val_main_v60 (F := Ideal) (at0 m c main_arg1) := by
  unfold dcol Fold.kdst; exact Shared.dstcol_eq' _

/-! ## The first layer -/

theorem xg0_meet : kxg0 m c = Cert.ReferenceIdeal.Read.val_main_v10 (F := Ideal) (at0 m c main_arg0) (at0 m c main_arg1) := by
  unfold kxg0; rw [wrap_meet m c, Shared.gather9_app, ← Shared.gathered9]

theorem msg0_meet : kmsg0 m c = Cert.ReferenceIdeal.Read.val_main_v16 (F := Ideal) (at0 m c main_arg0) (at0 m c main_arg1) (at0 m c main_arg2) (at0 m c main_arg6) (at0 m c main_arg7) := by
  unfold kmsg0; rw [xg0_meet m c]; exact RefLayer0.msg_eq _ _ _ _ _

theorem aggr0_meet : kaggr0 m c = Cert.ReferenceIdeal.Read.val_main_v19 (F := Ideal) (at0 m c main_arg0) (at0 m c main_arg1) (at0 m c main_arg2) (at0 m c main_arg6) (at0 m c main_arg7) := by
  unfold kaggr0; rw [msg0_meet m c, dcol_meet m c, Shared.zeros9, Shared.scatter9_app, ← Shared.scattered9]

theorem x1_meet : kx1 m c = Cert.ReferenceIdeal.Read.val_main_v45 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) := by
  unfold kx1; rw [aggr0_meet m c]; exact RefLayer0.node_eq _ _ _ _ _ _ _ _ _ _ _ _ _

/-! ## The second layer -/

theorem xg1_meet : kxg1 m c = Cert.ReferenceIdeal.Read.val_main_v52 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) := by
  unfold kxg1; rw [x1_meet m c, wrap_meet m c, ← Shared.wrapcol_same, Shared.gather128_app, ← Shared.gathered128]

theorem msg1_meet : kmsg1 m c = Cert.ReferenceIdeal.Read.val_main_v58 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) := by
  unfold kmsg1; rw [xg1_meet m c]; exact RefLayer1.msg_eq ..

theorem aggr1_meet : kaggr1 m c = Cert.ReferenceIdeal.Read.val_main_v61 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) := by
  unfold kaggr1; rw [msg1_meet m c, dcol_meet' m c, Shared.zeros128, Shared.scatter128_app, ← Shared.scattered128]

theorem x2_meet : kx2 m c = Cert.ReferenceIdeal.Read.val_main_v87 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) := by
  unfold kx2; rw [x1_meet m c, aggr1_meet m c]; exact RefLayer1.node_eq ..

/-! ## The heads -/

theorem loc2_meet : kloc2 m c = Cert.ReferenceIdeal.Read.val_main_v96 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg26) (at0 m c main_arg27) (at0 m c main_arg28) (at0 m c main_arg29) := by
  unfold kloc2; rw [x2_meet m c]; exact RefLayer1.loc_eq ..

theorem loc_meet : shapeCast S100000 (kloc2 m c) shapeCasts_S100000x1_S100000
    = Cert.ReferenceIdeal.Read.val_main_v97 (F := Ideal) (at0 m c main_arg0) (at0 m c main_arg1) (at0 m c main_arg2) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg26) (at0 m c main_arg27) (at0 m c main_arg28) (at0 m c main_arg29) := by
  rw [loc2_meet m c]; exact (Shared.loc_reshape' ..).symm

theorem sel_meet : ksel m c = Cert.ReferenceIdeal.Read.val_main_v104 (F := Ideal) (at0 m c main_arg0) (at0 m c main_arg1) (at0 m c main_arg2) (at0 m c main_arg5) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) := by
  unfold ksel; rw [x2_meet m c, Shared.wrapcol64, Shared.gather64_app, ← Shared.gathered64]

theorem mut_meet : kmut m c = Cert.ReferenceIdeal.Read.val_main_v113 (F := Ideal) (at0 m c main_arg0) (at0 m c main_arg1) (at0 m c main_arg2) (at0 m c main_arg5) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg30) (at0 m c main_arg31) (at0 m c main_arg32) (at0 m c main_arg33) := by
  unfold kmut; rw [sel_meet m c]; exact RefLayer1.mut_eq ..

end Cert.Bridge.Meet

end
-- ==== Proof.IndexRange.lean ====
/-
  The two index ranges the precondition grants.

  The precondition is a conjunction of bits. All but the last two say that the floating-point inputs are finite; they
  are carried here as one unnamed bit and never read. The last two say that every source index of the edge list (row 0
  of the 2 x 1200000 index array) and every target index (the 64 words) is at least -100000 and below 100000, read
  signed: each is "for all lanes" of a lane test, and a lane test that holds says the two comparisons hold at that lane.

  An index in that range, wrapped by "add 100000 when negative", lands in [0, 99999]: the row it names exists.
-/
import proofs.«428024_j38096359915723_1_alg».proof.Pre_finite_inputs
import proofs.«428024_j38096359915723_1_alg».proof.Proof.Gen.Pre_finite_inputs
import Idealize.ShloMosaic.Lib.StableHlo.Predicate
import Idealize.ShloMosaic.Lib.ReduceAll
import Idealize.ShloMosaic.Lib.ValueIdx

noncomputable section

namespace Cert.Bridge.IndexRange

open Idealize.ShloMosaic Cert.Pre_finite_inputs Cert.Pre_finite_inputs.Facts

/-! ## The wrap -/

/-- A signed 32-bit index in [-100000, 100000), wrapped by "add 100000 when negative", lands in [0, 99999]. The lower
    bound is the 32-bit word of -100000. -/
theorem wrap_in_range (i : BitVec 32) (hlo : (4294867296#32).sle i = true) (hhi : i.slt 100000#32 = true) :
    (0#32).sle (if i.slt 0#32 then i + 100000#32 else i) = true
    ∧ (if i.slt 0#32 then i + 100000#32 else i).sle 99999#32 = true := by
  simp only [BitVec.sle, BitVec.slt, decide_eq_true_eq] at hlo hhi ⊢
  have h1 : (4294867296#32 : BitVec 32).toInt = -100000 := by decide
  have h2 : (100000#32 : BitVec 32).toInt = 100000 := by decide
  have h3 : (99999#32 : BitVec 32).toInt = 99999 := by decide
  have h0 : (0#32 : BitVec 32).toInt = 0 := by decide
  rw [h1] at hlo; rw [h2] at hhi; rw [h0, h3]
  by_cases hn : i.toInt < 0
  · rw [if_pos hn]
    -- no wrap-around: the sum of the two signed values is itself a signed 32-bit value
    have hadd : (i + 100000#32).toInt = i.toInt + 100000 := by
      rw [BitVec.toInt_add, h2]
      apply Int.bmod_eq_of_le_mul_two <;> first | omega | (push_cast; omega) | (norm_num; omega)
    rw [hadd]; omega
  · rw [if_neg hn]
    omega

/-! ## The lane test -/

/-- The lane test of the precondition over any shape: at least -100000 and below 100000, read signed, both bounds
    scalars laid over the shape. -/
def inRange {s : Shape} (x : IVec s 32) (hb : S_.BroadcastsInDim s (![] : Fin 0 → Fin s.rank)) : IVec s 1 :=
  andi (cmpi .sge x (broadcastInDim s ![] hb (constantI S_ 32 4294867296#32)))
    (cmpi .slt x (broadcastInDim s ![] hb (constantI S_ 32 100000#32)))

/-- A lane at which the test holds is in range: the bound laid over the shape reads as the bound at every lane, "at
    least" is the bound below-or-equal the lane, "below" is the lane strictly below the bound. -/
theorem inRange_lane {s : Shape} (x : IVec s 32) (hb : S_.BroadcastsInDim s (![] : Fin 0 → Fin s.rank)) (i : s.Idx)
    (h : inRange x hb i = 1#1) : (4294867296#32).sle (x i) = true ∧ (x i).slt 100000#32 = true := by
  have h' : IntOp.andi (IntOp.cmpi .sge (x i) (broadcastInDim s ![] hb (constantI S_ 32 4294867296#32) i))
      (IntOp.cmpi .slt (x i) (broadcastInDim s ![] hb (constantI S_ 32 100000#32) i)) = 1#1 := h
  rw [StableHlo.Predicate.bcast_scalar hb h_S_, StableHlo.Predicate.bcast_scalar hb h_S_, IntOp.andi_eq_one] at h'
  obtain ⟨hlo, hhi⟩ := h'
  unfold IntOp.cmpi at hlo hhi
  rw [StableHlo.Predicate.ofBool_eq_one_iff] at hlo hhi
  exact ⟨hlo, hhi⟩

/-! ## The precondition, its last two conjuncts apart -/

/-- Row 0 of the edge list as a vector of 1200000 words: the source index of every edge. -/
def srcOf (a1 : IVec S2x1200000 32) : IVec S1200000 32 :=
  shapeCast S1200000 ((extractStridedSlice S1x1200000 ![0, 0] · slices_S2x1200000_S1x1200000_0_0) a1) shapeCasts_S1x1200000_S1200000

/-- A scalar shape has one index. -/
local instance : Subsingleton S_.Idx := ⟨fun a b => funext fun d => d.elim0⟩

/-- The precondition is a conjunction of three bits: one that the finiteness tests make, "every source index is in
    range", "every target index is in range". The first is left as it is. -/
theorem fn_eq {F : FTy → Type} [FloatOps F] (a0 : FVec F S100000x9 .f32) (a1 : IVec S2x1200000 32) (a2 : FVec F S1200000x4 .f32) (a3 : IVec S100000 32) (a4 : IVec S65 32) (a5 : IVec S64 32) (a6 : FVec F S4x9 .f32) (a7 : FVec F S9 .f32) (a8 : FVec F S9x128 .f32) (a9 : FVec F S128 .f32) (a10 : FVec F S128 .f32) (a11 : FVec F S128 .f32) (a12 : FVec F S128 .f32) (a13 : FVec F S128 .f32) (a14 : FVec F S128x128 .f32) (a15 : FVec F S128 .f32) (a16 : FVec F S4x128 .f32) (a17 : FVec F S128 .f32) (a18 : FVec F S128x64 .f32) (a19 : FVec F S64 .f32) (a20 : FVec F S64 .f32) (a21 : FVec F S64 .f32) (a22 : FVec F S64 .f32) (a23 : FVec F S64 .f32) (a24 : FVec F S64x64 .f32) (a25 : FVec F S64 .f32) (a26 : FVec F S64x16 .f32) (a27 : FVec F S16 .f32) (a28 : FVec F S16x1 .f32) (a29 : FVec F S1 .f32) (a30 : FVec F S64x16 .f32) (a31 : FVec F S16 .f32) (a32 : FVec F S16x4 .f32) (a33 : FVec F S4 .f32) :
    ∃ X : IVec S_ 1, fn (F := F) a0 a1 a2 a3 a4 a5 a6 a7 a8 a9 a10 a11 a12 a13 a14 a15 a16 a17 a18 a19 a20 a21 a22 a23 a24 a25 a26 a27 a28 a29 a30 a31 a32 a33
      = andi (andi X (Host.reduce IntOp.andi (inRange (srcOf a1) bcast_S_S1200000) (constantI S_ 1 1#1) reducesTo_S1200000_S_d0 h_S_))
          (Host.reduce IntOp.andi (inRange a5 bcast_S_S64) (constantI S_ 1 1#1) reducesTo_S64_S_d0 h_S_) :=
  ⟨_, rfl⟩

/-- Both "for all lanes" bits are set when the precondition holds. -/
theorem all_set {F : FTy → Type} [FloatOps F] (a0 : FVec F S100000x9 .f32) (a1 : IVec S2x1200000 32) (a2 : FVec F S1200000x4 .f32) (a3 : IVec S100000 32) (a4 : IVec S65 32) (a5 : IVec S64 32) (a6 : FVec F S4x9 .f32) (a7 : FVec F S9 .f32) (a8 : FVec F S9x128 .f32) (a9 : FVec F S128 .f32) (a10 : FVec F S128 .f32) (a11 : FVec F S128 .f32) (a12 : FVec F S128 .f32) (a13 : FVec F S128 .f32) (a14 : FVec F S128x128 .f32) (a15 : FVec F S128 .f32) (a16 : FVec F S4x128 .f32) (a17 : FVec F S128 .f32) (a18 : FVec F S128x64 .f32) (a19 : FVec F S64 .f32) (a20 : FVec F S64 .f32) (a21 : FVec F S64 .f32) (a22 : FVec F S64 .f32) (a23 : FVec F S64 .f32) (a24 : FVec F S64x64 .f32) (a25 : FVec F S64 .f32) (a26 : FVec F S64x16 .f32) (a27 : FVec F S16 .f32) (a28 : FVec F S16x1 .f32) (a29 : FVec F S1 .f32) (a30 : FVec F S64x16 .f32) (a31 : FVec F S16 .f32) (a32 : FVec F S16x4 .f32) (a33 : FVec F S4 .f32)
    (h : fn (F := F) a0 a1 a2 a3 a4 a5 a6 a7 a8 a9 a10 a11 a12 a13 a14 a15 a16 a17 a18 a19 a20 a21 a22 a23 a24 a25 a26 a27 a28 a29 a30 a31 a32 a33 = fun _ => 1#1) :
    Host.reduce IntOp.andi (inRange (srcOf a1) bcast_S_S1200000) (constantI S_ 1 1#1) reducesTo_S1200000_S_d0 h_S_ ValueIdx.ix0 = 1#1
    ∧ Host.reduce IntOp.andi (inRange a5 bcast_S_S64) (constantI S_ 1 1#1) reducesTo_S64_S_d0 h_S_ ValueIdx.ix0 = 1#1 := by
  obtain ⟨X, hX⟩ := fn_eq (F := F) a0 a1 a2 a3 a4 a5 a6 a7 a8 a9 a10 a11 a12 a13 a14 a15 a16 a17 a18 a19 a20 a21 a22 a23 a24 a25 a26 a27 a28 a29 a30 a31 a32 a33
  have e := congrFun h ValueIdx.ix0
  rw [hX] at e
  have e' : IntOp.andi (IntOp.andi (X ValueIdx.ix0)
      (Host.reduce IntOp.andi (inRange (srcOf a1) bcast_S_S1200000) (constantI S_ 1 1#1) reducesTo_S1200000_S_d0 h_S_ ValueIdx.ix0))
      (Host.reduce IntOp.andi (inRange a5 bcast_S_S64) (constantI S_ 1 1#1) reducesTo_S64_S_d0 h_S_ ValueIdx.ix0) = 1#1 := e
  rw [IntOp.andi_eq_one, IntOp.andi_eq_one] at e'
  exact ⟨e'.1.2, e'.2⟩

/-- Every source index is at least -100000 and below 100000. -/
theorem src_range {F : FTy → Type} [FloatOps F] (a0 : FVec F S100000x9 .f32) (a1 : IVec S2x1200000 32) (a2 : FVec F S1200000x4 .f32) (a3 : IVec S100000 32) (a4 : IVec S65 32) (a5 : IVec S64 32) (a6 : FVec F S4x9 .f32) (a7 : FVec F S9 .f32) (a8 : FVec F S9x128 .f32) (a9 : FVec F S128 .f32) (a10 : FVec F S128 .f32) (a11 : FVec F S128 .f32) (a12 : FVec F S128 .f32) (a13 : FVec F S128 .f32) (a14 : FVec F S128x128 .f32) (a15 : FVec F S128 .f32) (a16 : FVec F S4x128 .f32) (a17 : FVec F S128 .f32) (a18 : FVec F S128x64 .f32) (a19 : FVec F S64 .f32) (a20 : FVec F S64 .f32) (a21 : FVec F S64 .f32) (a22 : FVec F S64 .f32) (a23 : FVec F S64 .f32) (a24 : FVec F S64x64 .f32) (a25 : FVec F S64 .f32) (a26 : FVec F S64x16 .f32) (a27 : FVec F S16 .f32) (a28 : FVec F S16x1 .f32) (a29 : FVec F S1 .f32) (a30 : FVec F S64x16 .f32) (a31 : FVec F S16 .f32) (a32 : FVec F S16x4 .f32) (a33 : FVec F S4 .f32)
    (h : fn (F := F) a0 a1 a2 a3 a4 a5 a6 a7 a8 a9 a10 a11 a12 a13 a14 a15 a16 a17 a18 a19 a20 a21 a22 a23 a24 a25 a26 a27 a28 a29 a30 a31 a32 a33 = fun _ => 1#1) (e : S1200000.Idx) :
    (4294867296#32).sle (srcOf a1 e) = true ∧ (srcOf a1 e).slt 100000#32 = true :=
  inRange_lane (srcOf a1) bcast_S_S1200000 e
    (Host.reduce_andi_all _ _ _ _ ValueIdx.ix0 (all_set (F := F) a0 a1 a2 a3 a4 a5 a6 a7 a8 a9 a10 a11 a12 a13 a14 a15 a16 a17 a18 a19 a20 a21 a22 a23 a24 a25 a26 a27 a28 a29 a30 a31 a32 a33 h).1 e)

/-- Every target index is at least -100000 and below 100000. -/
theorem tgt_range {F : FTy → Type} [FloatOps F] (a0 : FVec F S100000x9 .f32) (a1 : IVec S2x1200000 32) (a2 : FVec F S1200000x4 .f32) (a3 : IVec S100000 32) (a4 : IVec S65 32) (a5 : IVec S64 32) (a6 : FVec F S4x9 .f32) (a7 : FVec F S9 .f32) (a8 : FVec F S9x128 .f32) (a9 : FVec F S128 .f32) (a10 : FVec F S128 .f32) (a11 : FVec F S128 .f32) (a12 : FVec F S128 .f32) (a13 : FVec F S128 .f32) (a14 : FVec F S128x128 .f32) (a15 : FVec F S128 .f32) (a16 : FVec F S4x128 .f32) (a17 : FVec F S128 .f32) (a18 : FVec F S128x64 .f32) (a19 : FVec F S64 .f32) (a20 : FVec F S64 .f32) (a21 : FVec F S64 .f32) (a22 : FVec F S64 .f32) (a23 : FVec F S64 .f32) (a24 : FVec F S64x64 .f32) (a25 : FVec F S64 .f32) (a26 : FVec F S64x16 .f32) (a27 : FVec F S16 .f32) (a28 : FVec F S16x1 .f32) (a29 : FVec F S1 .f32) (a30 : FVec F S64x16 .f32) (a31 : FVec F S16 .f32) (a32 : FVec F S16x4 .f32) (a33 : FVec F S4 .f32)
    (h : fn (F := F) a0 a1 a2 a3 a4 a5 a6 a7 a8 a9 a10 a11 a12 a13 a14 a15 a16 a17 a18 a19 a20 a21 a22 a23 a24 a25 a26 a27 a28 a29 a30 a31 a32 a33 = fun _ => 1#1) (j : S64.Idx) :
    (4294867296#32).sle (a5 j) = true ∧ (a5 j).slt 100000#32 = true :=
  inRange_lane a5 bcast_S_S64 j
    (Host.reduce_andi_all _ _ _ _ ValueIdx.ix0 (all_set (F := F) a0 a1 a2 a3 a4 a5 a6 a7 a8 a9 a10 a11 a12 a13 a14 a15 a16 a17 a18 a19 a20 a21 a22 a23 a24 a25 a26 a27 a28 a29 a30 a31 a32 a33 h).2 j)

end Cert.Bridge.IndexRange

end
-- ==== Proof.Algebraic.lean ====
/-
  The value conjunct. From memories that agree on the arguments, under the precondition, both idealized programs run
  to the end and their three results are equal entry by entry as extended reals. The precondition's two index
  conjuncts say that every source index and every target location lies in -100000 … 99999; wrapped the way both
  programs wrap a negative index, it lies in 0 … 99999, so the kernel program's guarded gathers are the plain
  gathers the reference performs. With that, the kernel program's results at the end of its run are the arrays named
  from its launch memory, each of those is the reference's array at the same stage, and the reference's run ends
  with exactly those.
-/
import proofs.«428024_j38096359915723_1_alg».proof.Defs
import proofs.«428024_j38096359915723_1_alg».proof.Proof.KernelRun
import proofs.«428024_j38096359915723_1_alg».proof.Proof.KernelValue
import proofs.«428024_j38096359915723_1_alg».proof.Proof.Meet
import proofs.«428024_j38096359915723_1_alg».proof.Proof.IndexRange
import proofs.«428024_j38096359915723_1_alg».proof.Proof.Gen.ReferenceIdeal.Read
import proofs.«428024_j38096359915723_1_alg».proof.Proof.Gen.KernelIdeal
import proofs.«428024_j38096359915723_1_alg».proof.Proof.Gen.ReferenceIdeal
import proofs.«428024_j38096359915723_1_alg».proof.Proof.Gen.Pre_finite_inputs

set_option maxRecDepth 16384

noncomputable section

namespace Cert.Proof.Parts

open Idealize.ShloMosaic Idealize.ShloMosaic.TcCoe Idealize.SL.Sem
open Cert.Bridge Cert.Bridge.KernelValue

/-- Every source index, wrapped, is a row of the table: from the precondition. -/
theorem src_wrapped (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S1200000.Idx) :
    Wrapped (Fold.ksrc m c e) := by
  obtain ⟨hlo, hhi⟩ := IndexRange.src_range _ _ _ _ _ _ _ _ _ _ _ _ _ _ _ _ _ _ _ _ _ _ _ _ _ _ _ _ _ _ _ _ _ _ (hpre c) e
  exact IndexRange.wrap_in_range _ hlo hhi

/-- Every target location, wrapped, is a row of the table: from the precondition. -/
theorem tgt_wrapped (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S64.Idx) :
    Wrapped ((at0 m c Cert.KernelIdeal.main_arg5 : IVec Cert.KernelIdeal.S64 32) j) := by
  obtain ⟨hlo, hhi⟩ := IndexRange.tgt_range _ _ _ _ _ _ _ _ _ _ _ _ _ _ _ _ _ _ _ _ _ _ _ _ _ _ _ _ _ _ _ _ _ _ (hpre c) j
  exact IndexRange.wrap_in_range _ hlo hhi

theorem algebraic : Cert.algebraic_KernelIdeal_ReferenceIdeal := by
  intro m ρ m' ρ' hpre hagree
  refine ⟨fun c => Cert.KernelIdeal.Gen.W18 (F := Ideal) m ρ c (Proc.devRef .tc Cert.KernelIdeal.main_v33),
    fun c => Cert.KernelIdeal.Gen.W18 (F := Ideal) m ρ c (Proc.devRef .tc Cert.KernelIdeal.main_v43),
    fun c => Cert.KernelIdeal.Gen.W18 (F := Ideal) m ρ c (Proc.devRef .tc Cert.KernelIdeal.main_v29),
    Cert.KernelIdeal.KRun.run_results (F := Ideal) m ρ, ?_⟩
  refine (θ_run Cert.ReferenceIdeal.defs _ _).mono (fun r h c => ?_) (Cert.ReferenceIdeal.Value.run (F := Ideal) m' ρ')
  have hs := src_wrapped m hpre c
  have ht := tgt_wrapped m hpre c
  obtain ⟨h0, h1, h2, h3, h4, h5, h6, h7, h8, h9, h10, h11, h12, h13, h14, h15, h16, h17, h18, h19, h20, h21, h22, h23, h24, h25, h26, h27, h28, h29, h30, h31, h32, h33⟩ := hagree c
  refine ⟨(h c).1.trans ?_, (h c).2.1.trans ?_, (h c).2.2.1.trans ?_, (h c).2.2.2⟩
  · rw [Cert.ReferenceIdeal.Read.val_main_v97_eq m' c]
    simp only [h0, h1, h2, h3, h4, h5, h6, h7, h8, h9, h10, h11, h12, h13, h14, h15, h16, h17, h18, h19, h20, h21, h22, h23, h24, h25, h26, h27, h28, h29, h30, h31, h32, h33]
    exact ((result_loc m ρ c hs).trans (Meet.loc_meet m c)).symm
  · rw [Cert.ReferenceIdeal.Read.val_main_v113_eq m' c]
    simp only [h0, h1, h2, h3, h4, h5, h6, h7, h8, h9, h10, h11, h12, h13, h14, h15, h16, h17, h18, h19, h20, h21, h22, h23, h24, h25, h26, h27, h28, h29, h30, h31, h32, h33]
    exact ((result_mut m ρ c hs ht).trans (Meet.mut_meet m c)).symm
  · rw [Cert.ReferenceIdeal.Read.val_main_v87_eq m' c]
    simp only [h0, h1, h2, h3, h4, h5, h6, h7, h8, h9, h10, h11, h12, h13, h14, h15, h16, h17, h18, h19, h20, h21, h22, h23, h24, h25, h26, h27, h28, h29, h30, h31, h32, h33]
    exact ((result_nodes m ρ c hs).trans (Meet.x2_meet m c)).symm

end Cert.Proof.Parts

end
-- ==== Proof.lean ====
/-
  The certificate: a Pallas kernel for a two-layer edge-conditioned graph network with a location head and a mutation
  head, against its plain reference, over the extended reals. Both printed programs run without a fault and keep their
  arguments; the idealized kernel is the kernel's own text read over the extended reals; and under the precondition —
  every float input finite, every source index and target location a valid index of the 100000-row table, negative
  ones counted from the end — the idealized kernel and the idealized reference end with equal results.
-/
import proofs.«428024_j38096359915723_1_alg».proof.Defs
import proofs.«428024_j38096359915723_1_alg».proof.Proof.Gen.Kernel
import proofs.«428024_j38096359915723_1_alg».proof.Proof.Gen.KernelIdeal
import proofs.«428024_j38096359915723_1_alg».proof.Proof.Gen.ReferenceIdeal
import proofs.«428024_j38096359915723_1_alg».proof.Proof.Gen.Pre_finite_inputs
import proofs.«428024_j38096359915723_1_alg».proof.Proof.Frames
import proofs.«428024_j38096359915723_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_kernel, Cert.Proof.Parts.frame_kernelIdeal, Cert.Proof.Parts.frame_referenceIdeal,
    Cert.Proof.Parts.preserves, Cert.Proof.Parts.algebraic⟩

end Cert.Proof

end
